-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S64x256 : Shape := ⟨2, ![64, 256]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S200000 : S_.BroadcastsInDim S200000 (![] : Fin 0 → Fin S200000.rank)
  reducesTo_S200000_S_d0 : S200000.ReducesTo [0] S_

variable [Facts]

def fn_part3 {F : FTy → Type} [FloatOps F] (main_arg1 : IVec S200000 32) (main_v48 : IVec S_ 1) (main_v50 : IVec S200000 1) : IVec S_ 1 :=
  let main_c_19 : IVec S_ 1 := constantI S_ 1 1#1
  let main_v51 : IVec S_ 1 := (fun x v => Host.reduce IntOp.andi x v reducesTo_S200000_S_d0 h_S_) main_v50 main_c_19
  let main_v52 : IVec S_ 1 := andi main_v48 main_v51
  let main_c_20 : IVec S_ 32 := constantI S_ 32 64#32
  let main_v53 : IVec S200000 32 := broadcastInDim S200000 ![] bcast_S_S200000 main_c_20
  let main_v54 : IVec S200000 1 := cmpi .slt main_arg1 main_v53
  let main_c_21 : IVec S_ 1 := constantI S_ 1 1#1
  let main_v55 : IVec S_ 1 := (fun x v => Host.reduce IntOp.andi x v reducesTo_S200000_S_d0 h_S_) main_v54 main_c_21
  let main_v56 : IVec S_ 1 := andi main_v52 main_v55
  main_v56

def fn_part2 {F : FTy → Type} [FloatOps F] (main_arg1 : IVec S200000 32) (main_arg8 : FVec F S256 .f32) (main_arg9 : FVec F S256x256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_c_18 : IVec S_ 32 := constantI S_ 32 0#32
  let main_v49 : IVec S200000 32 := broadcastInDim S200000 ![] bcast_S_S200000 main_c_18
  let main_v50 : IVec S200000 1 := cmpi .sge main_arg1 main_v49
  fn_part3 (F := F) main_arg1 main_v48 main_v50

def fn_part1 {F : FTy → Type} [FloatOps F] (main_arg1 : IVec S200000 32) (main_arg5 : FVec F S256x256 .f32) (main_arg6 : FVec F S256 .f32) (main_arg7 : FVec F S512x256 .f32) (main_arg8 : FVec F S256 .f32) (main_arg9 : FVec F S256x256 .f32) (main_arg10 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S200000x256 .f32) (main_arg1 : IVec S200000 32) (main_arg2 : FVec F S64x256 .f32) (main_arg3 : FVec F S512x256 .f32) (main_arg4 : FVec F S256 .f32) (main_arg5 : FVec F S256x256 .f32) (main_arg6 : FVec F S256 .f32) (main_arg7 : FVec F S512x256 .f32) (main_arg8 : FVec F S256 .f32) (main_arg9 : FVec F S256x256 .f32) (main_arg10 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_v13 main_v16
-- ==== Kernel.lean ====
abbrev S200000x256 : Shape := ⟨2, ![200000, 256]⟩
abbrev S200000 : Shape := ⟨1, ![200000]⟩
abbrev S64x256 : Shape := ⟨2, ![64, 256]⟩
abbrev S512x256 : Shape := ⟨2, ![512, 256]⟩
abbrev S256 : Shape := ⟨1, ![256]⟩
abbrev S256x256 : Shape := ⟨2, ![256, 256]⟩
abbrev S_ : Shape := ⟨0, ![]⟩
abbrev S200000x1 : Shape := ⟨2, ![200000, 1]⟩
abbrev S50x64x256 : Shape := ⟨3, ![50, 64, 256]⟩
abbrev S4000x256 : Shape := ⟨2, ![4000, 256]⟩
abbrev S4000x1 : Shape := ⟨2, ![4000, 1]⟩
abbrev S1x64x256 : Shape := ⟨3, ![1, 64, 256]⟩
abbrev S1x64 : Shape := ⟨2, ![1, 64]⟩
abbrev S4000x64 : Shape := ⟨2, ![4000, 64]⟩
abbrev S1x256 : Shape := ⟨2, ![1, 256]⟩
abbrev S64x1 : Shape := ⟨2, ![64, 1]⟩

abbrev nBuf : Space → Nat
  | .hbm => 33
  | .vmem => 25
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S64x256, .f32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S_, .i32⟩
  | .hbm, ⟨17, _⟩ => ⟨S200000, .i32⟩
  | .hbm, ⟨18, _⟩ => ⟨S200000, .i32⟩
  | .hbm, ⟨19, _⟩ => ⟨S200000x1, .i32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S200000x256, .f32⟩
  | .hbm, ⟨25, _⟩ => ⟨S50x64x256, .f32⟩
  | .hbm, ⟨26, _⟩ => ⟨S_, .f32⟩
  | .hbm, ⟨27, _⟩ => ⟨S200000x1, .f32⟩
  | .hbm, ⟨28, _⟩ => ⟨S_, .f32⟩
  | .hbm, ⟨29, _⟩ => ⟨S64x1, .f32⟩
  | .hbm, ⟨30, _⟩ => ⟨S200000x1, .i32⟩
  | .hbm, ⟨31, _⟩ => ⟨S64x1, .f32⟩
  | .hbm, ⟨32, _⟩ => ⟨S64x256, .f32⟩
  | .local _ .vmem, ⟨0, _⟩ => ⟨S4000x256, .f32⟩
  | .local _ .vmem, ⟨1, _⟩ => ⟨S4000x256, .f32⟩
  | .local _ .vmem, ⟨2, _⟩ => ⟨S4000x1, .i32⟩
  | .local _ .vmem, ⟨3, _⟩ => ⟨S4000x1, .i32⟩
  | .local _ .vmem, ⟨4, _⟩ => ⟨S64x256, .f32⟩
  | .local _ .vmem, ⟨5, _⟩ => ⟨S256x256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S4000x256, .f32⟩
  | .local _ .vmem, ⟨11, _⟩ => ⟨S4000x256, .f32⟩
  | .local _ .vmem, ⟨12, _⟩ => ⟨S1x64x256, .f32⟩
  | .local _ .vmem, ⟨13, _⟩ => ⟨S1x64x256, .f32⟩
  | .local _ .vmem, ⟨14, _⟩ => ⟨S1x64x256, .f32⟩
  | .local _ .vmem, ⟨15, _⟩ => ⟨S1x64x256, .f32⟩
  | .local _ .vmem, ⟨16, _⟩ => ⟨S64x1, .f32⟩
  | .local _ .vmem, ⟨17, _⟩ => ⟨S64x256, .f32⟩
  | .local _ .vmem, ⟨18, _⟩ => ⟨S256x256, .f32⟩
  | .local _ .vmem, ⟨19, _⟩ => ⟨S256x256, .f32⟩
  | .local _ .vmem, ⟨20, _⟩ => ⟨S256, .f32⟩
  | .local _ .vmem, ⟨21, _⟩ => ⟨S256x256, .f32⟩
  | .local _ .vmem, ⟨22, _⟩ => ⟨S256, .f32⟩
  | .local _ .vmem, ⟨23, _⟩ => ⟨S64x256, .f32⟩
  | .local _ .vmem, ⟨24, _⟩ => ⟨S64x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev main_cst : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v10 : BitVec 1 := Scalar.cmpi .eq arg0 c49_i32
  let v11 : BitVec 32 := Scalar.extui v10
  let c0_i32_7 : BitVec 32 := 0#32
  let v12 : BitVec 1 := Scalar.cmpi .ne v11 c0_i32_7
  v12

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  bcast_S_S200000 : S_.BroadcastsInDim S200000 (![] : Fin 0 → Fin S200000.rank)
  shapeCasts_S200000_S200000x1 : S200000.ShapeCasts S200000x1
  slices_S512x256_S256x256_0_0 : S512x256.Slices ![0, 0] S256x256
  slices_S512x256_S256x256_256_0 : S512x256.Slices ![256, 0] S256x256
  inb_S4000x256_S4000x256_0_0 : ∀ a, (![0, 0] : Fin 2 → Nat) a + S4000x256.size a ≤ S4000x256.size a
  h_S4000x256 : 0 < S4000x256.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S64x256_S64x256_0_0 : ∀ a, (![0, 0] : Fin 2 → Nat) a + S64x256.size a ≤ S64x256.size a
  h_S64x256 : 0 < S64x256.numel
  iota_S1x64_d1_w32 : S1x64.Iotas .tc 32 [1]
  broadcasts_S4000x1_S4000x64 : S4000x1.Broadcasts S4000x64
  broadcasts_S1x64_S4000x64 : S1x64.Broadcasts S4000x64
  natLt_1_32 : 1 < 32
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  bcast_S_S200000x1 : S_.BroadcastsInDim S200000x1 (![] : Fin 0 → Fin S200000x1.rank)
  bcast_S_S64x1 : S_.BroadcastsInDim S64x1 (![] : Fin 0 → Fin S64x1.rank)
  bcast_S200000_S200000x1_0 : S200000.BroadcastsInDim S200000x1 (![0] : Fin 1 → Fin S200000x1.rank)
  shapeCasts_S64x256_S64x256 : S64x256.ShapeCasts S64x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x256 : S64x1.Broadcasts S64x256
  broadcasts_S1x256_S64x256 : S1x256.Broadcasts S64x256
  dot_S4000x64_S64x256_S4000x256_1_0_0_1_n_n_wf : DotDims.WF S4000x64 S64x256 S4000x256 [1] [0] [0] [1] [] []
  dot_S4000x256_S256x256_S4000x256_1_0_0_1_n_n_wf : DotDims.WF S4000x256 S256x256 S4000x256 [1] [0] [0] [1] [] []
  dot_S4000x64_S4000x256_S64x256_0_0_1_1_n_n_wf : DotDims.WF S4000x64 S4000x256 S64x256 [0] [0] [1] [1] [] []
  scatter_S64x1_S200000x1_S200000x1_1_0_0_1_wf : ScatterDims.WF S64x1 S200000x1 S200000x1 [1] [0] [0] 1
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S200000x1.size a
  hwx0_1 : ∀ i : grid0.Coords, EltTy.bits .i32 = 32 ∨ (Rect.block (s := S200000x1) S4000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x256.size a ≤ S200000x256.size a
  hwx0_8 : ∀ i : grid0.Coords, EltTy.bits .f32 = 32 ∨ (Rect.block (s := S200000x256) S4000x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x256.size a ≤ S50x64x256.size a
  hwx0_9 : ∀ i : grid0.Coords, EltTy.bits .f32 = 32 ∨ (Rect.block (s := S50x64x256) S1x64x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x256.size a ≤ S50x64x256.size a
  hwx1_0 : ∀ i : grid1.Coords, EltTy.bits .f32 = 32 ∨ (Rect.block (s := S50x64x256) S1x64x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x256.size a ≤ S64x256.size a
  hwx1_8 : ∀ i : grid1.Coords, EltTy.bits .f32 = 32 ∨ (Rect.block (s := S64x256) S64x256.size (cc1_transform_8 i) (hinb1_8 i)).WholeWords (EltTy.packing .f32)

variable [Facts₀]

def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x64_S4000x256_S64x256_0_0_1_1_n_n : DotDims S4000x64 S4000x256 S64x256 where
  lhsContracting := [0]
  rhsContracting := [0]
  lhsNonContracting := [1]
  rhsNonContracting := [1]
  lhsBatch := []
  rhsBatch := []
  wf := dot_S4000x64_S4000x256_S64x256_0_0_1_1_n_n_wf
def scatter_S64x1_S200000x1_S200000x1_1_0_0_1 : ScatterDims S64x1 S200000x1 S200000x1 where
  updateWindowDims := [1]
  insertedWindowDims := [0]
  scatterDimsToOperandDims := [0]
  indexVectorDim := 1
  wf := scatter_S64x1_S200000x1_S200000x1_1_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S4000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S1x64x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_1) S1x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S64x256.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S200000x256 : Shape := ⟨2, ![200000, 256]⟩
abbrev S200000 : Shape := ⟨1, ![200000]⟩
abbrev S64x256 : Shape := ⟨2, ![64, 256]⟩
abbrev S512x256 : Shape := ⟨2, ![512, 256]⟩
abbrev S256 : Shape := ⟨1, ![256]⟩
abbrev S256x256 : Shape := ⟨2, ![256, 256]⟩
abbrev S_ : Shape := ⟨0, ![]⟩
abbrev S200000x1 : Shape := ⟨2, ![200000, 1]⟩
abbrev S200000x512 : Shape := ⟨2, ![200000, 512]⟩
abbrev S1x256 : Shape := ⟨2, ![1, 256]⟩
abbrev S64x1 : Shape := ⟨2, ![64, 1]⟩
abbrev S64x512 : Shape := ⟨2, ![64, 512]⟩

abbrev nBuf : Space → Nat
  | .hbm => 102
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S64x256, .f32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S_, .i32⟩
  | .hbm, ⟨12, _⟩ => ⟨S200000, .i32⟩
  | .hbm, ⟨13, _⟩ => ⟨S200000, .i1⟩
  | .hbm, ⟨14, _⟩ => ⟨S_, .i32⟩
  | .hbm, ⟨15, _⟩ => ⟨S200000, .i32⟩
  | .hbm, ⟨16, _⟩ => ⟨S200000, .i32⟩
  | .hbm, ⟨17, _⟩ => ⟨S200000, .i32⟩
  | .hbm, ⟨18, _⟩ => ⟨S200000x1, .i32⟩
  | .hbm, ⟨19, _⟩ => ⟨S200000x256, .f32⟩
  | .hbm, ⟨20, _⟩ => ⟨S200000x512, .f32⟩
  | .hbm, ⟨21, _⟩ => ⟨S200000x256, .f32⟩
  | .hbm, ⟨22, _⟩ => ⟨S1x256, .f32⟩
  | .hbm, ⟨23, _⟩ => ⟨S200000x256, .f32⟩
  | .hbm, ⟨24, _⟩ => ⟨S200000x256, .f32⟩
  | .hbm, ⟨25, _⟩ => ⟨S200000x256, .f32⟩
  | .hbm, ⟨26, _⟩ => ⟨S200000x256, .f32⟩
  | .hbm, ⟨27, _⟩ => ⟨S_, .f32⟩
  | .hbm, ⟨28, _⟩ => ⟨S200000x256, .f32⟩
  | .hbm, ⟨29, _⟩ => ⟨S200000x256, .f32⟩
  | .hbm, ⟨30, _⟩ => ⟨S_, .f32⟩
  | .hbm, ⟨31, _⟩ => ⟨S200000x256, .f32⟩
  | .hbm, ⟨32, _⟩ => ⟨S200000x256, .f32⟩
  | .hbm, ⟨33, _⟩ => ⟨S200000x256, .f32⟩
  | .hbm, ⟨34, _⟩ => ⟨S_, .f32⟩
  | .hbm, ⟨35, _⟩ => ⟨S200000x256, .f32⟩
  | .hbm, ⟨36, _⟩ => ⟨S200000x256, .f32⟩
  | .hbm, ⟨37, _⟩ => ⟨S200000x256, .f32⟩
  | .hbm, ⟨38, _⟩ => ⟨S1x256, .f32⟩
  | .hbm, ⟨39, _⟩ => ⟨S200000x256, .f32⟩
  | .hbm, ⟨40, _⟩ => ⟨S200000x256, .f32⟩
  | .hbm, ⟨41, _⟩ => ⟨S200000x256, .f32⟩
  | .hbm, ⟨42, _⟩ => ⟨S200000x256, .f32⟩
  | .hbm, ⟨43, _⟩ => ⟨S_, .f32⟩
  | .hbm, ⟨44, _⟩ => ⟨S200000x256, .f32⟩
  | .hbm, ⟨45, _⟩ => ⟨S200000x256, .f32⟩
  | .hbm, ⟨46, _⟩ => ⟨S_, .f32⟩
  | .hbm, ⟨47, _⟩ => ⟨S200000x256, .f32⟩
  | .hbm, ⟨48, _⟩ => ⟨S200000x256, .f32⟩
  | .hbm, ⟨49, _⟩ => ⟨S200000x256, .f32⟩
  | .hbm, ⟨50, _⟩ => ⟨S_, .f32⟩
  | .hbm, ⟨51, _⟩ => ⟨S200000x256, .f32⟩
  | .hbm, ⟨52, _⟩ => ⟨S200000x256, .f32⟩
  | .hbm, ⟨53, _⟩ => ⟨S200000x256, .f32⟩
  | .hbm, ⟨54, _⟩ => ⟨S_, .f32⟩
  | .hbm, ⟨55, _⟩ => ⟨S64x256, .f32⟩
  | .hbm, ⟨56, _⟩ => ⟨S200000x1, .i32⟩
  | .hbm, ⟨57, _⟩ => ⟨S64x256, .f32⟩
  | .hbm, ⟨58, _⟩ => ⟨S_, .f32⟩
  | .hbm, ⟨59, _⟩ => ⟨S200000x1, .f32⟩
  | .hbm, ⟨60, _⟩ => ⟨S_, .f32⟩
  | .hbm, ⟨61, _⟩ => ⟨S64x1, .f32⟩
  | .hbm, ⟨62, _⟩ => ⟨S200000x1, .i32⟩
  | .hbm, ⟨63, _⟩ => ⟨S64x1, .f32⟩
  | .hbm, ⟨64, _⟩ => ⟨S_, .f32⟩
  | .hbm, ⟨65, _⟩ => ⟨S64x1, .f32⟩
  | .hbm, ⟨66, _⟩ => ⟨S64x1, .f32⟩
  | .hbm, ⟨67, _⟩ => ⟨S64x256, .f32⟩
  | .hbm, ⟨68, _⟩ => ⟨S64x256, .f32⟩
  | .hbm, ⟨69, _⟩ => ⟨S64x512, .f32⟩
  | .hbm, ⟨70, _⟩ => ⟨S64x256, .f32⟩
  | .hbm, ⟨71, _⟩ => ⟨S1x256, .f32⟩
  | .hbm, ⟨72, _⟩ => ⟨S64x256, .f32⟩
  | .hbm, ⟨73, _⟩ => ⟨S64x256, .f32⟩
  | .hbm, ⟨74, _⟩ => ⟨S64x256, .f32⟩
  | .hbm, ⟨75, _⟩ => ⟨S64x256, .f32⟩
  | .hbm, ⟨76, _⟩ => ⟨S_, .f32⟩
  | .hbm, ⟨77, _⟩ => ⟨S64x256, .f32⟩
  | .hbm, ⟨78, _⟩ => ⟨S64x256, .f32⟩
  | .hbm, ⟨79, _⟩ => ⟨S_, .f32⟩
  | .hbm, ⟨80, _⟩ => ⟨S64x256, .f32⟩
  | .hbm, ⟨81, _⟩ => ⟨S64x256, .f32⟩
  | .hbm, ⟨82, _⟩ => ⟨S64x256, .f32⟩
  | .hbm, ⟨83, _⟩ => ⟨S_, .f32⟩
  | .hbm, ⟨84, _⟩ => ⟨S64x256, .f32⟩
  | .hbm, ⟨85, _⟩ => ⟨S64x256, .f32⟩
  | .hbm, ⟨86, _⟩ => ⟨S64x256, .f32⟩
  | .hbm, ⟨87, _⟩ => ⟨S1x256, .f32⟩
  | .hbm, ⟨88, _⟩ => ⟨S64x256, .f32⟩
  | .hbm, ⟨89, _⟩ => ⟨S64x256, .f32⟩
  | .hbm, ⟨90, _⟩ => ⟨S64x256, .f32⟩
  | .hbm, ⟨91, _⟩ => ⟨S64x256, .f32⟩
  | .hbm, ⟨92, _⟩ => ⟨S_, .f32⟩
  | .hbm, ⟨93, _⟩ => ⟨S64x256, .f32⟩
  | .hbm, ⟨94, _⟩ => ⟨S64x256, .f32⟩
  | .hbm, ⟨95, _⟩ => ⟨S_, .f32⟩
  | .hbm, ⟨96, _⟩ => ⟨S64x256, .f32⟩
  | .hbm, ⟨97, _⟩ => ⟨S64x256, .f32⟩
  | .hbm, ⟨98, _⟩ => ⟨S64x256, .f32⟩
  | .hbm, ⟨99, _⟩ => ⟨S_, .f32⟩
  | .hbm, ⟨100, _⟩ => ⟨S64x256, .f32⟩
  | .hbm, ⟨101, _⟩ => ⟨S64x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v19 : Ref sig .tc := ⟨.hbm, 49, rfl⟩
abbrev main_cst_1 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_2 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_3 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_5 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v39 : Ref sig .tc := ⟨.hbm, 82, rfl⟩
abbrev main_cst_6 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_call3_v0 : Ref sig .tc := ⟨.hbm, 90, rfl⟩
abbrev main_call3_v1 : Ref sig .tc := ⟨.hbm, 91, rfl⟩
abbrev main_call3_cst : Ref sig .tc := ⟨.hbm, 92, rfl⟩
abbrev main_call3_v2 : Ref sig .tc := ⟨.hbm, 93, rfl⟩
abbrev main_call3_v3 : Ref sig .tc := ⟨.hbm, 94, rfl⟩
abbrev main_call3_cst_0 : Ref sig .tc := ⟨.hbm, 95, rfl⟩
abbrev main_call3_v4 : Ref sig .tc := ⟨.hbm, 96, rfl⟩
abbrev main_call3_v5 : Ref sig .tc := ⟨.hbm, 97, rfl⟩
abbrev main_v46 : Ref sig .tc := ⟨.hbm, 98, rfl⟩
abbrev main_cst_7 : Ref sig .tc := ⟨.hbm, 99, rfl⟩
abbrev main_v47 : Ref sig .tc := ⟨.hbm, 100, rfl⟩
abbrev main_v48 : Ref sig .tc := ⟨.hbm, 101, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x256_S200000x256_S200000x512_d1 : Shape.Concatenates [S200000x256, S200000x256] S200000x512 1
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S_S64x256 : S_.BroadcastsInDim S64x256 (![] : Fin 0 → Fin S64x256.rank)
  bcast_S_S200000x1 : S_.BroadcastsInDim S200000x1 (![] : Fin 0 → Fin S200000x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  concatenates_S64x256_S64x256_S64x512_d1 : Shape.Concatenates [S64x256, S64x256] S64x512 1
  bcast_S1x256_S64x256_0_1 : S1x256.BroadcastsInDim S64x256 (![0, 1] : Fin 2 → Fin S64x256.rank)
  gather_S64x256_S200000x1_S200000x256_1_0_n_n_0_1_1256_wf : GatherDims.WF S64x256 S200000x1 S200000x256 [1] [0] [] [0] [] 1 ![1, 256]
  dot_S200000x512_S512x256_S200000x256_1_0_0_1_n_n_wf : DotDims.WF S200000x512 S512x256 S200000x256 [1] [0] [0] [1] [] []
  dot_S200000x256_S256x256_S200000x256_1_0_0_1_n_n_wf : DotDims.WF S200000x256 S256x256 S200000x256 [1] [0] [0] [1] [] []
  scatter_S64x256_S200000x1_S200000x256_1_0_0_1_wf : ScatterDims.WF S64x256 S200000x1 S200000x256 [1] [0] [0] 1
  scatter_S64x1_S200000x1_S200000x1_1_0_0_1_wf : ScatterDims.WF S64x1 S200000x1 S200000x1 [1] [0] [0] 1
  dot_S64x512_S512x256_S64x256_1_0_0_1_n_n_wf : DotDims.WF S64x512 S512x256 S64x256 [1] [0] [0] [1] [] []
  dot_S64x256_S256x256_S64x256_1_0_0_1_n_n_wf : DotDims.WF S64x256 S256x256 S64x256 [1] [0] [0] [1] [] []

variable [Facts₀]

def gather_S64x256_S200000x1_S200000x256_1_0_n_n_0_1_1256 : GatherDims S64x256 S200000x1 S200000x256 where
  offsetDims := [1]
  collapsedSliceDims := [0]
  operandBatchingDims := []
  startIndicesBatchingDims := []
  startIndexMap := [0]
  indexVectorDim := 1
  sliceSizes := ![1, 256]
  wf := gather_S64x256_S200000x1_S200000x256_1_0_n_n_0_1_1256_wf
def dot_S200000x512_S512x256_S200000x256_1_0_0_1_n_n : DotDims S200000x512 S512x256 S200000x256 where
  lhsContracting := [1]
  rhsContracting := [0]
  lhsNonContracting := [0]
  rhsNonContracting := [1]
  lhsBatch := []
  rhsBatch := []
  wf := dot_S200000x512_S512x256_S200000x256_1_0_0_1_n_n_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S64x256_S200000x1_S200000x256_1_0_0_1 : ScatterDims S64x256 S200000x1 S200000x256 where
  updateWindowDims := [1]
  insertedWindowDims := [0]
  scatterDimsToOperandDims := [0]
  indexVectorDim := 1
  wf := scatter_S64x256_S200000x1_S200000x256_1_0_0_1_wf
def scatter_S64x1_S200000x1_S200000x1_1_0_0_1 : ScatterDims S64x1 S200000x1 S200000x1 where
  updateWindowDims := [1]
  insertedWindowDims := [0]
  scatterDimsToOperandDims := [0]
  indexVectorDim := 1
  wf := scatter_S64x1_S200000x1_S200000x1_1_0_0_1_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

class Facts : Prop extends Facts₀ where

variable [Facts]
-- ==== Proof.KI.R0Defs.lean ====
/-
  Region 0 of the node-update program (the node MLP over one tile of 4000 rows), entered at any contents `V` of the
  TensorCore's buffers: the blocks its eight input windows stage at a grid point, what its body leaves in the two
  output windows' staging buffers as pure functions of those blocks (the updated rows; the tile's one-hot partial
  segment sums), the body's triple, and the pipeline's proof data with its body obligation.
-/
import proofs.«425103_j12841952215344_2_alg».proof.Proof.Gen.KernelIdeal.Launch
import proofs.«425103_j12841952215344_2_alg».proof.Proof.Gen.KernelIdeal.Skeleton
import proofs.«425103_j12841952215344_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole staging buffer -/

abbrev rX : Rect S4000x256 := Rect.unit (s := S4000x256) ![0, 0] S4000x256.size inb_S4000x256_S4000x256_0_0
abbrev rB : Rect S4000x1 := Rect.unit (s := S4000x1) ![0, 0] S4000x1.size inb_S4000x1_S4000x1_0_0
abbrev rV : Rect S64x256 := Rect.unit (s := S64x256) ![0, 0] S64x256.size inb_S64x256_S64x256_0_0
abbrev rW : Rect S256x256 := Rect.unit (s := S256x256) ![0, 0] S256x256.size inb_S256x256_S256x256_0_0
abbrev rb : Rect S256 := Rect.unit (s := S256) ![0] S256.size inb_S256_S256_0
abbrev rP : Rect S1x64x256 := Rect.unit (s := S1x64x256) ![0, 0, 0] S1x64x256.size inb_S1x64x256_S1x64x256_0_0_0

/-! ## What the body leaves in each output window's buffer -/

/-- The second layer's pre-activation of the tile, from the eight input blocks. -/
def pre0 (x0 : Vec F S4000x256 .f32) (x1 : Vec F S4000x1 .i32) (x2 : Vec F S64x256 .f32) (x3 x4 : Vec F S256x256 .f32)
    (x5 : Vec F S256 .f32) (x6 : Vec F S256x256 .f32) (x7 : Vec F S256 .f32) : FVec F S4000x256 .f32 :=
  k0_pay4 (View.ld x0 rX) (View.ld x1 rB) (View.ld x2 rV) (View.ld x3 rW) (View.ld x4 rW) (View.ld x5 rb) (View.ld x6 rW) (View.ld x7 rb)

/-- The updated rows of the tile (window 8's staging buffer after the body): its one store as a piece. -/
def out0_8 (x0 : Vec F S4000x256 .f32) (x1 : Vec F S4000x1 .i32) (x2 : Vec F S64x256 .f32) (x3 x4 : Vec F S256x256 .f32)
    (x5 : Vec F S256 .f32) (x6 : Vec F S256x256 .f32) (x7 : Vec F S256 .f32) : Vec F S4000x256 .f32 :=
  View.canon [⟨rX, k0_pay1 (View.ld x0 rX) (pre0 x0 x1 x2 x3 x4 x5 x6 x7)⟩]

/-- The tile's partial segment sums (window 9's staging buffer after the body): its one store as a piece. -/
def out0_9 (x0 : Vec F S4000x256 .f32) (x1 : Vec F S4000x1 .i32) (x2 : Vec F S64x256 .f32) (x3 x4 : Vec F S256x256 .f32)
    (x5 : Vec F S256 .f32) (x6 : Vec F S256x256 .f32) (x7 : Vec F S256 .f32) : Vec F S1x64x256 .f32 :=
  View.canon [⟨rP, k0_pay2 (View.ld x0 rX) (k0_pay3 (View.ld x1 rB)) (pre0 x0 x1 x2 x3 x4 x5 x6 x7)⟩]

/-! ## The pipeline's proof data -/

/-- The proof data of pipeline 0 on core `c`: the arrays as the region finds them; after the body at point `t` each
    input's buffer at its block and each output's at its function of the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) (iblk0 V c 6 t) (iblk0 V c 7 t) := by
  dsimp only [dat0]
theorem after0_9 (c : Dev nD) (t : Fin cfg0.N) : (dat0 V c).after 9 t
    = out0_9 (iblk0 V c 0 t) (iblk0 V c 1 t) (iblk0 V c 2 t) (iblk0 V c 3 t) (iblk0 V c 4 t) (iblk0 V c 5 t) (iblk0 V c 6 t) (iblk0 V c 7 t) := by
  dsimp only [dat0]

end Cert.KernelIdeal.Hand

end
-- ==== Proof.KI.R1Defs.lean ====
/-
  Region 1 of the node-update program (the virtual-node update: a running sum of the fifty tiles' partial segment sums
  kept in a scratch buffer, and at the last grid point the mean pooling and the two-layer MLP), entered at any contents
  `V` of the TensorCore's buffers: the blocks its input windows stage, the running sum after each grid point, what the
  last point leaves in the output window, the invariant that carries the scratch between points, the proof data and
  the body obligation.
-/
import proofs.«425103_j12841952215344_2_alg».proof.Proof.Gen.KernelIdeal.Launch
import proofs.«425103_j12841952215344_2_alg».proof.Proof.Gen.KernelIdeal.Skeleton
import proofs.«425103_j12841952215344_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer the kernel keeps its running sum in, as a whole memref. -/
abbrev scM1 : Memref sig .tc .vmem S64x256 .f32 := Memref.whole cc1_scratch0

/-- The last grid point. -/
abbrev tLast1 : Fin cfg1.N := ⟨49, by decide⟩

/-! ## The running sum -/

/-- What the scratch holds after the body at position `n`: zero plus the first tile's partial sums at the first point,
    then what the point before left plus this point's tile. -/
def acc1 (c : Dev nD) : (n : ℕ) → n < cfg1.N → Vec F S64x256 .f32
  | 0, hn => k1_pay2 (k1_pay1 (F := F)) (iblk1 V c 0 ⟨0, hn⟩)
  | n + 1, hn => k1_pay2 (acc1 c n (Nat.lt_of_succ_lt hn)) (iblk1 V c 0 ⟨n + 1, hn⟩)

theorem acc1_zero (c : Dev nD) (hn : 0 < cfg1.N) : acc1 V c 0 hn = k1_pay2 (k1_pay1 (F := F)) (iblk1 V c 0 ⟨0, hn⟩) := rfl
theorem acc1_succ (c : Dev nD) (n : ℕ) (hn : n + 1 < cfg1.N) :
    acc1 V c (n + 1) hn = k1_pay2 (acc1 V c n (Nat.lt_of_succ_lt hn)) (iblk1 V c 0 ⟨n + 1, hn⟩) := rfl

/-- What the last point stores into the output window: the pooled means through the two-layer MLP. -/
def out1_8 (c : Dev nD) : Vec F S64x256 .f32 :=
  k1_pay3 (acc1 V c 49 (by decide)) (iblk1 V c 1 tLast1) (iblk1 V c 2 tLast1) (iblk1 V c 3 tLast1) (iblk1 V c 4 tLast1)
    (iblk1 V c 5 tLast1) (iblk1 V c 6 tLast1) (iblk1 V c 7 tLast1)

/-! ## The invariant that carries the scratch -/

/-- Region 0's fourteen staging buffers (scoped buffers this region never touches), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The region invariant before position `n`: before the first point the class's (every scoped buffer that is no
    staging buffer of this region at anything, the generator register at some state); afterwards the same with the
    scratch at the running sum the point before left. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ others1 (F := F) c ∗ (∃ r, prngReg c r))

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 V c
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) : (dat1 V c).after 8 t = out1_8 V c := by dsimp only [dat1]

end Cert.KernelIdeal.Hand

end
-- ==== Proof.KI.Fold.lean ====
/-
  The TensorCore's buffer contents at each boundary of @main, as a fold from the launch memory: after each stretch of
  host operations the stretch's operations applied; after each kernel region its windows' arrays at what the region's
  write-backs leave (an input array as entered, an output array at its blocks folded in) and every other buffer as
  entered. Read off the fold: every argument array ends as launched; the two results are region 0's first output array
  and region 1's output array; and region 1 is entered with region 0's partial sums and the host's counts.
-/
import proofs.«425103_j12841952215344_2_alg».proof.Proof.KI.R0Defs
import proofs.«425103_j12841952215344_2_alg».proof.Proof.KI.R1Defs
import proofs.«425103_j12841952215344_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the two index constants. -/
abbrev W1 : Dev nD → Valuation τ sig (Elt F) := fun c => StableHlo.after hostOps0 (W0 m c)
/-- After the clip of the segment ids. -/
abbrev W2 : Dev nD → Valuation τ sig (Elt F) := fun c => StableHlo.after hostOps0_1 (W1 m c)
/-- After the reshape and the four weight slices: region 0's entry. -/
abbrev W3 : Dev nD → Valuation τ sig (Elt F) := fun c => StableHlo.after hostOps0_2 (W2 m c)
/-- The same read at the TensorCore's references (what region 0's proof data take). -/
abbrev V3 : (c : Dev nD) → (b : Ref sig .tc) → Buf (Elt F) ((c : Thread nD τ).loc b) := fun c b => W3 m c b

/-- At region 0's exit. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the counts' scatter: region 1's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: the end of @main. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-! ## A buffer no stretch writes and no region changes keeps its launch contents -/

/-- Across region 0: an input window's array, or a buffer that is no window's array, is as entered. -/
theorem W4_keep (c : Dev nD) (r : Ref sig .tc)
    (h : (∃ w, Pipeline.arrRef spec0 w = r ∧ (cfg0.win w).isOut = false) ∨ ∀ w, Pipeline.arrRef spec0 w ≠ r) :
    W4 m c (Proc.devRef .tc r) = W3 m c (Proc.devRef .tc r) := by
  rcases h with ⟨w, rfl, hw⟩ | h
  · exact (W4_arr m c w).trans (((dat0 (V3 m) c).arrAt_in w hw _).trans (A_eq0 (V3 m) c w))
  · exact W4_of_ne m c r h

/-- Across region 1, the same. -/
theorem W6_keep (c : Dev nD) (r : Ref sig .tc)
    (h : (∃ w, Pipeline.arrRef spec1 w = r ∧ (cfg1.win w).isOut = false) ∨ ∀ w, Pipeline.arrRef spec1 w ≠ r) :
    W6 m c (Proc.devRef .tc r) = W5 m c (Proc.devRef .tc r) := by
  rcases h with ⟨w, rfl, hw⟩ | h
  · exact (W6_arr m c w).trans (((dat1 (V5 m) c).arrAt_in w hw _).trans (A_eq1 (V5 m) c w))
  · exact W6_of_ne m c r h

/-- A buffer none of the four host stretches writes and neither region changes ends as launched. -/
theorem W6_launch (c : Dev nD) (r : Ref sig .tc) (h0 : r ∉ hostOps0_W) (h1 : r ∉ hostOps0_1_W) (h2 : r ∉ hostOps0_2_W)
    (h4 : r ∉ hostOps1_W)
    (k0 : (∃ w, Pipeline.arrRef spec0 w = r ∧ (cfg0.win w).isOut = false) ∨ ∀ w, Pipeline.arrRef spec0 w ≠ r)
    (k1 : (∃ w, Pipeline.arrRef spec1 w = r ∧ (cfg1.win w).isOut = false) ∨ ∀ w, Pipeline.arrRef spec1 w ≠ r) :
    W6 m c (Proc.devRef .tc r) = m ((c : Thread nD τ).loc r) :=
  (W6_keep m c r k1).trans <| (StableHlo.after_of_writes_sub hostOps1 _ hostOps1_writes h4).trans <|
    (W4_keep m c r k0).trans <| (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

/-! ## The two results -/

/-- The first result is region 0's updated-rows array: nothing after region 0 touches it. -/
theorem W6_main_v6_0 (c : Dev nD) : W6 m c (Proc.devRef .tc main_v6_0) = (dat0 (V3 m) c).arrAt 8 cfg0.N :=
  (W6_of_ne m c main_v6_0 (by decide)).trans <|
    (StableHlo.after_of_writes_sub hostOps1 _ hostOps1_writes (by decide)).trans (W4_arr m c 8)

/-- The second result is region 1's output array. -/
theorem W6_main_v11 (c : Dev nD) : W6 m c (Proc.devRef .tc main_v11) = (dat1 (V5 m) c).arrAt 8 cfg1.N :=
  W6_arr m c 8

/-- Region 1 is entered with region 0's partial sums in its first window's array. -/
theorem V5_main_v6_1 (c : Dev nD) : V5 m c main_v6_1 = (dat0 (V3 m) c).arrAt 9 cfg0.N :=
  (StableHlo.after_of_writes_sub hostOps1 _ hostOps1_writes (by decide)).trans (W4_arr m c 9)

end Cert.KernelIdeal.Hand

end
-- ==== Proof.KI.R0.lean ====
/-
  Region 0 of the node-update program: the body obligation of its pipeline's proof data (`dat0`, KI/R0Defs.lean) —
  at every grid point the kernel body, called on the staging buffers holding the input windows' blocks, runs to its end
  leaving the inputs as they were and the two outputs at their functions of the input blocks.
-/
import proofs.«425103_j12841952215344_2_alg».proof.Proof.KI.R0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in an input window's buffer -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]

/-- Input window 0's current buffer holds the window's block at every point, whether or not the point fetched it:
    where it did not, the block index is the previous point's and the body left the block in place. -/
theorem staged0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1's current buffer holds the window's block at every point, whether or not the point fetched it:
    where it did not, the block index is the previous point's and the body left the block in place. -/
theorem staged0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2's current buffer holds the window's block at every point, whether or not the point fetched it:
    where it did not, the block index is the previous point's and the body left the block in place. -/
theorem staged0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3's current buffer holds the window's block at every point, whether or not the point fetched it:
    where it did not, the block index is the previous point's and the body left the block in place. -/
theorem staged0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- Input window 4's current buffer holds the window's block at every point, whether or not the point fetched it:
    where it did not, the block index is the previous point's and the body left the block in place. -/
theorem staged0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-- Input window 5's current buffer holds the window's block at every point, whether or not the point fetched it:
    where it did not, the block index is the previous point's and the body left the block in place. -/
theorem staged0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-- Input window 6's current buffer holds the window's block at every point, whether or not the point fetched it:
    where it did not, the block index is the previous point's and the body left the block in place. -/
theorem staged0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

/-- Input window 7's current buffer holds the window's block at every point, whether or not the point fetched it:
    where it did not, the block index is the previous point's and the body left the block in place. -/
theorem staged0_7 (c : Dev nD) (t : Fin cfg0.N) (d) : (dat0 V c).before 7 t d = iblk0 V c 7 t :=
  ((dat0 V c).before_in_eq_fetched 7 rfl (fun _ => rfl) (fun _ _ _ => rfl)
      (fun t => by rw [after0_7]; unfold Dat.blockOf iblk0; rw [A_eq0]; try rfl) t d).trans
    (by unfold Dat.fetched Dat.blockOf iblk0; rw [A_eq0]; try rfl)

/-! ## Each output's one store covers its buffer -/

theorem covers0_8 (p : Vec F S4000x256 .f32) (y : S4000x256.Idx) :
    ∃ pc ∈ ([⟨rX, p⟩] : List (View.Piece (Elt F) S4000x256 .f32)), y ∈ pc.1.set :=
  View.cover_of_tiled [⟨rX, p⟩] S4000x256.size (by rfl) y

theorem covers0_9 (p : Vec F S1x64x256 .f32) (y : S1x64x256.Idx) :
    ∃ pc ∈ ([⟨rP, p⟩] : List (View.Piece (Elt F) S1x64x256 .f32)), y ∈ pc.1.set :=
  View.cover_of_tiled [⟨rP, p⟩] S1x64x256.size (by rfl) y

/-! ## The body's triple -/

set_option maxHeartbeats 1000000 in
/-- The kernel function on whole memrefs, the eight inputs' owned at read contents `x0 … x7` and the two outputs' at
    anything, runs to a continuation that holds the inputs as they were and the outputs at `out0_8` and `out0_9` of
    the inputs: eight whole-buffer loads, then for each output a load of the buffer (its value unused) and one
    whole-buffer store. -/
theorem kernel0_triple (c : Dev nD) (E : Set ℕ) (i : grid0.Coords) (arg1 : Memref sig .tc .vmem S4000x256 .f32) (harg1 : arg1.IsWhole) (arg2 : Memref sig .tc .vmem S4000x1 .i32) (harg2 : arg2.IsWhole)
    (arg3 : Memref sig .tc .vmem S64x256 .f32) (harg3 : arg3.IsWhole) (arg4 : Memref sig .tc .vmem S256x256 .f32) (harg4 : arg4.IsWhole)
    (arg5 : Memref sig .tc .vmem S256x256 .f32) (harg5 : arg5.IsWhole) (arg6 : Memref sig .tc .vmem S256 .f32) (harg6 : arg6.IsWhole)
    (arg7 : Memref sig .tc .vmem S256x256 .f32) (harg7 : arg7.IsWhole) (arg8 : Memref sig .tc .vmem S256 .f32) (harg8 : arg8.IsWhole)
    (arg9 : Memref sig .tc .vmem S4000x256 .f32) (harg9 : arg9.IsWhole) (arg10 : Memref sig .tc .vmem S1x64x256 .f32) (harg10 : arg10.IsWhole)
    (x0 : Vec F S4000x256 .f32) (x1 : Vec F S4000x1 .i32) (x2 : Vec F S64x256 .f32) (x3 x4 : Vec F S256x256 .f32)
    (x5 : Vec F S256 .f32) (x6 : Vec F S256x256 .f32) (x7 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)
            ∗ owns (c : Thread nD τ) arg10 fullShare (out0_9 x0 x1 x2 x3 x4 x5 x6 x7)) -∗ K ⟨⟩))
      ⊢ wp frame (wpE (defs₀ (F := F)) Variants.none c none) E
          (cc0__node_kernel i arg1 harg1 arg2 harg2 arg3 harg3 arg4 harg4 arg5 harg5 arg6 harg6 arg7 harg7 arg8 harg8 arg9 harg9 arg10 harg10) K := by
  simp only [cc0__node_kernel_eq_skeleton]; unfold cc0__node_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (covers0_8 _)
  iexists _; isplitr
  swap; · iexact H9
  ipureintro
  exact View.read_writes_eq_canon _ _ _ (covers0_9 _)

/-! ## The body obligation, at a generic point -/

/-- What the body is called with at point `t`: the invariant, the core's dues, and every window's current buffer at
    what the pipeline put there. -/
def callPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns: the invariant and the dues of the next point, and every window's current buffer at what the
    proof data says the body leaves. -/
def callPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the input buffers hold their blocks, so the kernel's triple applies at those blocks; the
    invariant and the dues are not read and are the same at the next point. -/
theorem body0_at (c : Dev nD) (t : Fin cfg0.N) :
    callPre0 V c t ⊢ wp frame (wpE (defs₀ (F := F)) Variants.none c none) Set.univ (bodyAt0 t) (fun _ => callPost0 V c t) := by
  unfold callPre0 callPost0 bodyAt0
  simp only [staged0_0, staged0_1, staged0_2, staged0_3, staged0_4, staged0_5, staged0_6, staged0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernel0_triple c Set.univ (grid0.coords t) _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact body0_at V c t

end Cert.KernelIdeal.Hand

end
-- ==== Proof.KI.R1B.lean ====
/-
  Region 1's kernel body on any whole staging memrefs, at the grid points where its last branch is not taken: at the
  first point (the scratch is zeroed, then the tile's block is added into it) and at a point that is neither first nor
  last (the tile's block is added into the running sum). Each run is stated with its result named: the scratch comes
  back owned at the sum, the tile's buffer as it was, and nothing else is touched. The branch conditions are the
  kernel's own scalar chains on the grid coordinate.
-/
import proofs.«425103_j12841952215344_2_alg».proof.Proof.Gen.KernelIdeal.Launch
import proofs.«425103_j12841952215344_2_alg».proof.Proof.Gen.KernelIdeal.Skeleton
import proofs.«425103_j12841952215344_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz1B : (![0] : Fin 1 → Nat) = fun _ => 0 := funext fun a => by fin_cases a <;> rfl
private theorem hz2B : (![0, 0] : Fin 2 → Nat) = fun _ => 0 := funext fun a => by fin_cases a <;> rfl
private theorem hz3B : (![0, 0, 0] : Fin 3 → Nat) = fun _ => 0 := funext fun a => by fin_cases a <;> rfl

set_option maxHeartbeats 1000000 in
/-- The body at the first point, on any whole staging memrefs: the scratch, at anything, is zeroed and comes back at
    zero plus the tile's block; nothing else is touched. -/
theorem run1_first (c : Dev nD) (i : grid1.Coords) (arg1 : Memref sig .tc .vmem S1x64x256 .f32) (harg1 : arg1.IsWhole) (arg2 : Memref sig .tc .vmem S64x1 .f32) (harg2 : arg2.IsWhole) (arg3 : Memref sig .tc .vmem S64x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S64x256 .f32) (harg9 : arg9.IsWhole) (arg10 : Memref sig .tc .vmem S64x256 .f32) (harg10 : arg10.IsWhole) (hc0 : ((Scalar.cmpi .ne (Scalar.extui (Scalar.cmpi .eq (BitVec.ofNat 32 (i 0).val) 0#32)) 0#32) = 1#1)) (hc1 : ¬(k1_cond2 i = 1#1))
    (x0 : Vec F S1x64x256 .f32) (E : Set ℕ) (K : PUnit → sProp 𝕄) :
    iprop(owns (c : Thread nD τ) arg1 fullShare x0 ∗ (∃ d, owns (c : Thread nD τ) arg10 fullShare d)
        ∗ (iprop(owns (c : Thread nD τ) arg1 fullShare x0 ∗ owns (c : Thread nD τ) arg10 fullShare (k1_pay2 (k1_pay1 (F := F)) x0)) -∗ K ⟨⟩))
      ⊢ wp frame (wpE (defs₀ (F := F)) Variants.none c none) E (cc1__vn_kernel i arg1 harg1 arg2 harg2 arg3 harg3 arg4 harg4 arg5 harg5 arg6 harg6 arg7 harg7 arg8 harg8 arg9 harg9 arg10 harg10) K := by
  simp only [cc1__vn_kernel_eq_skeleton]; unfold cc1__vn_kernel_skel
  unfold owns
  iintro ⟨⟨%f0, %hf0, H0⟩, ⟨%ds, %fs, -, HS⟩, Hk⟩
  obtain rfl := harg1.eq_unread hf0
  sl_exec (disch := first | exact hc0 | exact hc1)
  sl_step
  iapply Hk
  isplitl [H0]
  · iexists _; isplitr; · ipureintro; exact harg1.read_unread _
    iexact H0
  iexists _; isplitr
  swap; · iexact HS
  ipureintro
  rw [View.read_writes_eq_canon _ _ _ (fun y => ⟨_, List.mem_cons_self, View.mem_set_unit_zero hz2B inb_S64x256_S64x256_0_0 y⟩)]
  sl_unfold_words
  rw [View.canon_cons_unit_zero (S := S64x256) hz2B, View.readCov_unit_zero (S := S64x256) _ hz2B]
  simp only [View.readAt_eq_ld, harg1.read_unread, View.ld_unit_zero (S := S1x64x256) hz3B]

set_option maxHeartbeats 1000000 in
/-- The body at a point that is neither the first nor the last, on any whole staging memrefs: the scratch at the
    running sum so far comes back at that plus the tile's block; nothing else is touched. -/
theorem run1_mid (c : Dev nD) (i : grid1.Coords) (arg1 : Memref sig .tc .vmem S1x64x256 .f32) (harg1 : arg1.IsWhole) (arg2 : Memref sig .tc .vmem S64x1 .f32) (harg2 : arg2.IsWhole) (arg3 : Memref sig .tc .vmem S64x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S64x256 .f32) (harg9 : arg9.IsWhole) (arg10 : Memref sig .tc .vmem S64x256 .f32) (harg10 : arg10.IsWhole) (hc0 : ¬((Scalar.cmpi .ne (Scalar.extui (Scalar.cmpi .eq (BitVec.ofNat 32 (i 0).val) 0#32)) 0#32) = 1#1)) (hc1 : ¬(k1_cond2 i = 1#1))
    (x0 : Vec F S1x64x256 .f32) (xs : Vec F S64x256 .f32) (E : Set ℕ) (K : PUnit → sProp 𝕄) :
    iprop(owns (c : Thread nD τ) arg1 fullShare x0 ∗ owns (c : Thread nD τ) arg10 fullShare xs
        ∗ (iprop(owns (c : Thread nD τ) arg1 fullShare x0 ∗ owns (c : Thread nD τ) arg10 fullShare (k1_pay2 xs x0)) -∗ K ⟨⟩))
      ⊢ wp frame (wpE (defs₀ (F := F)) Variants.none c none) E (cc1__vn_kernel i arg1 harg1 arg2 harg2 arg3 harg3 arg4 harg4 arg5 harg5 arg6 harg6 arg7 harg7 arg8 harg8 arg9 harg9 arg10 harg10) K := by
  simp only [cc1__vn_kernel_eq_skeleton]; unfold cc1__vn_kernel_skel
  unfold owns
  iintro ⟨⟨%f0, %hf0, H0⟩, ⟨%fs, %hfs, HS⟩, Hk⟩
  obtain rfl := harg1.eq_unread hf0; obtain rfl := harg10.eq_unread hfs
  sl_exec (disch := first | exact hc0 | exact hc1)
  sl_step
  iapply Hk
  isplitl [H0]
  · iexists _; isplitr; · ipureintro; exact harg1.read_unread _
    iexact H0
  iexists _; isplitr
  swap; · iexact HS
  ipureintro
  rw [View.read_writes_eq_canon _ _ _ (fun y => ⟨_, List.mem_singleton_self _, View.mem_set_unit_zero hz2B inb_S64x256_S64x256_0_0 y⟩),
    View.canon_unit_zero hz2B]
  simp only [View.readAt_eq_ld, harg1.read_unread, harg10.read_unread, View.ld_unit_zero (S := S64x256) hz2B,
    View.ld_unit_zero (S := S1x64x256) hz3B]

end Cert.KernelIdeal.Hand
end
-- ==== Proof.KI.R1C.lean ====
/-
  Region 1's kernel body on any whole staging memrefs at the grid point where its last branch is taken (and the reset
  is not): the tile's block is added into the running sum, and the output's buffer receives the pooled means of that
  sum through the two-layer MLP of the other seven input blocks. The run is stated with both results named.
-/
import proofs.«425103_j12841952215344_2_alg».proof.Proof.Gen.KernelIdeal.Launch
import proofs.«425103_j12841952215344_2_alg».proof.Proof.Gen.KernelIdeal.Skeleton
import proofs.«425103_j12841952215344_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz1C : (![0] : Fin 1 → Nat) = fun _ => 0 := funext fun a => by fin_cases a <;> rfl
private theorem hz2C : (![0, 0] : Fin 2 → Nat) = fun _ => 0 := funext fun a => by fin_cases a <;> rfl
private theorem hz3C : (![0, 0, 0] : Fin 3 → Nat) = fun _ => 0 := funext fun a => by fin_cases a <;> rfl

set_option maxHeartbeats 2000000 in
/-- The body at the last point, on any whole staging memrefs: the scratch at the running sum so far comes back at that
    plus the tile's block, and the output's buffer, at anything, comes back at the pooled means of that sum through the
    two-layer MLP of the seven other input blocks; the inputs are as they were. -/
theorem run1_last (c : Dev nD) (i : grid1.Coords) (arg1 : Memref sig .tc .vmem S1x64x256 .f32) (harg1 : arg1.IsWhole) (arg2 : Memref sig .tc .vmem S64x1 .f32) (harg2 : arg2.IsWhole) (arg3 : Memref sig .tc .vmem S64x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S64x256 .f32) (harg9 : arg9.IsWhole) (arg10 : Memref sig .tc .vmem S64x256 .f32) (harg10 : arg10.IsWhole) (hc0 : ¬((Scalar.cmpi .ne (Scalar.extui (Scalar.cmpi .eq (BitVec.ofNat 32 (i 0).val) 0#32)) 0#32) = 1#1)) (hc1 : (k1_cond2 i = 1#1))
    (x0 : Vec F S1x64x256 .f32) (x1 : Vec F S64x1 .f32) (x2 : Vec F S64x256 .f32) (x3 x4 : Vec F S256x256 .f32)
    (x5 : Vec F S256 .f32) (x6 : Vec F S256x256 .f32) (x7 : Vec F S256 .f32) (xs : Vec F S64x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k1_pay3 (k1_pay2 xs x0) x1 x2 x3 x4 x5 x6 x7)
            ∗ owns (c : Thread nD τ) arg10 fullShare (k1_pay2 xs x0)) -∗ K ⟨⟩))
      ⊢ wp frame (wpE (defs₀ (F := F)) Variants.none c none) E (cc1__vn_kernel i arg1 harg1 arg2 harg2 arg3 harg3 arg4 harg4 arg5 harg5 arg6 harg6 arg7 harg7 arg8 harg8 arg9 harg9 arg10 harg10) K := by
  simp only [cc1__vn_kernel_eq_skeleton]; unfold cc1__vn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg10.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    rw [View.read_writes_eq_canon _ _ _ (fun y => ⟨_, List.mem_singleton_self _, View.mem_set_unit_zero hz2C inb_S64x256_S64x256_0_0 y⟩)]
    sl_unfold_words
    rw [View.canon_unit_zero hz2C]
    simp only [View.readCov_unit_zero (S := S64x256) _ hz2C, View.readAt_eq_ld, harg1.read_unread, harg2.read_unread,
      harg3.read_unread, harg4.read_unread, harg5.read_unread, harg6.read_unread, harg7.read_unread, harg8.read_unread,
      harg10.read_unread, View.ld_unit_zero (S := S64x256) hz2C, View.ld_unit_zero (S := S1x64x256) hz3C,
      View.ld_unit_zero (S := S64x1) hz2C, View.ld_unit_zero (S := S256x256) hz2C, View.ld_unit_zero (S := S256) hz1C]
  iexists _; isplitr
  swap; · iexact HS
  ipureintro
  sl_unfold_words
  rw [View.read_writes_eq_canon _ _ _ (fun y => ⟨_, List.mem_singleton_self _, View.mem_set_unit_zero hz2C inb_S64x256_S64x256_0_0 y⟩),
    View.canon_unit_zero hz2C]
  simp only [View.readAt_eq_ld, harg1.read_unread, harg10.read_unread, View.ld_unit_zero (S := S64x256) hz2C,
    View.ld_unit_zero (S := S1x64x256) hz3C]

end Cert.KernelIdeal.Hand
end
-- ==== Proof.KI.R1.lean ====
/-
  Region 1 of the node-update program: the body obligation of its pipeline's proof data (dat1, KI/R1Defs.lean), whose
  invariant carries the running sum in the scratch from point to point, and the two entailments that open the invariant
  from, and close it to, the class's invariant at the region's entry and exit. The body's runs on any whole staging
  memrefs, one per control case, are in KI/R1B.lean (first point; a middle point) and KI/R1C.lean (last point); here
  the branch conditions are put in closed form over the grid, each input window's buffer is shown to hold its block at
  every point, and the three runs are applied at the pipeline's memrefs.
-/
import proofs.«425103_j12841952215344_2_alg».proof.Proof.KI.R1Defs
import proofs.«425103_j12841952215344_2_alg».proof.Proof.KI.R1B
import proofs.«425103_j12841952215344_2_alg».proof.Proof.KI.R1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions in closed form, and where the output window is idle -/

/-- The condition of the body's first branch (the reset), from the grid coordinates. -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val = 0 :=
  (by decide +kernel : ∀ t : Fin grid1.N, cond1_0 (grid1.coords t) ↔ t.val = 0)

/-- The condition of the body's last branch (the pooling and the MLP), from the grid coordinates. -/
abbrev cond1_1 (i : grid1.Coords) : Prop := k1_cond2 i = 1#1
/-- It holds at the last point only: decided over the grid. -/
theorem hcond1_1 : ∀ t : Fin cfg1.N, cond1_1 (grid1.coords t) ↔ t.val = 49 :=
  (by decide +kernel : ∀ t : Fin grid1.N, cond1_1 (grid1.coords t) ↔ t.val = 49)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Where the last branch is not taken the output window is idle, and its block is not written back there. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
/-- Where it is taken the window is live. -/
theorem liveAt1_8 : ∀ t : Fin cfg1.N, cond1_1 (grid1.coords t) → cfg1.idle 8 (grid1.coords t) = false := by decide +kernel

/-! ## Each input window's buffer holds its block at every point -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The invariant, opened -/

theorem PhiS1_zero (c : Dev nD) (n : ℕ) (h : n ≤ cfg1.N) (hz : n = 0) : PhiS1 V c n h = Pipeline.ΦA spec1 c := by
  subst hz; rfl

/-- After point n (before point n + 1): the scratch at that point's running sum. -/
theorem PhiS1_succ (c : Dev nD) (n : ℕ) (hn : n < cfg1.N) :
    PhiS1 V c (n + 1) hn = iprop(owns (c : Thread nD τ) scM1 fullShare (acc1 V c n hn) ∗ others1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (acc1 V c (n - 1) (by omega)) ∗ others1 (F := F) c ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Two assertions that entail one another are equal. -/
private theorem eq_of_entails {P Q : sProp 𝕄} (h₁ : P ⊢ Q) (h₂ : Q ⊢ P) : P = Q := BI.equiv_iff.mp ⟨h₁, h₂⟩

/-- The class's invariant with the scratch set apart as a memref owned at some contents: the scoped rest is the
    fourteen other buffers and the scratch, conjoined in that order. -/
theorem PhiA1_eq (c : Dev nD) :
    (Pipeline.ΦA spec1 c : sProp 𝕄)
      = iprop((∃ d, owns (c : Thread nD τ) scM1 fullShare d) ∗ others1 (F := F) c ∗ (∃ r, prngReg c r)) := by
  unfold Pipeline.ΦA others1; rw [scopedRest1_eq]; simp only [scM1, owns_whole]
  refine eq_of_entails ?_ ?_
  · iintro ⟨⟨G1, G2, G3, G4, G5, G6, G7, G8, G9, G10, G11, G12, G13, G14, HS⟩, Hg⟩
    isplitl [HS]; · iexact HS
    isplitr [Hg]; swap; · iexact Hg
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexact G14
  · iintro ⟨HS, ⟨G1, G2, G3, G4, G5, G6, G7, G8, G9, G10, G11, G12, G13, G14⟩, Hg⟩
    isplitr [Hg]; swap; · iexact Hg
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    iexact HS

/-! ## The running sum, one step at a time -/

theorem acc1_first (c : Dev nD) (t : Fin cfg1.N) (h0 : t.val = 0) :
    acc1 V c t.val t.isLt = k1_pay2 (k1_pay1 (F := F)) (iblk1 V c 0 t) := by
  obtain ⟨n, hn⟩ := t
  cases n with
  | zero => rfl
  | succ n => exact absurd h0 (Nat.succ_ne_zero n)

theorem acc1_later (c : Dev nD) (t : Fin cfg1.N) (h0 : t.val ≠ 0) :
    acc1 V c t.val t.isLt = k1_pay2 (acc1 V c (t.val - 1) (Nat.lt_of_le_of_lt (Nat.sub_le _ _) t.isLt)) (iblk1 V c 0 t) := by
  obtain ⟨n, hn⟩ := t
  cases n with
  | zero => exact absurd rfl h0
  | succ n => rfl

/-- What the last point stores, over the running sum the point before left. -/
theorem out1_8_eq (c : Dev nD) :
    out1_8 V c = k1_pay3 (k1_pay2 (acc1 V c (tLast1.val - 1) (Nat.lt_of_le_of_lt (Nat.sub_le _ _) tLast1.isLt)) (iblk1 V c 0 tLast1))
      (iblk1 V c 1 tLast1) (iblk1 V c 2 tLast1) (iblk1 V c 3 tLast1) (iblk1 V c 4 tLast1) (iblk1 V c 5 tLast1)
      (iblk1 V c 6 tLast1) (iblk1 V c 7 tLast1) := rfl

/-! ## The body obligation, at a generic point -/

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (st1_5 t) fullShare (iblk1 V c 5 t) := by
  unfold Dat.leavesExact; rw [liveAt1_5 t, after1_5]
theorem leaves1_6 (c : Dev nD) (t : Fin cfg1.N) :
    (dat1 V c).leavesExact 6 t = owns (c : Thread nD τ) (st1_6 t) fullShare (iblk1 V c 6 t) := by
  unfold Dat.leavesExact; rw [liveAt1_6 t, after1_6]
theorem leaves1_7 (c : Dev nD) (t : Fin cfg1.N) :
    (dat1 V c).leavesExact 7 t = owns (c : Thread nD τ) (st1_7 t) fullShare (iblk1 V c 7 t) := by
  unfold Dat.leavesExact; rw [liveAt1_7 t, after1_7]

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point. Every input's memref holds its block; the closed forms say which of the three control cases
    the point is in, and that case's run applies: the invariant hands the body the scratch (at anything at the first
    point, at the running sum elsewhere) and takes it back at this point's running sum; the output's buffer is handed
    back as found except at the last point, where it holds the stored result; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6, leaves1_7]
  rw [PhiS1_castSucc V c t]
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 8 t (idleAt1_8 t hc1) (noFlush1_8 t hc1)]
    rw [PhiS1_zero V c _ _ h0, PhiA1_eq, acc1_first V c t h0]
    iintro ⟨⟨⟨%ds, HS⟩, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (run1_first c (grid1.coords t) _ _ _ _ _ _ _ _ _ _ _ _ _ _ _ _ _ _ _ _ hc0 hc1 (iblk1 V c 0 t) Set.univ _)
    isplitl [H0]; · iexact H0
    isplitl [HS]; · iexists _; iexact HS
    iintro ⟨H0, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · by_cases h49 : t.val = 49
    · have hc0 : ¬cond1_0 (grid1.coords t) := fun h => h0 ((hcond1_0 t).mp h)
      have hc1 : cond1_1 (grid1.coords t) := (hcond1_1 t).mpr h49
      rw [show (dat1 V c).leavesExact 8 t = owns (c : Thread nD τ) (st1_8 t) fullShare ((dat1 V c).after 8 t) from by
        unfold Dat.leavesExact; rw [liveAt1_8 t hc1], after1_8]
      rw [PhiS1_pos V c _ _ h0, acc1_later V c t h0]
      obtain rfl : t = tLast1 := Fin.ext h49
      rw [out1_8_eq]
      iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_last c (grid1.coords tLast1) _ _ _ _ _ _ _ _ _ _ _ _ _ _ _ _ _ _ _ _ hc0 hc1 (iblk1 V c 0 tLast1) (iblk1 V c 1 tLast1) (iblk1 V c 2 tLast1)
        (iblk1 V c 3 tLast1) (iblk1 V c 4 tLast1) (iblk1 V c 5 tLast1) (iblk1 V c 6 tLast1) (iblk1 V c 7 tLast1) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc0 : ¬cond1_0 (grid1.coords t) := fun h => h0 ((hcond1_0 t).mp h)
      have hc1 : ¬cond1_1 (grid1.coords t) := fun h => h49 ((hcond1_1 t).mp h)
      rw [Dat.leavesExact_idle (dat1 V c) 8 t (idleAt1_8 t hc1) (noFlush1_8 t hc1)]
      rw [PhiS1_pos V c _ _ h0, acc1_later V c t h0]
      iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run1_mid c (grid1.coords t) _ _ _ _ _ _ _ _ _ _ _ _ _ _ _ _ _ _ _ _ hc0 hc1 (iblk1 V c 0 t) _ Set.univ _)
      isplitl [H0]; · iexact H0
      isplitl [HS]; · iexact HS
      iintro ⟨H0, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the running sum's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), PhiA1_eq]
  iintro ⟨HS, Hoth, Hg⟩
  isplitl [HS]; · iexists _; iexact HS
  isplitl [Hoth]; · iexact Hoth
  iexact Hg

end Cert.KernelIdeal.Hand

end
-- ==== Proof.KI.Run.lean ====
/-
  The run of the node-update program, any instance of the floats: @main as six segments — three stretches of host
  operations, the node kernel's region, the counts' stretch, the virtual-node kernel's region — over the thread state
  "every unscoped buffer at the boundary's contents, the generator register at some state, nothing owed"; every weakly
  fair execution terminates with every unscoped buffer at the last boundary's contents.
-/
import proofs.«425103_j12841952215344_2_alg».proof.Proof.KI.Fold
import proofs.«425103_j12841952215344_2_alg».proof.Proof.KI.R0
import proofs.«425103_j12841952215344_2_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

set_option backward.isDefEq.respectTransparency.types false in
/-- Region 0 over the thread state: entered from every unscoped buffer at the boundary's contents, left at the next
    boundary's. Its windows' arrays are split out of the unscoped buffers and put back at their exit contents; the
    generator register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its windows' arrays are split out of the unscoped buffers and put back at their exit contents; the
    generator register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V5 m) c).Φ 0 from rfl]
    iintro ⟨Hp, -, Hr⟩
    iapply (hin1 (V5 m) c)
    unfold Pipeline.ΦA
    isplitl [Hr]; · iexact Hr
    iexact Hp
  hout c := by
    rw [Pipeline.ownSems0_none, show (pdats m 1 c).Φ (Fin.last _) = (dat1 (V5 m) c).Φ (Fin.last cfg1.N) from rfl]
    iintro Hinv
    ihave H := (hout1 (V5 m) c) $$ [Hinv]
    · iexact Hinv
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m) ]

set_option backward.isDefEq.respectTransparency.types false in
/-- THE RUN: from any memory with zero counters, every weakly fair execution of @main on the TensorCores terminates,
    nothing faulting, and every final state has every unscoped buffer at the last boundary's contents `W6`. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.KI.Args.lean ====
/-
  Read off the run's last boundary: every argument array ends as launched — no stretch of host operations writes one and
  a region either stages it through an input window or never touches it — which is the frame; and the two results are
  the node kernel's updated-rows array and the virtual-node kernel's output array as their regions' write-backs leave them.
-/
import proofs.«425103_j12841952215344_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W6_main_arg0 (c : Dev nD) : W6 m c (Proc.devRef .tc main_arg0) = m ((c : Thread nD τ).loc main_arg0) :=
  W6_launch m c main_arg0 (by decide) (by decide) (by decide) (by decide) (Or.inl ⟨0, rfl, rfl⟩) (Or.inr (by decide))
theorem W6_main_arg1 (c : Dev nD) : W6 m c (Proc.devRef .tc main_arg1) = m ((c : Thread nD τ).loc main_arg1) :=
  W6_launch m c main_arg1 (by decide) (by decide) (by decide) (by decide) (Or.inr (by decide)) (Or.inr (by decide))
theorem W6_main_arg2 (c : Dev nD) : W6 m c (Proc.devRef .tc main_arg2) = m ((c : Thread nD τ).loc main_arg2) :=
  W6_launch m c main_arg2 (by decide) (by decide) (by decide) (by decide) (Or.inl ⟨2, rfl, rfl⟩) (Or.inl ⟨2, rfl, rfl⟩)
theorem W6_main_arg3 (c : Dev nD) : W6 m c (Proc.devRef .tc main_arg3) = m ((c : Thread nD τ).loc main_arg3) :=
  W6_launch m c main_arg3 (by decide) (by decide) (by decide) (by decide) (Or.inr (by decide)) (Or.inr (by decide))
theorem W6_main_arg4 (c : Dev nD) : W6 m c (Proc.devRef .tc main_arg4) = m ((c : Thread nD τ).loc main_arg4) :=
  W6_launch m c main_arg4 (by decide) (by decide) (by decide) (by decide) (Or.inl ⟨5, rfl, rfl⟩) (Or.inr (by decide))
theorem W6_main_arg5 (c : Dev nD) : W6 m c (Proc.devRef .tc main_arg5) = m ((c : Thread nD τ).loc main_arg5) :=
  W6_launch m c main_arg5 (by decide) (by decide) (by decide) (by decide) (Or.inl ⟨6, rfl, rfl⟩) (Or.inr (by decide))
theorem W6_main_arg6 (c : Dev nD) : W6 m c (Proc.devRef .tc main_arg6) = m ((c : Thread nD τ).loc main_arg6) :=
  W6_launch m c main_arg6 (by decide) (by decide) (by decide) (by decide) (Or.inl ⟨7, rfl, rfl⟩) (Or.inr (by decide))
theorem W6_main_arg7 (c : Dev nD) : W6 m c (Proc.devRef .tc main_arg7) = m ((c : Thread nD τ).loc main_arg7) :=
  W6_launch m c main_arg7 (by decide) (by decide) (by decide) (by decide) (Or.inr (by decide)) (Or.inr (by decide))
theorem W6_main_arg8 (c : Dev nD) : W6 m c (Proc.devRef .tc main_arg8) = m ((c : Thread nD τ).loc main_arg8) :=
  W6_launch m c main_arg8 (by decide) (by decide) (by decide) (by decide) (Or.inr (by decide)) (Or.inl ⟨5, rfl, rfl⟩)
theorem W6_main_arg9 (c : Dev nD) : W6 m c (Proc.devRef .tc main_arg9) = m ((c : Thread nD τ).loc main_arg9) :=
  W6_launch m c main_arg9 (by decide) (by decide) (by decide) (by decide) (Or.inr (by decide)) (Or.inl ⟨6, rfl, rfl⟩)
theorem W6_main_arg10 (c : Dev nD) : W6 m c (Proc.devRef .tc main_arg10) = m ((c : Thread nD τ).loc main_arg10) :=
  W6_launch m c main_arg10 (by decide) (by decide) (by decide) (by decide) (Or.inr (by decide)) (Or.inl ⟨7, rfl, rfl⟩)

/-- THE FRAME: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
      (h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c),
      (h c _ (mem_uc main_arg9 (by decide))).trans (W6_main_arg9 m c),
      (h c _ (mem_uc main_arg10 (by decide))).trans (W6_main_arg10 m c)⟩)
    (run_named m ρ)

/-- THE RUN WITH THE RESULTS NAMED: as the frame, and the two results at what the regions' write-backs leave. -/
theorem run_results : θ_run defs (onTc (τ := τ) (main (F := F))) ⟨m, fun _ => 0, ρ⟩ (fun r => ∀ c : Dev nD,
      r.2.mem ((c.tc : Thread nD τ).loc main_v6_0) = (dat0 (V3 m) c).arrAt 8 cfg0.N
      ∧ r.2.mem ((c.tc : Thread nD τ).loc main_v11) = (dat1 (V5 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
      (h c _ (mem_uc main_v6_0 (by decide))).trans (W6_main_v6_0 m c),
      (h c _ (mem_uc main_v11 (by decide))).trans (W6_main_v11 m c),
      (h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c),
      (h c _ (mem_uc main_arg9 (by decide))).trans (W6_main_arg9 m c),
      (h c _ (mem_uc main_arg10 (by decide))).trans (W6_main_arg10 m c)⟩)
    (run_named m ρ)

end Cert.KernelIdeal.Hand

end
-- ==== Proof.Spec.lean ====
/-
  The mathematics of the node update and the virtual-node update, stated once over the extended reals with plain
  `Fin`-indexed rows, so that the kernel's blocks and the reference's whole-array stages can both be read as it.

  A row of the node update: h = ssilu (ssilu (x·W₁ᵗ + v·W₁ᵇ + b₁)·W₂ + b₂) + x, where v is the virtual node's row of the
  graph the node belongs to, `ssilu z = z · σ(z) · c` with σ the logistic function and c the shared scale word.
  The virtual-node update: the segment sums of h over each graph, divided by max(count, 1), then the same two-layer
  shape without the residual. The kernel gathers the virtual node's row by a one-hot product (`gsum`) and forms the
  segment sums tile by tile with the same one-hot weights (`oh`).
-/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx

/-- The scale word both programs multiply the SiLU by (never evaluated: the same word on both sides). -/
abbrev c53 : EReal := Ideal.ofBits .f32 0x3FD55555#32
/-- The word `1.0` the pooled mean's divisor is clamped below by. -/
abbrev oneW : EReal := Ideal.ofBits .f32 0x3F800000#32

/-- The scaled SiLU. -/
def ssilu (z : EReal) : EReal := (z * Ideal.logistic z) * c53

/-- A layer over two concatenated rows: a·Wᵗ + b·Wᵇ + bias. -/
def lin2 (a b : Fin 256 → EReal) (Wt Wb : Fin 256 → Fin 256 → EReal) (bias : Fin 256 → EReal) (j : Fin 256) : EReal :=
  ((∑ k : Fin 256, a k * Wt k j) + (∑ k : Fin 256, b k * Wb k j)) + bias j

/-- A layer over one row: a·W + bias. -/
def lin1 (a : Fin 256 → EReal) (W : Fin 256 → Fin 256 → EReal) (bias : Fin 256 → EReal) (j : Fin 256) : EReal :=
  (∑ k : Fin 256, a k * W k j) + bias j

/-- The two-layer MLP both updates share. -/
def mlp (a b : Fin 256 → EReal) (Wt Wb : Fin 256 → Fin 256 → EReal) (b1 : Fin 256 → EReal)
    (W2 : Fin 256 → Fin 256 → EReal) (b2 : Fin 256 → EReal) (j : Fin 256) : EReal :=
  ssilu (lin1 (fun k => ssilu (lin2 a b Wt Wb b1 k)) W2 b2 j)

/-- A row of the node update: the MLP of the node's row and its graph's virtual-node row, plus the residual. -/
def hrow (xr vr : Fin 256 → EReal) (Wt Wb : Fin 256 → Fin 256 → EReal) (b1 : Fin 256 → EReal)
    (W2 : Fin 256 → Fin 256 → EReal) (b2 : Fin 256 → EReal) (j : Fin 256) : EReal :=
  mlp xr vr Wt Wb b1 W2 b2 j + xr j

/-- The one-hot weight of segment word `w` at graph `b`. -/
def oh (w : BitVec 32) (b : Fin 64) : EReal := if w = BitVec.ofNat 32 b.val then 1 else 0

/-- The kernel's gather of a virtual-node row: the one-hot weights times the rows, summed over the graphs. -/
def gsum (w : BitVec 32) (vx : Fin 64 → Fin 256 → EReal) (k : Fin 256) : EReal := ∑ b : Fin 64, oh w b * vx b k

/-- The pooled mean of a segment: its sum over max(count, 1). -/
def pooled (s c : EReal) : EReal := Ideal.div s (max c oneW)

/-- Row `r` of tile `t` (tiles of 4000 rows). -/
def row (t : Fin 50) (r : Fin 4000) : Fin 200000 := ⟨4000 * t.val + r.val, by have := t.isLt; have := r.isLt; omega⟩

/-! ## Arrays as curried functions -/

def cur1 {α : Type} {n : Nat} (X : (⟨1, ![n]⟩ : Shape).Idx → α) : Fin n → α := fun p => X (ix1 p)
def cur2 {α : Type} {n0 n1 : Nat} (X : (⟨2, ![n0, n1]⟩ : Shape).Idx → α) : Fin n0 → Fin n1 → α := fun p q => X (ix2 p q)
def cur3 {α : Type} {n0 n1 n2 : Nat} (X : (⟨3, ![n0, n1, n2]⟩ : Shape).Idx → α) : Fin n0 → Fin n1 → Fin n2 → α :=
  fun p q r => X (ix3 p q r)
def arr2 {α : Type} {n0 n1 : Nat} (f : Fin n0 → Fin n1 → α) : (⟨2, ![n0, n1]⟩ : Shape).Idx → α := fun i => f (i 0) (i 1)
def arr3 {α : Type} {n0 n1 n2 : Nat} (f : Fin n0 → Fin n1 → Fin n2 → α) : (⟨3, ![n0, n1, n2]⟩ : Shape).Idx → α :=
  fun i => f (i 0) (i 1) (i 2)

theorem arr2_ix2 {α : Type} {n0 n1 : Nat} (f : Fin n0 → Fin n1 → α) (p : Fin n0) (q : Fin n1) : arr2 f (ix2 p q) = f p q := rfl
theorem arr3_ix3 {α : Type} {n0 n1 n2 : Nat} (f : Fin n0 → Fin n1 → Fin n2 → α) (p : Fin n0) (q : Fin n1) (r : Fin n2) :
    arr3 f (ix3 p q r) = f p q r := rfl
theorem cur2_arr2 {α : Type} {n0 n1 : Nat} (f : Fin n0 → Fin n1 → α) : cur2 (arr2 f) = f := rfl
theorem arr2_cur2 {α : Type} {n0 n1 : Nat} (X : (⟨2, ![n0, n1]⟩ : Shape).Idx → α) : arr2 (cur2 X) = X :=
  funext fun i => congrArg X (eq_ix2 i).symm

/-! ## The kernel's arrays, whole -/

/-- The node update's result array as the kernel computes it: from the node rows `X`, the segment words `BT` (one per
    row, as a column), the virtual-node rows `VX`, the first layer's weights in two halves, and the second layer. -/
def Hk (X : (⟨2, ![200000, 256]⟩ : Shape).Idx → EReal) (BT : (⟨2, ![200000, 1]⟩ : Shape).Idx → BitVec 32)
    (VX : (⟨2, ![64, 256]⟩ : Shape).Idx → EReal) (W1T W1B : (⟨2, ![256, 256]⟩ : Shape).Idx → EReal)
    (B1 : (⟨1, ![256]⟩ : Shape).Idx → EReal) (W2 : (⟨2, ![256, 256]⟩ : Shape).Idx → EReal)
    (B2 : (⟨1, ![256]⟩ : Shape).Idx → EReal) : (⟨2, ![200000, 256]⟩ : Shape).Idx → EReal :=
  arr2 fun i j => hrow (cur2 X i) (gsum (cur2 BT i 0) (cur2 VX)) (cur2 W1T) (cur2 W1B) (cur1 B1) (cur2 W2) (cur1 B2) j

/-- The per-tile partial segment sums as the kernel computes them from the updated rows `H`. -/
def Pk (H : (⟨2, ![200000, 256]⟩ : Shape).Idx → EReal) (BT : (⟨2, ![200000, 1]⟩ : Shape).Idx → BitVec 32) :
    (⟨3, ![50, 64, 256]⟩ : Shape).Idx → EReal :=
  arr3 fun t b j => ∑ r : Fin 4000, oh (cur2 BT (row t r) 0) b * cur2 H (row t r) j

/-- The virtual-node update's result array as the kernel computes it: from the partial sums `P`, the counts `C` (a
    column), the virtual-node rows and the second MLP's weights. -/
def VNk (P : (⟨3, ![50, 64, 256]⟩ : Shape).Idx → EReal) (C : (⟨2, ![64, 1]⟩ : Shape).Idx → EReal)
    (VX : (⟨2, ![64, 256]⟩ : Shape).Idx → EReal) (W1T W1B : (⟨2, ![256, 256]⟩ : Shape).Idx → EReal)
    (B1 : (⟨1, ![256]⟩ : Shape).Idx → EReal) (W2 : (⟨2, ![256, 256]⟩ : Shape).Idx → EReal)
    (B2 : (⟨1, ![256]⟩ : Shape).Idx → EReal) : (⟨2, ![64, 256]⟩ : Shape).Idx → EReal :=
  arr2 fun b j => mlp (fun k => pooled (∑ t : Fin 50, cur3 P t b k) (cur2 C b 0)) (cur2 VX b) (cur2 W1T) (cur2 W1B) (cur1 B1)
    (cur2 W2) (cur1 B2) j

end Cert.Spec

end
-- ==== Proof.KI.PayH.lean ====
/-
  The node kernel's arithmetic read at an index, at the extended reals: entry (r, f) of the tile's updated rows is the
  row formula `Spec.hrow` of row r of the tile, with the virtual-node row gathered by the one-hot product.

  The helper lemmas live in the namespace `PayH`: each of the three products read at an entry as a finite sum over its
  inner positions, the one-hot weight at an entry, a bias row spread over the tile's rows, then the two layers.
-/
import proofs.«425103_j12841952215344_2_alg».proof.Proof.Gen.KernelIdeal.Skeleton
import proofs.«425103_j12841952215344_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

namespace PayH

/-! ## A product contracting 256, read at an entry -/

theorem lhs256_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhs256_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem rhs256_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem rhs256_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- Entry (p, q) of a [4000,256]·[256,256] product into the zero block: the sum over the 256 inner positions. -/
theorem mm256_apply (a : FVec Ideal S4000x256 .bf16) (w : FVec Ideal S256x256 .bf16) (p : Fin 4000) (q : Fin 256) :
    matmul dot_S4000x256_S256x256_S4000x256_1_0_0_1_n_n none a w (constant (F := Ideal) S4000x256 .f32 0x00000000#32) (ix2 p q)
      = ∑ k : Fin 256, a (ix2 p k) * w (ix2 k q) := by
  simp only [matmul]
  rw [Ideal.matmul_constant_zero_apply, ← Equiv.sum_comp (ValueIdx.contrEquiv1 dot_S4000x256_S256x256_S4000x256_1_0_0_1_n_n 256 rfl rfl).symm]
  refine Finset.sum_congr rfl fun k _ => ?_
  have hk := ValueIdx.contrEquiv1_symm_val dot_S4000x256_S256x256_S4000x256_1_0_0_1_n_n 256 rfl rfl k
  have el : dot_S4000x256_S256x256_S4000x256_1_0_0_1_n_n.lhsIdx (ix2 p q) ((ValueIdx.contrEquiv1 dot_S4000x256_S256x256_S4000x256_1_0_0_1_n_n 256 rfl rfl).symm k) = ix2 p k := funext fun a => Fin.ext (by
    match a with
    | ⟨0, _⟩ => exact lhs256_0 _ _
    | ⟨1, _⟩ => exact (lhs256_1 _ _).trans hk)
  have er : dot_S4000x256_S256x256_S4000x256_1_0_0_1_n_n.rhsIdx (ix2 p q) ((ValueIdx.contrEquiv1 dot_S4000x256_S256x256_S4000x256_1_0_0_1_n_n 256 rfl rfl).symm k) = ix2 k q := funext fun a => Fin.ext (by
    match a with
    | ⟨0, _⟩ => exact (rhs256_0 _ _).trans hk
    | ⟨1, _⟩ => exact rhs256_1 _ _)
  rw [el, er]

/-! ## The product contracting the 64 graphs, read at an entry -/

theorem lhs64_0 (i : S4000x256.Idx) (q : dot_S4000x64_S64x256_S4000x256_1_0_0_1_n_n.contr.Idx) :
    (dot_S4000x64_S64x256_S4000x256_1_0_0_1_n_n.lhsIdx i q 0).val = (i 0).val := by
  unfold DotDims.lhsIdx
  rw [dif_neg (show ¬(0 : Fin S4000x64.rank) ∈ dot_S4000x64_S64x256_S4000x256_1_0_0_1_n_n.lhsBatch by decide), dif_pos (show (0 : Fin S4000x64.rank) ∈ dot_S4000x64_S64x256_S4000x256_1_0_0_1_n_n.lhsNonContracting by decide)]
  rfl
theorem lhs64_1 (i : S4000x256.Idx) (q : dot_S4000x64_S64x256_S4000x256_1_0_0_1_n_n.contr.Idx) :
    (dot_S4000x64_S64x256_S4000x256_1_0_0_1_n_n.lhsIdx i q 1).val = (q ⟨0, by decide⟩).val :=
  dot_S4000x64_S64x256_S4000x256_1_0_0_1_n_n.lhsIdx_val_of_single rfl i q
theorem rhs64_0 (i : S4000x256.Idx) (q : dot_S4000x64_S64x256_S4000x256_1_0_0_1_n_n.contr.Idx) :
    (dot_S4000x64_S64x256_S4000x256_1_0_0_1_n_n.rhsIdx i q 0).val = (q ⟨0, by decide⟩).val :=
  dot_S4000x64_S64x256_S4000x256_1_0_0_1_n_n.rhsIdx_val_of_single rfl i q
theorem rhs64_1 (i : S4000x256.Idx) (q : dot_S4000x64_S64x256_S4000x256_1_0_0_1_n_n.contr.Idx) :
    (dot_S4000x64_S64x256_S4000x256_1_0_0_1_n_n.rhsIdx i q 1).val = (i 1).val := by
  unfold DotDims.rhsIdx
  rw [dif_neg (show ¬(1 : Fin S64x256.rank) ∈ dot_S4000x64_S64x256_S4000x256_1_0_0_1_n_n.rhsBatch by decide), dif_pos (show (1 : Fin S64x256.rank) ∈ dot_S4000x64_S64x256_S4000x256_1_0_0_1_n_n.rhsNonContracting by decide)]
  rfl

/-- Entry (p, q) of a [4000,64]·[64,256] product into the zero block: the sum over the 64 graphs. -/
theorem mm64_apply (a : FVec Ideal S4000x64 .bf16) (w : FVec Ideal S64x256 .bf16) (p : Fin 4000) (q : Fin 256) :
    matmul dot_S4000x64_S64x256_S4000x256_1_0_0_1_n_n none a w (constant (F := Ideal) S4000x256 .f32 0x00000000#32) (ix2 p q)
      = ∑ b : Fin 64, a (ix2 p b) * w (ix2 b q) := by
  simp only [matmul]
  rw [Ideal.matmul_constant_zero_apply, ← Equiv.sum_comp (ValueIdx.contrEquiv1 dot_S4000x64_S64x256_S4000x256_1_0_0_1_n_n 64 rfl rfl).symm]
  refine Finset.sum_congr rfl fun k _ => ?_
  have hk := ValueIdx.contrEquiv1_symm_val dot_S4000x64_S64x256_S4000x256_1_0_0_1_n_n 64 rfl rfl k
  have el : dot_S4000x64_S64x256_S4000x256_1_0_0_1_n_n.lhsIdx (ix2 p q) ((ValueIdx.contrEquiv1 dot_S4000x64_S64x256_S4000x256_1_0_0_1_n_n 64 rfl rfl).symm k) = ix2 p k := funext fun a => Fin.ext (by
    match a with
    | ⟨0, _⟩ => exact lhs64_0 _ _
    | ⟨1, _⟩ => exact (lhs64_1 _ _).trans hk)
  have er : dot_S4000x64_S64x256_S4000x256_1_0_0_1_n_n.rhsIdx (ix2 p q) ((ValueIdx.contrEquiv1 dot_S4000x64_S64x256_S4000x256_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ## The one-hot weights, read at an entry -/

/-- A column spread over 64 columns: entry (r, b) is the column's entry at row r. -/
theorem bcast_col_apply (v : IVec S4000x1 32) (r : Fin 4000) (b : Fin 64) :
    broadcastTo S4000x64 v broadcasts_S4000x1_S4000x64 (ix2 r b) = v (ix2 r (0 : Fin 1)) := by
  refine broadcastTo_apply v broadcasts_S4000x1_S4000x64 (ix2 r b) (ix2 r (0 : Fin 1)) fun ax => ?_
  match ax with
  | ⟨0, _⟩ =>
    show r.val = if (4000 : Nat) = 1 then 0 else r.val
    rw [if_neg (by decide)]
  | ⟨1, _⟩ => rfl

/-- The comparison of two 32-bit words for equality, widened and converted: 1 where they agree, else 0. -/
theorem eq_word_toReal (w v : BitVec 32) :
    ((((IntOp.cmpi .eq w v).setWidth 32).toInt : ℝ) : EReal) = if w = v then 1 else 0 := by
  by_cases h : w = v
  · subst h
    have e : IntOp.cmpi .eq w w = 1#1 := by simp [IntOp.cmpi]
    rw [e, if_pos rfl]
    show (((1 : Int) : ℝ) : EReal) = 1
    simp
  · have hb : (w == v) = false := beq_eq_false_iff_ne.mpr h
    have e : IntOp.cmpi .eq w v = 0#1 := by
      show BitVec.ofBool (w == v) = 0#1
      rw [hb]; rfl
    rw [e, if_neg h]
    show (((0 : Int) : ℝ) : EReal) = 0
    simp

/-- Entry (r, b) of the one-hot block: 1 where row r's segment word is graph b's number, else 0. -/
theorem onehot_apply (x1 : Vec Ideal S4000x1 .i32) (r : Fin 4000) (b : Fin 64) :
    k0_pay3 (F := Ideal) x1 (ix2 r b) = Cert.Spec.oh (Cert.Spec.cur2 x1 r 0) b := by
  unfold k0_pay3
  show ((((IntOp.cmpi .eq (broadcastTo S4000x64 (shapeCast S4000x1 x1 shapeCasts_S4000x1_S4000x1) broadcasts_S4000x1_S4000x64 (ix2 r b))
      (broadcastTo S4000x64 (iota .tc S1x64 32 [1] iota_S1x64_d1_w32) broadcasts_S1x64_S4000x64 (ix2 r b))).setWidth 32).toInt : ℝ) : EReal) = _
  rw [bcast_col_apply, broadcastTo_1b_ab_apply, shapeCast_self, iota_single_apply, eq_word_toReal]
  rfl

/-! ## A bias row spread over the tile's rows -/

/-- A [256] vector as one row, spread over 4000 rows: entry (p, q) is the vector's entry q. -/
theorem bias_apply (v : FVec Ideal S256 .f32) (p : Fin 4000) (q : Fin 256) :
    broadcastTo S4000x256 (shapeCast S1x256 v shapeCasts_S256_S1x256) broadcasts_S1x256_S4000x256 (ix2 p q) = v (ix1 q) :=
  (broadcastTo_1b_ab_apply _ _ p q).trans (shapeCast_a_1a_apply v _ 0 q)

/-! ## The two layers, read at an entry -/

/-- Entry (r, k) of the first layer's pre-activation: the two products and the bias. -/
theorem s1_apply (x0 : Vec Ideal S4000x256 .f32) (x1 : Vec Ideal S4000x1 .i32) (x2 : Vec Ideal S64x256 .f32)
    (x3 x4 : Vec Ideal S256x256 .f32) (x5 : Vec Ideal S256 .f32) (r : Fin 4000) (k : Fin 256) :
    addf (addf
        (matmul dot_S4000x256_S256x256_S4000x256_1_0_0_1_n_n none (truncf .bf16 x0 bitsLt_bf16_f32)
          (truncf .bf16 (shapeCast S256x256 x3 shapeCasts_S256x256_S256x256) bitsLt_bf16_f32)
          (constant (F := Ideal) S4000x256 .f32 0x00000000#32))
        (matmul dot_S4000x256_S256x256_S4000x256_1_0_0_1_n_n none
          (truncf .bf16 (matmul dot_S4000x64_S64x256_S4000x256_1_0_0_1_n_n none (k0_pay3 (F := Ideal) x1)
            (truncf .bf16 x2 bitsLt_bf16_f32) (constant (F := Ideal) S4000x256 .f32 0x00000000#32)) bitsLt_bf16_f32)
          (truncf .bf16 (shapeCast S256x256 x4 shapeCasts_S256x256_S256x256) bitsLt_bf16_f32)
          (constant (F := Ideal) S4000x256 .f32 0x00000000#32)))
      (broadcastTo S4000x256 (shapeCast S1x256 x5 shapeCasts_S256_S1x256) broadcasts_S1x256_S4000x256) (ix2 r k)
      = Cert.Spec.lin2 (Cert.Spec.cur2 x0 r) (Cert.Spec.gsum (Cert.Spec.cur2 x1 r 0) (Cert.Spec.cur2 x2)) (Cert.Spec.cur2 x3)
          (Cert.Spec.cur2 x4) (Cert.Spec.cur1 x5) k := by
  refine (congrArg₂ (· + ·) (congrArg₂ (· + ·) (mm256_apply _ _ r k) (mm256_apply _ _ r k)) (bias_apply x5 r k)).trans ?_
  unfold Cert.Spec.lin2
  refine congrArg₂ (· + ·) (congrArg₂ (· + ·) (Finset.sum_congr rfl fun j _ => ?_) (Finset.sum_congr rfl fun j _ => ?_)) rfl
  · exact congrArg₂ (· * ·) rfl (congrFun (shapeCast_self x3 shapeCasts_S256x256_S256x256) (ix2 j k))
  · refine congrArg₂ (· * ·) ((mm64_apply _ _ r j).trans ?_) (congrFun (shapeCast_self x4 shapeCasts_S256x256_S256x256) (ix2 j k))
    unfold Cert.Spec.gsum
    exact Finset.sum_congr rfl fun b _ => congrArg₂ (· * ·) (onehot_apply x1 r b) rfl

/-- Entry (r, f) of the second layer's pre-activation. -/
theorem pay4_apply (x0 : Vec Ideal S4000x256 .f32) (x1 : Vec Ideal S4000x1 .i32) (x2 : Vec Ideal S64x256 .f32)
    (x3 x4 : Vec Ideal S256x256 .f32) (x5 : Vec Ideal S256 .f32) (x6 : Vec Ideal S256x256 .f32) (x7 : Vec Ideal S256 .f32)
    (r : Fin 4000) (f : Fin 256) :
    k0_pay4 (F := Ideal) x0 x1 x2 x3 x4 x5 x6 x7 (ix2 r f)
      = Cert.Spec.lin1 (fun k => Cert.Spec.ssilu (Cert.Spec.lin2 (Cert.Spec.cur2 x0 r)
          (Cert.Spec.gsum (Cert.Spec.cur2 x1 r 0) (Cert.Spec.cur2 x2)) (Cert.Spec.cur2 x3) (Cert.Spec.cur2 x4) (Cert.Spec.cur1 x5) k))
          (Cert.Spec.cur2 x6) (Cert.Spec.cur1 x7) f := by
  unfold k0_pay4
  refine (congrArg₂ (· + ·) (mm256_apply _ _ r f) (bias_apply x7 r f)).trans ?_
  unfold Cert.Spec.lin1
  refine congrArg₂ (· + ·) (Finset.sum_congr rfl fun k _ => congrArg₂ (· * ·) ?_ rfl) rfl
  exact congrArg (fun z : EReal => (z * Ideal.logistic z) * Cert.Spec.c53) (s1_apply x0 x1 x2 x3 x4 x5 r k)

end PayH

/-- Entry (r, f) of the tile's updated rows, from the eight input blocks. -/
theorem pay_h (x0 : Vec Ideal S4000x256 .f32) (x1 : Vec Ideal S4000x1 .i32) (x2 : Vec Ideal S64x256 .f32)
    (x3 x4 : Vec Ideal S256x256 .f32) (x5 : Vec Ideal S256 .f32) (x6 : Vec Ideal S256x256 .f32) (x7 : Vec Ideal S256 .f32)
    (r : Fin 4000) (f : Fin 256) :
    k0_pay1 (F := Ideal) x0 (k0_pay4 x0 x1 x2 x3 x4 x5 x6 x7) (ix2 r f)
      = Cert.Spec.hrow (Cert.Spec.cur2 x0 r) (Cert.Spec.gsum (Cert.Spec.cur2 x1 r 0) (Cert.Spec.cur2 x2)) (Cert.Spec.cur2 x3)
          (Cert.Spec.cur2 x4) (Cert.Spec.cur1 x5) (Cert.Spec.cur2 x6) (Cert.Spec.cur1 x7) f := by
  unfold k0_pay1 Cert.Spec.hrow Cert.Spec.mlp
  exact congrArg (fun z : EReal => (z * Ideal.logistic z) * Cert.Spec.c53 + x0 (ix2 r f)) (PayH.pay4_apply x0 x1 x2 x3 x4 x5 x6 x7 r f)

end Cert.KernelIdeal.Val

end
-- ==== Proof.KI.ValH.lean ====
/-
  The updated-rows array after region 0, whole: every tile's block, written back at its grid point, is the restriction
  of one function of the region's entry arrays — row i is the row formula of node row i — and the fifty blocks cover it.
-/
import proofs.«425103_j12841952215344_2_alg».proof.Proof.KI.R0Defs
import proofs.«425103_j12841952215344_2_alg».proof.Proof.KI.PayH
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The printed index maps over the grid -/

theorem zeros2 : (![0, 0] : Fin 2 → Nat) = fun _ => 0 := funext fun a => by fin_cases a <;> rfl
theorem zeros1 : (![0] : Fin 1 → Nat) = fun _ => 0 := funext fun a => by fin_cases a <;> rfl

/-- The node rows, the segment column and the updated rows move one tile of 4000 rows per grid point; the other
    input windows stay at block zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-! ## Each input block read at its place in its array -/

theorem blk0_0_at (c : Dev nD) (t : Fin cfg0.N) (y : S4000x256.Idx) (i : S200000x256.Idx)
    (h0 : (i 0).val = 4000 * t.val + (y 0).val) (h1 : (i 1).val = (y 1).val) :
    (iblk0 V c 0 t : Vec Ideal S4000x256 .f32) y = (V c main_arg0 : S200000x256.Idx → EReal) i := by
  obtain ⟨e00, e01, e10, e11, e20, e21, e30, e31, e40, e41, e50, e60, e61, e70, e80, e81⟩ := idx_facts0 t
  unfold iblk0
  rw [View.read_apply]
  show V c main_arg0 _ = V c main_arg0 i
  refine congrArg (V c main_arg0) ?_
  funext a; apply Fin.ext
  match a with
  | ⟨0, _⟩ => show win0_0.index t (0 : Fin 2) * 4000 + 1 * (y 0).val = (i 0).val; omega
  | ⟨1, _⟩ => show win0_0.index t (1 : Fin 2) * 256 + 1 * (y 1).val = (i 1).val; omega

theorem blk0_1_at (c : Dev nD) (t : Fin cfg0.N) (y : S4000x1.Idx) (i : S200000x1.Idx)
    (h0 : (i 0).val = 4000 * t.val + (y 0).val) (h1 : (i 1).val = (y 1).val) :
    (iblk0 V c 1 t : Vec Ideal S4000x1 .i32) y = (V c main_v1 : S200000x1.Idx → BitVec 32) i := by
  obtain ⟨e00, e01, e10, e11, e20, e21, e30, e31, e40, e41, e50, e60, e61, e70, e80, e81⟩ := idx_facts0 t
  unfold iblk0
  rw [View.read_apply]
  show V c main_v1 _ = V c main_v1 i
  refine congrArg (V c main_v1) ?_
  funext a; apply Fin.ext
  match a with
  | ⟨0, _⟩ => show win0_1.index t (0 : Fin 2) * 4000 + 1 * (y 0).val = (i 0).val; omega
  | ⟨1, _⟩ => show win0_1.index t (1 : Fin 2) * 1 + 1 * (y 1).val = (i 1).val; omega

theorem blk0_2_at (c : Dev nD) (t : Fin cfg0.N) (y : S64x256.Idx) (i : S64x256.Idx)
    (h0 : (i 0).val = (y 0).val) (h1 : (i 1).val = (y 1).val) :
    (iblk0 V c 2 t : Vec Ideal S64x256 .f32) y = (V c main_arg2 : S64x256.Idx → EReal) i := by
  obtain ⟨e00, e01, e10, e11, e20, e21, e30, e31, e40, e41, e50, e60, e61, e70, e80, e81⟩ := idx_facts0 t
  unfold iblk0
  rw [View.read_apply]
  show V c main_arg2 _ = V c main_arg2 i
  refine congrArg (V c main_arg2) ?_
  funext a; apply Fin.ext
  match a with
  | ⟨0, _⟩ => show win0_2.index t (0 : Fin 2) * 64 + 1 * (y 0).val = (i 0).val; omega
  | ⟨1, _⟩ => show win0_2.index t (1 : Fin 2) * 256 + 1 * (y 1).val = (i 1).val; omega

theorem blk0_3_at (c : Dev nD) (t : Fin cfg0.N) (y : S256x256.Idx) (i : S256x256.Idx)
    (h0 : (i 0).val = (y 0).val) (h1 : (i 1).val = (y 1).val) :
    (iblk0 V c 3 t : Vec Ideal S256x256 .f32) y = (V c main_v2 : S256x256.Idx → EReal) i := by
  obtain ⟨e00, e01, e10, e11, e20, e21, e30, e31, e40, e41, e50, e60, e61, e70, e80, e81⟩ := idx_facts0 t
  unfold iblk0
  rw [View.read_apply]
  show V c main_v2 _ = V c main_v2 i
  refine congrArg (V c main_v2) ?_
  funext a; apply Fin.ext
  match a with
  | ⟨0, _⟩ => show win0_3.index t (0 : Fin 2) * 256 + 1 * (y 0).val = (i 0).val; omega
  | ⟨1, _⟩ => show win0_3.index t (1 : Fin 2) * 256 + 1 * (y 1).val = (i 1).val; omega

theorem blk0_4_at (c : Dev nD) (t : Fin cfg0.N) (y : S256x256.Idx) (i : S256x256.Idx)
    (h0 : (i 0).val = (y 0).val) (h1 : (i 1).val = (y 1).val) :
    (iblk0 V c 4 t : Vec Ideal S256x256 .f32) y = (V c main_v3 : S256x256.Idx → EReal) i := by
  obtain ⟨e00, e01, e10, e11, e20, e21, e30, e31, e40, e41, e50, e60, e61, e70, e80, e81⟩ := idx_facts0 t
  unfold iblk0
  rw [View.read_apply]
  show V c main_v3 _ = V c main_v3 i
  refine congrArg (V c main_v3) ?_
  funext a; apply Fin.ext
  match a with
  | ⟨0, _⟩ => show win0_4.index t (0 : Fin 2) * 256 + 1 * (y 0).val = (i 0).val; omega
  | ⟨1, _⟩ => show win0_4.index t (1 : Fin 2) * 256 + 1 * (y 1).val = (i 1).val; omega

theorem blk0_5_at (c : Dev nD) (t : Fin cfg0.N) (y : S256.Idx) (i : S256.Idx)
    (h0 : (i 0).val = (y 0).val) :
    (iblk0 V c 5 t : Vec Ideal S256 .f32) y = (V c main_arg4 : S256.Idx → EReal) i := by
  obtain ⟨e00, e01, e10, e11, e20, e21, e30, e31, e40, e41, e50, e60, e61, e70, e80, e81⟩ := idx_facts0 t
  unfold iblk0
  rw [View.read_apply]
  show V c main_arg4 _ = V c main_arg4 i
  refine congrArg (V c main_arg4) ?_
  funext a; apply Fin.ext
  match a with
  | ⟨0, _⟩ => show win0_5.index t (0 : Fin 1) * 256 + 1 * (y 0).val = (i 0).val; omega

theorem blk0_6_at (c : Dev nD) (t : Fin cfg0.N) (y : S256x256.Idx) (i : S256x256.Idx)
    (h0 : (i 0).val = (y 0).val) (h1 : (i 1).val = (y 1).val) :
    (iblk0 V c 6 t : Vec Ideal S256x256 .f32) y = (V c main_arg5 : S256x256.Idx → EReal) i := by
  obtain ⟨e00, e01, e10, e11, e20, e21, e30, e31, e40, e41, e50, e60, e61, e70, e80, e81⟩ := idx_facts0 t
  unfold iblk0
  rw [View.read_apply]
  show V c main_arg5 _ = V c main_arg5 i
  refine congrArg (V c main_arg5) ?_
  funext a; apply Fin.ext
  match a with
  | ⟨0, _⟩ => show win0_6.index t (0 : Fin 2) * 256 + 1 * (y 0).val = (i 0).val; omega
  | ⟨1, _⟩ => show win0_6.index t (1 : Fin 2) * 256 + 1 * (y 1).val = (i 1).val; omega

theorem blk0_7_at (c : Dev nD) (t : Fin cfg0.N) (y : S256.Idx) (i : S256.Idx)
    (h0 : (i 0).val = (y 0).val) :
    (iblk0 V c 7 t : Vec Ideal S256 .f32) y = (V c main_arg6 : S256.Idx → EReal) i := by
  obtain ⟨e00, e01, e10, e11, e20, e21, e30, e31, e40, e41, e50, e60, e61, e70, e80, e81⟩ := idx_facts0 t
  unfold iblk0
  rw [View.read_apply]
  show V c main_arg6 _ = V c main_arg6 i
  refine congrArg (V c main_arg6) ?_
  funext a; apply Fin.ext
  match a with
  | ⟨0, _⟩ => show win0_7.index t (0 : Fin 1) * 256 + 1 * (y 0).val = (i 0).val; omega

/-! ## A tile's updated rows are rows of the whole-array function -/

/-- Entry `j` of the tile at grid point `n`, computed from input blocks that are the arrays read at the tile's rows
    (node rows and segment column) or whole (the rest), is entry `i` of `Spec.Hk` of the arrays, `i` being `j` moved
    down by `4000 n` rows. -/
theorem tile_entry (n : Nat) (x0 : Vec Ideal S4000x256 .f32) (x1 : Vec Ideal S4000x1 .i32) (x2 : Vec Ideal S64x256 .f32)
    (x3 x4 : Vec Ideal S256x256 .f32) (x5 : Vec Ideal S256 .f32) (x6 : Vec Ideal S256x256 .f32) (x7 : Vec Ideal S256 .f32)
    (X : S200000x256.Idx → EReal) (BT : S200000x1.Idx → BitVec 32) (VX : S64x256.Idx → EReal)
    (W1T W1B : S256x256.Idx → EReal) (B1 : S256.Idx → EReal) (W2 : S256x256.Idx → EReal) (B2 : S256.Idx → EReal)
    (hx0 : ∀ (y : S4000x256.Idx) (i : S200000x256.Idx), (i 0).val = 4000 * n + (y 0).val → (i 1).val = (y 1).val → x0 y = X i)
    (hx1 : ∀ (y : S4000x1.Idx) (i : S200000x1.Idx), (i 0).val = 4000 * n + (y 0).val → (i 1).val = (y 1).val → x1 y = BT i)
    (hx2 : x2 = VX) (hx3 : x3 = W1T) (hx4 : x4 = W1B) (hx5 : x5 = B1) (hx6 : x6 = W2) (hx7 : x7 = B2)
    (j : S4000x256.Idx) (i : S200000x256.Idx) (h0 : (i 0).val = 4000 * n + (j 0).val) (h1 : (i 1).val = (j 1).val) :
    k0_pay1 (F := Ideal) x0 (k0_pay4 x0 x1 x2 x3 x4 x5 x6 x7) j = Cert.Spec.Hk X BT VX W1T W1B B1 W2 B2 i := by
  subst hx2 hx3 hx4 hx5 hx6 hx7
  obtain ⟨r, f, rfl⟩ : ∃ (r : Fin 4000) (f : Fin 256), j = ix2 r f := ⟨j 0, j 1, eq_ix2 j⟩
  obtain ⟨p, q, rfl⟩ : ∃ (p : Fin 200000) (q : Fin 256), i = ix2 p q := ⟨i 0, i 1, eq_ix2 i⟩
  have hp : p.val = 4000 * n + r.val := h0
  obtain rfl : q = f := Fin.ext h1
  rw [pay_h]
  show Cert.Spec.hrow (Cert.Spec.cur2 x0 r) (Cert.Spec.gsum (Cert.Spec.cur2 x1 r 0) (Cert.Spec.cur2 x2)) _ _ _ _ _ q
    = Cert.Spec.hrow (Cert.Spec.cur2 X p) (Cert.Spec.gsum (Cert.Spec.cur2 BT p 0) (Cert.Spec.cur2 x2)) _ _ _ _ _ q
  have e0 : Cert.Spec.cur2 x0 r = Cert.Spec.cur2 X p := funext fun k => hx0 (ix2 r k) (ix2 p k) hp rfl
  have e1 : Cert.Spec.cur2 x1 r 0 = Cert.Spec.cur2 BT p 0 := hx1 (ix2 r 0) (ix2 p 0) hp rfl
  rw [e0, e1]

/-! ## What a grid point writes back, and the cover -/

/-- Grid point `t` writes back block `t` of `Spec.Hk` of the region's entry arrays. -/
theorem flushed8_eq (c : Dev nD) (t : Fin cfg0.N) :
    (dat0 (F := Ideal) V c).flushed 8 t = ((cfg0.win 8).blk t).view.read (Elt Ideal)
      (Cert.Spec.Hk (V c main_arg0) (V c main_v1) (V c main_arg2) (V c main_v2) (V c main_v3) (V c main_arg4) (V c main_arg5) (V c main_arg6)) := by
  show (cfg0.win 8).cut (grid0.coords t) ((dat0 V c).after 8 t) = _
  rw [after0_8]
  unfold out0_8 pre0
  rw [View.canon_unit_zero zeros2]
  simp only [View.ld_unit_zero (S := S4000x256) zeros2, View.ld_unit_zero (S := S4000x1) zeros2, View.ld_unit_zero (S := S64x256) zeros2,
    View.ld_unit_zero (S := S256x256) zeros2, View.ld_unit_zero (S := S256) zeros1]
  obtain ⟨e00, e01, e10, e11, e20, e21, e30, e31, e40, e41, e50, e60, e61, e70, e80, e81⟩ := idx_facts0 t
  funext j
  show k0_pay1 (F := Ideal) (iblk0 V c 0 t) (k0_pay4 (iblk0 V c 0 t) (iblk0 V c 1 t) (iblk0 V c 2 t) (iblk0 V c 3 t) (iblk0 V c 4 t) (iblk0 V c 5 t) (iblk0 V c 6 t) (iblk0 V c 7 t)) j
    = Cert.Spec.Hk (V c main_arg0) (V c main_v1) (V c main_arg2) (V c main_v2) (V c main_v3) (V c main_arg4) (V c main_arg5) (V c main_arg6) (((cfg0.win 8).blk t).view.emb j)
  refine tile_entry t.val (iblk0 V c 0 t) (iblk0 V c 1 t) (iblk0 V c 2 t) (iblk0 V c 3 t) (iblk0 V c 4 t) (iblk0 V c 5 t) (iblk0 V c 6 t) (iblk0 V c 7 t)
    (V c main_arg0) (V c main_v1) (V c main_arg2) (V c main_v2) (V c main_v3) (V c main_arg4) (V c main_arg5) (V c main_arg6)
    (blk0_0_at V c t) (blk0_1_at V c t)
    (funext fun y => blk0_2_at V c t y y rfl rfl) (funext fun y => blk0_3_at V c t y y rfl rfl) (funext fun y => blk0_4_at V c t y y rfl rfl)
    (funext fun y => blk0_5_at V c t y y rfl) (funext fun y => blk0_6_at V c t y y rfl rfl) (funext fun y => blk0_7_at V c t y y rfl)
    j (((cfg0.win 8).blk t).view.emb j) ?_ ?_
  · show win0_8.index t (0 : Fin 2) * 4000 + 1 * (j 0).val = 4000 * t.val + (j 0).val; omega
  · show win0_8.index t (1 : Fin 2) * 256 + 1 * (j 1).val = (j 1).val; omega

/-- An index of the array is in point `t`'s block iff each coordinate is in the block's range on its axis. -/
theorem mem_blk8 (t : Fin cfg0.N) (i : S200000x256.Idx) :
    i ∈ ((cfg0.win 8).blk t).view.set ↔ ∀ a : Fin 2, win0_8.index t a * S4000x256.size a ≤ (i a).val ∧ (i a).val < win0_8.index t a * S4000x256.size a + S4000x256.size a := by
  show i ∈ ((View.whole main_v6_0).slice (win0_8.rect t)).set ↔ _
  rw [View.set_slice_whole, Rect.mem_set_unit]
  exact Iff.rfl

/-- Every row of the array is in the block of the grid point its tile number names. -/
theorem cover8 (i : S200000x256.Idx) : ∃ t : Fin cfg0.N, (cfg0.win 8).flush t = true ∧ i ∈ ((cfg0.win 8).blk t).view.set := by
  have hi0 : (i 0).val < 200000 := (i 0).isLt
  have hi1 : (i 1).val < 256 := (i 1).isLt
  have hN : cfg0.N = 50 := N_0
  refine ⟨⟨(i 0).val / 4000, by rw [hN]; omega⟩, flush0_8 _, ?_⟩
  rw [mem_blk8]
  obtain ⟨e00, e01, e10, e11, e20, e21, e30, e31, e40, e41, e50, e60, e61, e70, e80, e81⟩ := idx_facts0 ⟨(i 0).val / 4000, by rw [hN]; omega⟩
  intro a
  match a with
  | ⟨0, _⟩ => show win0_8.index _ (0 : Fin 2) * 4000 ≤ (i 0).val ∧ (i 0).val < win0_8.index _ (0 : Fin 2) * 4000 + 4000; rw [e80]; show (i 0).val / 4000 * 4000 ≤ (i 0).val ∧ (i 0).val < (i 0).val / 4000 * 4000 + 4000; omega
  | ⟨1, _⟩ => show win0_8.index _ (1 : Fin 2) * 256 ≤ (i 1).val ∧ (i 1).val < win0_8.index _ (1 : Fin 2) * 256 + 256; rw [e81]; omega

/-- After region 0 the updated-rows array (output window 8) holds `Spec.Hk` of the region's entry arrays. -/
theorem final_h (c : Dev nD) :
    (dat0 (F := Ideal) V c).arrAt 8 cfg0.N = Cert.Spec.Hk (V c main_arg0) (V c main_v1) (V c main_arg2) (V c main_v2) (V c main_v3) (V c main_arg4) (V c main_arg5) (V c main_arg6) :=
  (dat0 (F := Ideal) V c).arrAt_eq_of_cover 8 _ (fun t _ => flushed8_eq V c t) cover8

end Cert.KernelIdeal.Val

end
-- ==== Proof.KI.PayP.lean ====
/-
  The node kernel's partial segment sums read at an index, at the extended reals: entry (b, f) of the tile's partial
  sums is the sum over the tile's rows of the one-hot weight of the row's segment word at graph b times the row's
  updated entry f.
-/
import proofs.«425103_j12841952215344_2_alg».proof.Proof.Gen.KernelIdeal.Skeleton
import proofs.«425103_j12841952215344_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The one-hot weights -/

/-- The segment column broadcast along the 64 graphs reads, at (r, b), the row's segment word. -/
private theorem seg_bcast_apply (x1 : Vec Ideal S4000x1 .i32) (r : Fin 4000) (b : Fin 64) :
    broadcastTo S4000x64 (shapeCast S4000x1 x1 shapeCasts_S4000x1_S4000x1) broadcasts_S4000x1_S4000x64 (ix2 r b)
      = x1 (ix2 r (0 : Fin 1)) := by
  rw [shapeCast_self]
  refine broadcastTo_apply x1 broadcasts_S4000x1_S4000x64 (ix2 r b) (ix2 r (0 : Fin 1)) fun ax => ?_
  match ax with
  | ⟨0, _⟩ =>
    show r.val = if (4000 : Nat) = 1 then 0 else r.val
    rw [if_neg (by decide)]
  | ⟨1, _⟩ =>
    show 0 = if (1 : Nat) = 1 then 0 else b.val
    rw [if_pos rfl]

/-- The graph counter broadcast along the 4000 rows reads, at (r, b), the word of b. -/
private theorem iota_bcast_apply (r : Fin 4000) (b : Fin 64) :
    broadcastTo S4000x64 (iota .tc S1x64 32 [1] iota_S1x64_d1_w32) broadcasts_S1x64_S4000x64 (ix2 r b)
      = BitVec.ofNat 32 b.val := by
  refine (broadcastTo_1b_ab_apply _ broadcasts_S1x64_S4000x64 r b).trans ?_
  exact iota_single_apply .tc S1x64 32 1 iota_S1x64_d1_w32 (ix2 (0 : Fin 1) b)

/-- The one-bit word of an equality test, widened to 32 bits and read as a signed integer, is 1 or 0. -/
private theorem eqbit_toInt (w w' : BitVec 32) :
    ((((IntOp.cmpi .eq w w').setWidth 32).toInt : ℝ) : EReal) = if w = w' then 1 else 0 := by
  by_cases h : w = w'
  · rw [if_pos h, IntOp.cmpi_eq.mpr h]
    have : ((1#1 : BitVec 1).setWidth 32).toInt = 1 := by decide
    rw [this]; norm_num
  · have h0 : IntOp.cmpi .eq w w' = 0#1 := eq_zero_of_ne_one fun h1 => h (IntOp.cmpi_eq.mp h1)
    rw [if_neg h, h0]
    have : ((0#1 : BitVec 1).setWidth 32).toInt = 0 := by decide
    rw [this]; norm_num

/-- Entry (r, b) of the one-hot matrix of the tile: the one-hot weight of row r's segment word at graph b. -/
theorem onehot_apply (x1 : Vec Ideal S4000x1 .i32) (r : Fin 4000) (b : Fin 64) :
    k0_pay3 (F := Ideal) x1 (ix2 r b) = Cert.Spec.oh (Cert.Spec.cur2 x1 r 0) b := by
  have e : k0_pay3 (F := Ideal) x1 (ix2 r b)
      = ((((IntOp.cmpi .eq (x1 (ix2 r (0 : Fin 1))) (BitVec.ofNat 32 b.val)).setWidth 32).toInt : ℝ) : EReal) :=
    congrArg₂ (fun a c : BitVec 32 => ((((IntOp.cmpi .eq a c).setWidth 32).toInt : ℝ) : EReal))
      (seg_bcast_apply x1 r b) (iota_bcast_apply r b)
  rw [e, eqbit_toInt]
  rfl

/-! ## The product contracting the tile's rows -/

private theorem lhs_p_0 (i : S64x256.Idx) (q : dot_S4000x64_S4000x256_S64x256_0_0_1_1_n_n.contr.Idx) :
    (dot_S4000x64_S4000x256_S64x256_0_0_1_1_n_n.lhsIdx i q 0).val = (q ⟨0, by decide⟩).val :=
  dot_S4000x64_S4000x256_S64x256_0_0_1_1_n_n.lhsIdx_val_of_single rfl i q
private theorem lhs_p_1 (i : S64x256.Idx) (q : dot_S4000x64_S4000x256_S64x256_0_0_1_1_n_n.contr.Idx) :
    (dot_S4000x64_S4000x256_S64x256_0_0_1_1_n_n.lhsIdx i q 1).val = (i 0).val := by
  unfold DotDims.lhsIdx
  rw [dif_neg (show ¬(1 : Fin S4000x64.rank) ∈ dot_S4000x64_S4000x256_S64x256_0_0_1_1_n_n.lhsBatch by decide), dif_pos (show (1 : Fin S4000x64.rank) ∈ dot_S4000x64_S4000x256_S64x256_0_0_1_1_n_n.lhsNonContracting by decide)]
  rfl
private theorem rhs_p_0 (i : S64x256.Idx) (q : dot_S4000x64_S4000x256_S64x256_0_0_1_1_n_n.contr.Idx) :
    (dot_S4000x64_S4000x256_S64x256_0_0_1_1_n_n.rhsIdx i q 0).val = (q ⟨0, by decide⟩).val :=
  dot_S4000x64_S4000x256_S64x256_0_0_1_1_n_n.rhsIdx_val_of_single rfl i q
private theorem rhs_p_1 (i : S64x256.Idx) (q : dot_S4000x64_S4000x256_S64x256_0_0_1_1_n_n.contr.Idx) :
    (dot_S4000x64_S4000x256_S64x256_0_0_1_1_n_n.rhsIdx i q 1).val = (i 1).val := by
  unfold DotDims.rhsIdx
  rw [dif_neg (show ¬(1 : Fin S4000x256.rank) ∈ dot_S4000x64_S4000x256_S64x256_0_0_1_1_n_n.rhsBatch by decide), dif_pos (show (1 : Fin S4000x256.rank) ∈ dot_S4000x64_S4000x256_S64x256_0_0_1_1_n_n.rhsNonContracting by decide)]
  rfl

/-- The product of a [4000,64] and a [4000,256] array contracting their rows, into the zero constant, read at (b, f):
    the sum over the rows. -/
private theorem matmul_p_apply (A : FVec Ideal S4000x64 .bf16) (B : FVec Ideal S4000x256 .bf16) (b : Fin 64) (f : Fin 256) :
    FloatOps.matmul dot_S4000x64_S4000x256_S64x256_0_0_1_1_n_n none A B (constant (F := Ideal) S64x256 .f32 0x00000000#32) (ix2 b f)
      = ∑ k : Fin 4000, A (ix2 k b) * B (ix2 k f) := by
  rw [Ideal.matmul_constant_zero_apply, ← Equiv.sum_comp (ValueIdx.contrEquiv1 dot_S4000x64_S4000x256_S64x256_0_0_1_1_n_n 4000 rfl rfl).symm]
  refine Finset.sum_congr rfl fun k _ => ?_
  have hk := ValueIdx.contrEquiv1_symm_val dot_S4000x64_S4000x256_S64x256_0_0_1_1_n_n 4000 rfl rfl k
  have el : dot_S4000x64_S4000x256_S64x256_0_0_1_1_n_n.lhsIdx (ix2 b f) ((ValueIdx.contrEquiv1 dot_S4000x64_S4000x256_S64x256_0_0_1_1_n_n 4000 rfl rfl).symm k) = ix2 k b := funext fun a => Fin.ext (by
    match a with
    | ⟨0, _⟩ => exact (lhs_p_0 _ _).trans hk
    | ⟨1, _⟩ => exact lhs_p_1 _ _)
  have er : dot_S4000x64_S4000x256_S64x256_0_0_1_1_n_n.rhsIdx (ix2 b f) ((ValueIdx.contrEquiv1 dot_S4000x64_S4000x256_S64x256_0_0_1_1_n_n 4000 rfl rfl).symm k) = ix2 k f := funext fun a => Fin.ext (by
    match a with
    | ⟨0, _⟩ => exact (rhs_p_0 _ _).trans hk
    | ⟨1, _⟩ => exact rhs_p_1 _ _)
  rw [el, er]

/-! ## The partial segment sums -/

/-- Entry (0, b, f) of the tile's partial segment sums, from the one-hot weights (of the segment column `x1`) and the
    updated rows `h` of the tile. -/
theorem pay_p (v0 : Vec Ideal S4000x256 .f32) (x1 : Vec Ideal S4000x1 .i32) (v39 : FVec Ideal S4000x256 .f32)
    (b : Fin 64) (f : Fin 256) :
    k0_pay2 (F := Ideal) v0 (k0_pay3 x1) v39 (ix3 (0 : Fin 1) b f)
      = ∑ r : Fin 4000, Cert.Spec.oh (Cert.Spec.cur2 x1 r 0) b * k0_pay1 (F := Ideal) v0 v39 (ix2 r f) := by
  unfold k0_pay2
  refine (shapeCast_ab_1ab_apply _ shapeCasts_S64x256_S1x64x256 (0 : Fin 1) b f).trans ?_
  refine (matmul_p_apply (k0_pay3 x1) (truncf .bf16 (k0_pay1 v0 v39) bitsLt_bf16_f32) b f).trans ?_
  refine Finset.sum_congr rfl fun r _ => ?_
  exact congrArg (· * k0_pay1 (F := Ideal) v0 v39 (ix2 r f)) (onehot_apply x1 r b)

end Cert.KernelIdeal.Val

end
-- ==== Proof.KI.ValP.lean ====
/-
  The partial-sums array after region 0, whole: tile t's block (one slab of the 50 × 64 × 256 array) holds the one-hot
  weighted sums of the tile's updated rows, and the fifty slabs cover the array.

  The steps: the index maps of the region's windows, decided once over the fifty points (the node rows, the segment
  column and the partial sums move with the point along their leading axis; every other window stays on its whole
  array); each input block read off its array; entry (0, b, f) of what a point leaves for the partial sums as entry
  (t, b, f) of one function of the whole arrays; the write-back at a point as the block of that function; the cover
  of the array by the fifty slabs.
-/
import proofs.«425103_j12841952215344_2_alg».proof.Proof.KI.R0Defs
import proofs.«425103_j12841952215344_2_alg».proof.Proof.KI.PayH
import proofs.«425103_j12841952215344_2_alg».proof.Proof.KI.PayP
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace PSum

/-! ## Zero offsets and the index maps -/

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- The block index of every window the partial sums read, and of the partial sums' own window, at every point. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_9.index t (0 : Fin 3) = t.val ∧ win0_9.index t (1 : Fin 3) = 0 ∧ win0_9.index t (2 : Fin 3) = 0 :=
  (by decide +kernel : ∀ t : Fin grid0.N, _)

/-! ## A slab entry as an entry of the whole-array function -/

/-- Entry (0, b, f) of the tile's partial sums, from blocks that are rows 4000T … 4000T + 3999 of the node rows and of the
    segment column and the whole of every other array, is entry (T, b, f) of the partial sums of the whole arrays. -/
theorem slab_eq (x0 : Vec Ideal S4000x256 .f32) (x1 : Vec Ideal S4000x1 .i32) (x2 : Vec Ideal S64x256 .f32)
    (x3 x4 : Vec Ideal S256x256 .f32) (x5 : Vec Ideal S256 .f32) (x6 : Vec Ideal S256x256 .f32) (x7 : Vec Ideal S256 .f32)
    (X : S200000x256.Idx → EReal) (BT : S200000x1.Idx → BitVec 32) (T : Fin 50)
    (h0 : ∀ (r : Fin 4000) (f : Fin 256), x0 (ix2 r f) = X (ix2 (Cert.Spec.row T r) f))
    (h1 : ∀ r : Fin 4000, x1 (ix2 r (0 : Fin 1)) = BT (ix2 (Cert.Spec.row T r) (0 : Fin 1)))
    (b : Fin 64) (f : Fin 256) :
    k0_pay2 (F := Ideal) x0 (k0_pay3 x1) (k0_pay4 x0 x1 x2 x3 x4 x5 x6 x7) (ix3 (0 : Fin 1) b f)
      = Cert.Spec.Pk (Cert.Spec.Hk X BT x2 x3 x4 x5 x6 x7) BT (ix3 T b f) := by
  refine (pay_p x0 x1 _ b f).trans ?_
  show _ = ∑ r : Fin 4000, Cert.Spec.oh (Cert.Spec.cur2 BT (Cert.Spec.row T r) 0) b
      * Cert.Spec.cur2 (Cert.Spec.Hk X BT x2 x3 x4 x5 x6 x7) (Cert.Spec.row T r) f
  refine Finset.sum_congr rfl fun r _ => ?_
  rw [pay_h]
  show _ = Cert.Spec.oh (Cert.Spec.cur2 BT (Cert.Spec.row T r) 0) b
      * Cert.Spec.hrow (Cert.Spec.cur2 X (Cert.Spec.row T r)) (Cert.Spec.gsum (Cert.Spec.cur2 BT (Cert.Spec.row T r) 0) (Cert.Spec.cur2 x2))
          (Cert.Spec.cur2 x3) (Cert.Spec.cur2 x4) (Cert.Spec.cur1 x5) (Cert.Spec.cur2 x6) (Cert.Spec.cur1 x7) f
  have ex : Cert.Spec.cur2 x0 r = Cert.Spec.cur2 X (Cert.Spec.row T r) := funext fun k => h0 r k
  have eb : Cert.Spec.cur2 x1 r 0 = Cert.Spec.cur2 BT (Cert.Spec.row T r) 0 := h1 r
  rw [ex, eb]

/-! ## The input windows' blocks, read off their arrays -/

/-- The node-rows block at point t is rows 4000t … 4000t + 3999 of the node rows. -/
theorem blk_rows (c : Dev nD) (t : Fin cfg0.N) (T : Fin 50) (hT : T.val = t.val) (r : Fin 4000) (f : Fin 256) :
    (iblk0 V c 0 t : Vec Ideal S4000x256 .f32) (ix2 r f) = (V c main_arg0 : S200000x256.Idx → EReal) (ix2 (Cert.Spec.row T r) f) := by
  obtain ⟨e0, e1, -⟩ := index_facts t
  show V c main_arg0 (((cfg0.win 0).blk t).view.emb (ix2 r f)) = _
  refine congrArg (V c main_arg0) (funext fun a => Fin.ext ?_)
  match a with
  | ⟨0, _⟩ => show win0_0.index t (0 : Fin 2) * 4000 + 1 * r.val = 4000 * T.val + r.val; rw [e0, hT]; omega
  | ⟨1, _⟩ => show win0_0.index t (1 : Fin 2) * 256 + 1 * f.val = f.val; rw [e1]; omega

/-- The segment-column block at point t is rows 4000t … 4000t + 3999 of the segment column. -/
theorem blk_seg (c : Dev nD) (t : Fin cfg0.N) (T : Fin 50) (hT : T.val = t.val) (r : Fin 4000) :
    (iblk0 V c 1 t : Vec Ideal S4000x1 .i32) (ix2 r (0 : Fin 1)) = (V c main_v1 : S200000x1.Idx → BitVec 32) (ix2 (Cert.Spec.row T r) (0 : Fin 1)) := by
  obtain ⟨-, -, e0, e1, -⟩ := index_facts t
  show V c main_v1 (((cfg0.win 1).blk t).view.emb (ix2 r (0 : Fin 1))) = _
  refine congrArg (V c main_v1) (funext fun a => Fin.ext ?_)
  match a with
  | ⟨0, _⟩ => show win0_1.index t (0 : Fin 2) * 4000 + 1 * r.val = 4000 * T.val + r.val; rw [e0, hT]; omega
  | ⟨1, _⟩ => show win0_1.index t (1 : Fin 2) * 1 + 1 * 0 = 0; rw [e1]

/-- The virtual-node rows' block is the whole array at every point. -/
theorem blk_vn (c : Dev nD) (t : Fin cfg0.N) : (iblk0 V c 2 t : Vec Ideal S64x256 .f32) = V c main_arg2 := by
  obtain ⟨-, -, -, -, e0, e1, -⟩ := index_facts t
  funext y
  show V c main_arg2 (((cfg0.win 2).blk t).view.emb y) = V c main_arg2 y
  refine congrArg (V c main_arg2) (funext fun a => Fin.ext ?_)
  match a with
  | ⟨0, _⟩ => show win0_2.index t (0 : Fin 2) * 64 + 1 * (y 0).val = (y 0).val; rw [e0]; omega
  | ⟨1, _⟩ => show win0_2.index t (1 : Fin 2) * 256 + 1 * (y 1).val = (y 1).val; rw [e1]; omega

/-- The first layer's top half's block is the whole array at every point. -/
theorem blk_w1t (c : Dev nD) (t : Fin cfg0.N) : (iblk0 V c 3 t : Vec Ideal S256x256 .f32) = V c main_v2 := by
  obtain ⟨-, -, -, -, -, -, e0, e1, -⟩ := index_facts t
  funext y
  show V c main_v2 (((cfg0.win 3).blk t).view.emb y) = V c main_v2 y
  refine congrArg (V c main_v2) (funext fun a => Fin.ext ?_)
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- The first layer's bottom half's block is the whole array at every point. -/
theorem blk_w1b (c : Dev nD) (t : Fin cfg0.N) : (iblk0 V c 4 t : Vec Ideal S256x256 .f32) = V c main_v3 := by
  obtain ⟨-, -, -, -, -, -, -, -, e0, e1, -⟩ := index_facts t
  funext y
  show V c main_v3 (((cfg0.win 4).blk t).view.emb y) = V c main_v3 y
  refine congrArg (V c main_v3) (funext fun a => Fin.ext ?_)
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

/-- The first layer's bias block is the whole array at every point. -/
theorem blk_b1 (c : Dev nD) (t : Fin cfg0.N) : (iblk0 V c 5 t : Vec Ideal S256 .f32) = V c main_arg4 := by
  obtain ⟨-, -, -, -, -, -, -, -, -, -, e0, -⟩ := index_facts t
  funext y
  show V c main_arg4 (((cfg0.win 5).blk t).view.emb y) = V c main_arg4 y
  refine congrArg (V c main_arg4) (funext fun a => Fin.ext ?_)
  match a with
  | ⟨0, _⟩ => show win0_5.index t (0 : Fin 1) * 256 + 1 * (y 0).val = (y 0).val; rw [e0]; omega

/-- The second layer's weight block is the whole array at every point. -/
theorem blk_w2 (c : Dev nD) (t : Fin cfg0.N) : (iblk0 V c 6 t : Vec Ideal S256x256 .f32) = V c main_arg5 := by
  obtain ⟨-, -, -, -, -, -, -, -, -, -, -, e0, e1, -⟩ := index_facts t
  funext y
  show V c main_arg5 (((cfg0.win 6).blk t).view.emb y) = V c main_arg5 y
  refine congrArg (V c main_arg5) (funext fun a => Fin.ext ?_)
  match a with
  | ⟨0, _⟩ => show win0_6.index t (0 : Fin 2) * 256 + 1 * (y 0).val = (y 0).val; rw [e0]; omega
  | ⟨1, _⟩ => show win0_6.index t (1 : Fin 2) * 256 + 1 * (y 1).val = (y 1).val; rw [e1]; omega

/-- The second layer's bias block is the whole array at every point. -/
theorem blk_b2 (c : Dev nD) (t : Fin cfg0.N) : (iblk0 V c 7 t : Vec Ideal S256 .f32) = V c main_arg6 := by
  obtain ⟨-, -, -, -, -, -, -, -, -, -, -, -, -, e0, -⟩ := index_facts t
  funext y
  show V c main_arg6 (((cfg0.win 7).blk t).view.emb y) = V c main_arg6 y
  refine congrArg (V c main_arg6) (funext fun a => Fin.ext ?_)
  match a with
  | ⟨0, _⟩ => show win0_7.index t (0 : Fin 1) * 256 + 1 * (y 0).val = (y 0).val; rw [e0]; omega

/-! ## The output window's block -/

/-- Contents of the staging buffer that agree, entry by entry, with slab T of a whole array are, written back at point t
    (T = t), the window's block at t of that array. -/
theorem cut_eq_read (X : S1x64x256.Idx → EReal) (G : S50x64x256.Idx → EReal) (t : Fin cfg0.N) (T : Fin 50) (hT : T.val = t.val)
    (h : ∀ (b : Fin 64) (f : Fin 256), X (ix3 (0 : Fin 1) b f) = G (ix3 T b f)) :
    (cfg0.win 9).cut (grid0.coords t) X = ((cfg0.win 9).blk t).view.read (Elt Ideal) G := by
  obtain ⟨-, -, -, -, -, -, -, -, -, -, -, -, -, -, e0, e1, e2⟩ := index_facts t
  funext j
  have hj0 : (j 0).val < 1 := (j 0).isLt
  have hj1 : (j 1).val < 64 := (j 1).isLt
  have hj2 : (j 2).val < 256 := (j 2).isLt
  have eL : (cfg0.win 9).xinj (grid0.coords t) j = ix3 (0 : Fin 1) ⟨(j 1).val, hj1⟩ ⟨(j 2).val, hj2⟩ := funext fun a => Fin.ext (by
    match a with
    | ⟨0, _⟩ => show (j 0).val = 0; omega
    | ⟨1, _⟩ => rfl
    | ⟨2, _⟩ => rfl)
  have eR : ((cfg0.win 9).blk t).view.emb j = ix3 T ⟨(j 1).val, hj1⟩ ⟨(j 2).val, hj2⟩ := funext fun a => Fin.ext (by
    match a with
    | ⟨0, _⟩ => show win0_9.index t (0 : Fin 3) * 1 + 1 * (j 0).val = T.val; rw [e0, hT]; omega
    | ⟨1, _⟩ => show win0_9.index t (1 : Fin 3) * 64 + 1 * (j 1).val = (j 1).val; rw [e1]; omega
    | ⟨2, _⟩ => show win0_9.index t (2 : Fin 3) * 256 + 1 * (j 2).val = (j 2).val; rw [e2]; omega)
  show X ((cfg0.win 9).xinj (grid0.coords t) j) = G (((cfg0.win 9).blk t).view.emb j)
  rw [eL, eR]
  exact h _ _

/-- The partial-sums array as one function of the arrays the region finds. -/
abbrev G (c : Dev nD) : S50x64x256.Idx → EReal :=
  Cert.Spec.Pk (Cert.Spec.Hk (V c main_arg0) (V c main_v1) (V c main_arg2) (V c main_v2) (V c main_v3) (V c main_arg4) (V c main_arg5) (V c main_arg6)) (V c main_v1)

/-- What point t writes back to the partial-sums array is slab t of `G`. -/
theorem flushed_slab (c : Dev nD) (t : Fin cfg0.N) :
    (dat0 (F := Ideal) V c).flushed 9 t = ((cfg0.win 9).blk t).view.read (Elt Ideal) (G V c) := by
  show (cfg0.win 9).cut (grid0.coords t) ((dat0 V c).after 9 t) = _
  rw [after0_9]
  unfold out0_9 pre0
  rw [View.canon_unit_zero zero3]
  simp only [View.ld_unit_zero (S := S4000x256) zero2, View.ld_unit_zero (S := S4000x1) zero2, View.ld_unit_zero (S := S64x256) zero2,
    View.ld_unit_zero (S := S256x256) zero2, View.ld_unit_zero (S := S256) zero1]
  have hN : t.val < 50 := Nat.lt_of_lt_of_eq t.isLt (show cfg0.N = 50 from N_0)
  refine cut_eq_read _ (G V c) t ⟨t.val, hN⟩ rfl fun b f => ?_
  rw [blk_vn, blk_w1t, blk_w1b, blk_b1, blk_w2, blk_b2]
  exact slab_eq _ _ _ _ _ _ _ _ _ _ ⟨t.val, hN⟩ (fun r k => blk_rows V c t ⟨t.val, hN⟩ rfl r k) (fun r => blk_seg V c t ⟨t.val, hN⟩ rfl r) b f

/-- An index of the array is in point t's block iff each coordinate is in the block's range on its axis. -/
theorem mem_slab (t : Fin cfg0.N) (i : S50x64x256.Idx) :
    i ∈ ((cfg0.win 9).blk t).view.set ↔ ∀ a : Fin 3, win0_9.index t a * S1x64x256.size a ≤ (i a).val ∧ (i a).val < win0_9.index t a * S1x64x256.size a + S1x64x256.size a := by
  show i ∈ ((View.whole main_v6_1).slice (win0_9.rect t)).set ↔ _
  rw [View.set_slice_whole, Rect.mem_set_unit]
  exact Iff.rfl

/-- The fifty slabs cover the array: the point that covers index i is its leading coordinate. -/
theorem cover_slabs (i : S50x64x256.Idx) : ∃ t : Fin cfg0.N, (cfg0.win 9).flush t = true ∧ i ∈ ((cfg0.win 9).blk t).view.set := by
  have hi0 : (i 0).val < 50 := (i 0).isLt
  have hi1 : (i 1).val < 64 := (i 1).isLt
  have hi2 : (i 2).val < 256 := (i 2).isLt
  have hN : (i 0).val < cfg0.N := by rw [show cfg0.N = 50 from N_0]; exact hi0
  obtain ⟨-, -, -, -, -, -, -, -, -, -, -, -, -, -, e0, e1, e2⟩ := index_facts ⟨(i 0).val, hN⟩
  have e0' : win0_9.index ⟨(i 0).val, hN⟩ (0 : Fin 3) = (i 0).val := e0
  refine ⟨⟨(i 0).val, hN⟩, flush0_9 _, ?_⟩
  rw [mem_slab]
  intro a
  match a with
  | ⟨0, _⟩ => show win0_9.index ⟨(i 0).val, hN⟩ (0 : Fin 3) * 1 ≤ (i 0).val ∧ (i 0).val < win0_9.index ⟨(i 0).val, hN⟩ (0 : Fin 3) * 1 + 1; rw [e0']; omega
  | ⟨1, _⟩ => show win0_9.index ⟨(i 0).val, hN⟩ (1 : Fin 3) * 64 ≤ (i 1).val ∧ (i 1).val < win0_9.index ⟨(i 0).val, hN⟩ (1 : Fin 3) * 64 + 64; rw [e1]; omega
  | ⟨2, _⟩ => show win0_9.index ⟨(i 0).val, hN⟩ (2 : Fin 3) * 256 ≤ (i 2).val ∧ (i 2).val < win0_9.index ⟨(i 0).val, hN⟩ (2 : Fin 3) * 256 + 256; rw [e2]; omega

end PSum

/-- After region 0 the partial-sums array (output window 9) holds `Spec.Pk` of the updated rows and the segment column. -/
theorem final_p (c : Dev nD) :
    (dat0 (F := Ideal) V c).arrAt 9 cfg0.N = Cert.Spec.Pk (Cert.Spec.Hk (V c main_arg0) (V c main_v1) (V c main_arg2) (V c main_v2) (V c main_v3) (V c main_arg4) (V c main_arg5) (V c main_arg6)) (V c main_v1) :=
  (dat0 (F := Ideal) V c).arrAt_eq_of_cover 9 (PSum.G V c) (fun t _ => PSum.flushed_slab V c t) PSum.cover_slabs

end Cert.KernelIdeal.Val

end
-- ==== Proof.KI.ValV.lean ====
/-
  The virtual-node array after region 1, whole: the running sum after the last grid point is the sum of the fifty
  partial-sum slabs; the last point's store is the pooled mean through the two-layer MLP; only the last point writes the
  output window back, and its one block is the whole array.
-/
import proofs.«425103_j12841952215344_2_alg».proof.Proof.KI.R1Defs
import proofs.«425103_j12841952215344_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace VN

/-! ## A product of a [64,256] and a [256,256] matrix, read at an index -/

theorem lhs_vn_0 (i : S64x256.Idx) (q : dot_S64x256_S256x256_S64x256_1_0_0_1_n_n.contr.Idx) :
    (dot_S64x256_S256x256_S64x256_1_0_0_1_n_n.lhsIdx i q 0).val = (i 0).val := by
  unfold DotDims.lhsIdx
  rw [dif_neg (show ¬(0 : Fin S64x256.rank) ∈ dot_S64x256_S256x256_S64x256_1_0_0_1_n_n.lhsBatch by decide), dif_pos (show (0 : Fin S64x256.rank) ∈ dot_S64x256_S256x256_S64x256_1_0_0_1_n_n.lhsNonContracting by decide)]
  rfl
theorem lhs_vn_1 (i : S64x256.Idx) (q : dot_S64x256_S256x256_S64x256_1_0_0_1_n_n.contr.Idx) :
    (dot_S64x256_S256x256_S64x256_1_0_0_1_n_n.lhsIdx i q 1).val = (q ⟨0, by decide⟩).val :=
  dot_S64x256_S256x256_S64x256_1_0_0_1_n_n.lhsIdx_val_of_single rfl i q
theorem rhs_vn_0 (i : S64x256.Idx) (q : dot_S64x256_S256x256_S64x256_1_0_0_1_n_n.contr.Idx) :
    (dot_S64x256_S256x256_S64x256_1_0_0_1_n_n.rhsIdx i q 0).val = (q ⟨0, by decide⟩).val :=
  dot_S64x256_S256x256_S64x256_1_0_0_1_n_n.rhsIdx_val_of_single rfl i q
theorem rhs_vn_1 (i : S64x256.Idx) (q : dot_S64x256_S256x256_S64x256_1_0_0_1_n_n.contr.Idx) :
    (dot_S64x256_S256x256_S64x256_1_0_0_1_n_n.rhsIdx i q 1).val = (i 1).val := by
  unfold DotDims.rhsIdx
  rw [dif_neg (show ¬(1 : Fin S256x256.rank) ∈ dot_S64x256_S256x256_S64x256_1_0_0_1_n_n.rhsBatch by decide), dif_pos (show (1 : Fin S256x256.rank) ∈ dot_S64x256_S256x256_S64x256_1_0_0_1_n_n.rhsNonContracting by decide)]
  rfl

/-- Entry (b, j) of the product into the zero accumulator is the sum over the shared axis. -/
theorem matmul_vn_apply {φ₁ φ₂ : FTy} (x : FVec Ideal S64x256 φ₁) (w : FVec Ideal S256x256 φ₂) (b : Fin 64) (j : Fin 256) :
    matmul dot_S64x256_S256x256_S64x256_1_0_0_1_n_n none x w (constant (F := Ideal) S64x256 .f32 0x00000000#32) (ix2 b j)
      = ∑ k : Fin 256, x (ix2 b k) * w (ix2 k j) := by
  refine (Ideal.matmul_constant_zero_apply dot_S64x256_S256x256_S64x256_1_0_0_1_n_n none x w (ix2 b j)).trans ?_
  rw [← Equiv.sum_comp (ValueIdx.contrEquiv1 dot_S64x256_S256x256_S64x256_1_0_0_1_n_n 256 rfl rfl).symm]
  refine Finset.sum_congr rfl fun k _ => ?_
  have hk := ValueIdx.contrEquiv1_symm_val dot_S64x256_S256x256_S64x256_1_0_0_1_n_n 256 rfl rfl k
  have el : dot_S64x256_S256x256_S64x256_1_0_0_1_n_n.lhsIdx (ix2 b j) ((ValueIdx.contrEquiv1 dot_S64x256_S256x256_S64x256_1_0_0_1_n_n 256 rfl rfl).symm k) = ix2 b k := funext fun a => Fin.ext (by
    match a with
    | ⟨0, _⟩ => exact lhs_vn_0 _ _
    | ⟨1, _⟩ => exact (lhs_vn_1 _ _).trans hk)
  have er : dot_S64x256_S256x256_S64x256_1_0_0_1_n_n.rhsIdx (ix2 b j) ((ValueIdx.contrEquiv1 dot_S64x256_S256x256_S64x256_1_0_0_1_n_n 256 rfl rfl).symm k) = ix2 k j := funext fun a => Fin.ext (by
    match a with
    | ⟨0, _⟩ => exact (rhs_vn_0 _ _).trans hk
    | ⟨1, _⟩ => exact rhs_vn_1 _ _)
  rw [el, er]

/-! ## The layout operations of the virtual-node kernel, read at an index -/

/-- A [64,1] column broadcast along the rows reads, at (b, k), the column's entry b. -/
theorem broadcastTo_col_apply {α : Type} (v : S64x1.Idx → α) (h : S64x1.Broadcasts S64x256) (b : Fin 64) (k : Fin 256) :
    broadcastTo S64x256 v h (ix2 b k) = v (ix2 b (0 : Fin 1)) := by
  refine broadcastTo_apply v h (ix2 b k) (ix2 b (0 : Fin 1)) fun ax => ?_
  match ax with
  | ⟨0, _⟩ =>
    show b.val = if (64 : Nat) = 1 then 0 else b.val
    rw [if_neg (by decide)]
  | ⟨1, _⟩ => rfl

/-- A bias vector laid out as one row and broadcast over the rows reads, at (b, j), the vector's entry j. -/
theorem bias_apply {α : Type} (v : S256.Idx → α) (h1 : S256.ShapeCasts S1x256) (h2 : S1x256.Broadcasts S64x256) (b : Fin 64) (j : Fin 256) :
    broadcastTo S64x256 (shapeCast S1x256 v h1) h2 (ix2 b j) = v (ix1 j) :=
  (broadcastTo_1b_ab_apply (shapeCast S1x256 v h1) h2 b j).trans (shapeCast_a_1a_apply v h1 (0 : Fin 1) j)

/-- The scaled SiLU of a vector, entry by entry. -/
theorem ssilu_apply (z : FVec Ideal S64x256 .f32) (i : S64x256.Idx) :
    mulf (mulf z (logistic z)) (broadcast S64x256 (Scalar.ofBits (F := Ideal) .f32 0x3FD55555#32)) i = Cert.Spec.ssilu (z i) := rfl

/-! ## What the last point stores, read at an index -/

/-- Entry (b, j) of what the last point stores: the pooled mean of segment b through the two-layer MLP. -/
theorem pay_v (v13 : Vec Ideal S64x256 .f32) (v14 : Vec Ideal S64x1 .f32) (v16 : Vec Ideal S64x256 .f32)
    (v23 v26 : Vec Ideal S256x256 .f32) (v32 : Vec Ideal S256 .f32) (v41 : Vec Ideal S256x256 .f32) (v44 : Vec Ideal S256 .f32)
    (b : Fin 64) (j : Fin 256) :
    k1_pay3 (F := Ideal) v13 v14 v16 v23 v26 v32 v41 v44 (ix2 b j)
      = Cert.Spec.mlp (fun k => Cert.Spec.pooled (v13 (ix2 b k)) (v14 (ix2 b (0 : Fin 1)))) (Cert.Spec.cur2 v16 b) (Cert.Spec.cur2 v23)
          (Cert.Spec.cur2 v26) (Cert.Spec.cur1 v32) (Cert.Spec.cur2 v41) (Cert.Spec.cur1 v44) j := by
  unfold k1_pay3
  refine (ssilu_apply _ _).trans (congrArg Cert.Spec.ssilu ?_)
  -- the second layer
  refine (addf_apply _ _ _).trans (congrArg₂ (· + ·) ?_ (bias_apply v44 _ _ b j))
  refine (matmul_vn_apply _ _ b j).trans (Finset.sum_congr rfl fun k _ => congrArg₂ (· * ·) ?_ rfl)
  refine (truncf_apply (φ := .f32) (ψ := .bf16) _ bitsLt_bf16_f32 _).trans ((ssilu_apply _ _).trans (congrArg Cert.Spec.ssilu ?_))
  -- the first layer
  refine (addf_apply _ _ _).trans (congrArg₂ (· + ·) ((addf_apply _ _ _).trans (congrArg₂ (· + ·) ?_ ?_)) (bias_apply v32 _ _ b k))
  · -- the pooled mean times the top half of the weights
    refine (matmul_vn_apply _ _ b k).trans (Finset.sum_congr rfl fun k' _ => congrArg₂ (· * ·) ?_ ?_)
    · refine (truncf_apply (φ := .f32) (ψ := .bf16) _ bitsLt_bf16_f32 _).trans ((divf_apply _ _ _).trans (congrArg (Ideal.div (v13 (ix2 b k'))) ?_))
      refine (broadcastTo_col_apply _ _ b k').trans ((maximumf_apply _ _ _).trans (congrArg₂ max ?_ rfl))
      exact congrFun (shapeCast_self v14 _) _
    · exact (truncf_apply (φ := .f32) (ψ := .bf16) _ bitsLt_bf16_f32 _).trans (congrFun (shapeCast_self v23 _) _)
  · -- the virtual-node row times the bottom half
    refine (matmul_vn_apply _ _ b k).trans (Finset.sum_congr rfl fun k' _ => congrArg₂ (· * ·) rfl ?_)
    exact (truncf_apply (φ := .f32) (ψ := .bf16) _ bitsLt_bf16_f32 _).trans (congrFun (shapeCast_self v26 _) _)

/-! ## The input windows' blocks as parts of their arrays -/

/-- The partial-sums window moves one slab per grid point. -/
theorem idx_slab : ∀ t : Fin cfg1.N,
    win1_0.index t (0 : Fin 3) = t.val ∧ win1_0.index t (1 : Fin 3) = 0 ∧ win1_0.index t (2 : Fin 3) = 0 :=
  (by decide +kernel : ∀ t : Fin grid1.N, _)

/-- The other input windows sit at block index zero at the last point. -/
theorem idx_rest_last :
    win1_1.index tLast1 (0 : Fin 2) = 0 ∧ win1_1.index tLast1 (1 : Fin 2) = 0
    ∧ win1_2.index tLast1 (0 : Fin 2) = 0 ∧ win1_2.index tLast1 (1 : Fin 2) = 0
    ∧ win1_3.index tLast1 (0 : Fin 2) = 0 ∧ win1_3.index tLast1 (1 : Fin 2) = 0
    ∧ win1_4.index tLast1 (0 : Fin 2) = 0 ∧ win1_4.index tLast1 (1 : Fin 2) = 0
    ∧ win1_5.index tLast1 (0 : Fin 1) = 0
    ∧ win1_6.index tLast1 (0 : Fin 2) = 0 ∧ win1_6.index tLast1 (1 : Fin 2) = 0
    ∧ win1_7.index tLast1 (0 : Fin 1) = 0 := by
  decide +kernel

/-- The output window sits at block index zero at the last point. -/
theorem idx_out_last : win1_8.index tLast1 (0 : Fin 2) = 0 ∧ win1_8.index tLast1 (1 : Fin 2) = 0 := by
  decide +kernel

/-- Entry (b, k) of slab t of a [50, 64, 256] array; zero past the last slab. -/
def slabAt (P : S50x64x256.Idx → EReal) (b : Fin 64) (k : Fin 256) (t : ℕ) : EReal :=
  if h : t < 50 then P (ix3 (⟨t, h⟩ : Fin 50) b k) else 0

/-- The partial-sums window's block at point t, read at (0, b, k), is entry (b, k) of slab t. -/
theorem iblk_0_apply (c : Dev nD) (t : Fin cfg1.N) (b : Fin 64) (k : Fin 256) :
    (iblk1 (F := Ideal) V c 0 t : Vec Ideal S1x64x256 .f32) (ix3 (0 : Fin 1) b k) = slabAt (V c main_v6_1) b k t.val := by
  obtain ⟨e0, e1, e2⟩ := idx_slab t
  have ht : t.val < 50 := Nat.lt_of_lt_of_eq t.isLt N_1
  unfold slabAt
  rw [dif_pos ht]
  show V c main_v6_1 (((cfg1.win 0).blk t).view.emb (ix3 (0 : Fin 1) b k)) = V c main_v6_1 (ix3 (⟨t.val, ht⟩ : Fin 50) b k)
  refine congrArg (V c main_v6_1) (funext fun a => Fin.ext ?_)
  match a with
  | ⟨0, _⟩ => show win1_0.index t (0 : Fin 3) * 1 + 1 * 0 = t.val; omega
  | ⟨1, _⟩ => show win1_0.index t (1 : Fin 3) * 64 + 1 * b.val = b.val; omega
  | ⟨2, _⟩ => show win1_0.index t (2 : Fin 3) * 256 + 1 * k.val = k.val; omega

/-- Window 1's block at the last point is its whole array. -/
theorem iblk_1_last (c : Dev nD) : (iblk1 (F := Ideal) V c 1 tLast1 : Vec Ideal S64x1 .f32) = (V c main_v10 : S64x1.Idx → EReal) := by
  obtain ⟨e1_0, e1_1, e2_0, e2_1, e3_0, e3_1, e4_0, e4_1, e5_0, e6_0, e6_1, e7_0⟩ := idx_rest_last
  funext y
  show V c main_v10 (((cfg1.win 1).blk tLast1).view.emb y) = V c main_v10 y
  refine congrArg (V c main_v10) (funext fun a => Fin.ext ?_)
  match a with
  | ⟨0, _⟩ => show win1_1.index tLast1 (0 : Fin 2) * 64 + 1 * (y 0).val = (y 0).val; omega
  | ⟨1, _⟩ => show win1_1.index tLast1 (1 : Fin 2) * 1 + 1 * (y 1).val = (y 1).val; omega

/-- Window 2's block at the last point is its whole array. -/
theorem iblk_2_last (c : Dev nD) : (iblk1 (F := Ideal) V c 2 tLast1 : Vec Ideal S64x256 .f32) = (V c main_arg2 : S64x256.Idx → EReal) := by
  obtain ⟨e1_0, e1_1, e2_0, e2_1, e3_0, e3_1, e4_0, e4_1, e5_0, e6_0, e6_1, e7_0⟩ := idx_rest_last
  funext y
  show V c main_arg2 (((cfg1.win 2).blk tLast1).view.emb y) = V c main_arg2 y
  refine congrArg (V c main_arg2) (funext fun a => Fin.ext ?_)
  match a with
  | ⟨0, _⟩ => show win1_2.index tLast1 (0 : Fin 2) * 64 + 1 * (y 0).val = (y 0).val; omega
  | ⟨1, _⟩ => show win1_2.index tLast1 (1 : Fin 2) * 256 + 1 * (y 1).val = (y 1).val; omega

/-- Window 3's block at the last point is its whole array. -/
theorem iblk_3_last (c : Dev nD) : (iblk1 (F := Ideal) V c 3 tLast1 : Vec Ideal S256x256 .f32) = (V c main_v4 : S256x256.Idx → EReal) := by
  obtain ⟨e1_0, e1_1, e2_0, e2_1, e3_0, e3_1, e4_0, e4_1, e5_0, e6_0, e6_1, e7_0⟩ := idx_rest_last
  funext y
  show V c main_v4 (((cfg1.win 3).blk tLast1).view.emb y) = V c main_v4 y
  refine congrArg (V c main_v4) (funext fun a => Fin.ext ?_)
  match a with
  | ⟨0, _⟩ => show win1_3.index tLast1 (0 : Fin 2) * 256 + 1 * (y 0).val = (y 0).val; omega
  | ⟨1, _⟩ => show win1_3.index tLast1 (1 : Fin 2) * 256 + 1 * (y 1).val = (y 1).val; omega

/-- Window 4's block at the last point is its whole array. -/
theorem iblk_4_last (c : Dev nD) : (iblk1 (F := Ideal) V c 4 tLast1 : Vec Ideal S256x256 .f32) = (V c main_v5 : S256x256.Idx → EReal) := by
  obtain ⟨e1_0, e1_1, e2_0, e2_1, e3_0, e3_1, e4_0, e4_1, e5_0, e6_0, e6_1, e7_0⟩ := idx_rest_last
  funext y
  show V c main_v5 (((cfg1.win 4).blk tLast1).view.emb y) = V c main_v5 y
  refine congrArg (V c main_v5) (funext fun a => Fin.ext ?_)
  match a with
  | ⟨0, _⟩ => show win1_4.index tLast1 (0 : Fin 2) * 256 + 1 * (y 0).val = (y 0).val; omega
  | ⟨1, _⟩ => show win1_4.index tLast1 (1 : Fin 2) * 256 + 1 * (y 1).val = (y 1).val; omega

/-- Window 5's block at the last point is its whole array. -/
theorem iblk_5_last (c : Dev nD) : (iblk1 (F := Ideal) V c 5 tLast1 : Vec Ideal S256 .f32) = (V c main_arg8 : S256.Idx → EReal) := by
  obtain ⟨e1_0, e1_1, e2_0, e2_1, e3_0, e3_1, e4_0, e4_1, e5_0, e6_0, e6_1, e7_0⟩ := idx_rest_last
  funext y
  show V c main_arg8 (((cfg1.win 5).blk tLast1).view.emb y) = V c main_arg8 y
  refine congrArg (V c main_arg8) (funext fun a => Fin.ext ?_)
  match a with
  | ⟨0, _⟩ => show win1_5.index tLast1 (0 : Fin 1) * 256 + 1 * (y 0).val = (y 0).val; omega

/-- Window 6's block at the last point is its whole array. -/
theorem iblk_6_last (c : Dev nD) : (iblk1 (F := Ideal) V c 6 tLast1 : Vec Ideal S256x256 .f32) = (V c main_arg9 : S256x256.Idx → EReal) := by
  obtain ⟨e1_0, e1_1, e2_0, e2_1, e3_0, e3_1, e4_0, e4_1, e5_0, e6_0, e6_1, e7_0⟩ := idx_rest_last
  funext y
  show V c main_arg9 (((cfg1.win 6).blk tLast1).view.emb y) = V c main_arg9 y
  refine congrArg (V c main_arg9) (funext fun a => Fin.ext ?_)
  match a with
  | ⟨0, _⟩ => show win1_6.index tLast1 (0 : Fin 2) * 256 + 1 * (y 0).val = (y 0).val; omega
  | ⟨1, _⟩ => show win1_6.index tLast1 (1 : Fin 2) * 256 + 1 * (y 1).val = (y 1).val; omega

/-- Window 7's block at the last point is its whole array. -/
theorem iblk_7_last (c : Dev nD) : (iblk1 (F := Ideal) V c 7 tLast1 : Vec Ideal S256 .f32) = (V c main_arg10 : S256.Idx → EReal) := by
  obtain ⟨e1_0, e1_1, e2_0, e2_1, e3_0, e3_1, e4_0, e4_1, e5_0, e6_0, e6_1, e7_0⟩ := idx_rest_last
  funext y
  show V c main_arg10 (((cfg1.win 7).blk tLast1).view.emb y) = V c main_arg10 y
  refine congrArg (V c main_arg10) (funext fun a => Fin.ext ?_)
  match a with
  | ⟨0, _⟩ => show win1_7.index tLast1 (0 : Fin 1) * 256 + 1 * (y 0).val = (y 0).val; omega

/-! ## The running sum -/

/-- The first point's starting value is zero everywhere. -/
theorem pay1_apply (i : S64x256.Idx) : k1_pay1 (F := Ideal) i = 0 := by
  unfold k1_pay1
  exact (congrFun (shapeCast_self _ _) i).trans Ideal.ofBits_zero_f32

/-- A point adds its slab, entry by entry, onto what it finds. -/
theorem pay2_apply (v3 : Vec Ideal S64x256 .f32) (v4 : Vec Ideal S1x64x256 .f32) (b : Fin 64) (k : Fin 256) :
    k1_pay2 v3 v4 (ix2 b k) = v3 (ix2 b k) + v4 (ix3 (0 : Fin 1) b k) := by
  unfold k1_pay2
  refine (congrFun (shapeCast_self _ _) _).trans ((addf_apply _ _ _).trans (congrArg (v3 (ix2 b k) + ·) ?_))
  exact shapeCast_1ab_ab_apply v4 _ b k

/-- After point n the running sum holds, entry by entry, the sum of slabs 0 … n. -/
theorem acc1_apply (c : Dev nD) (b : Fin 64) (k : Fin 256) : ∀ (n : ℕ) (hn : n < cfg1.N),
    acc1 (F := Ideal) V c n hn (ix2 b k) = ∑ t ∈ Finset.range (n + 1), slabAt (V c main_v6_1) b k t
  | 0, hn => by
    rw [acc1_zero]
    refine (pay2_apply _ _ b k).trans ?_
    refine (congrArg₂ (· + ·) (pay1_apply _) (iblk_0_apply V c _ b k)).trans ?_
    rw [zero_add, Finset.sum_range_one]
  | n + 1, hn => by
    rw [acc1_succ]
    refine (pay2_apply _ _ b k).trans ?_
    refine (congrArg₂ (· + ·) (acc1_apply c b k n (Nat.lt_of_succ_lt hn)) (iblk_0_apply V c _ b k)).trans ?_
    exact (Finset.sum_range_succ _ (n + 1)).symm

/-- After the last point it holds the sum of all fifty slabs. -/
theorem acc1_last (c : Dev nD) (b : Fin 64) (k : Fin 256) :
    acc1 (F := Ideal) V c 49 (by decide) (ix2 b k) = ∑ t : Fin 50, Cert.Spec.cur3 (α := EReal) (V c main_v6_1) t b k := by
  refine (acc1_apply V c b k 49 (by decide)).trans ?_
  show ∑ t ∈ Finset.range 50, slabAt (V c main_v6_1) b k t = _
  rw [Finset.sum_range]
  refine Finset.sum_congr rfl fun t _ => ?_
  unfold slabAt
  rw [dif_pos t.isLt]
  rfl

/-! ## What the last point stores, and the array after the region -/

/-- Entry (b, j) of what the last point stores is the specification's. -/
theorem out1_8_apply (c : Dev nD) (b : Fin 64) (j : Fin 256) :
    out1_8 (F := Ideal) V c (ix2 b j) = Cert.Spec.VNk (V c main_v6_1) (V c main_v10) (V c main_arg2) (V c main_v4) (V c main_v5) (V c main_arg8) (V c main_arg9) (V c main_arg10) (ix2 b j) := by
  unfold out1_8
  rw [iblk_1_last V c, iblk_2_last V c, iblk_3_last V c, iblk_4_last V c, iblk_5_last V c, iblk_6_last V c, iblk_7_last V c]
  refine (pay_v _ _ _ _ _ _ _ _ b j).trans ?_
  unfold Cert.Spec.VNk
  rw [Cert.Spec.arr2_ix2]
  refine congrArg (fun a => Cert.Spec.mlp a _ _ _ _ _ _ j) (funext fun k => ?_)
  exact congrArg (fun s => Cert.Spec.pooled s _) (acc1_last V c b k)

theorem out1_8_eq (c : Dev nD) :
    (out1_8 (F := Ideal) V c : S64x256.Idx → EReal) = Cert.Spec.VNk (V c main_v6_1) (V c main_v10) (V c main_arg2) (V c main_v4) (V c main_v5) (V c main_arg8) (V c main_arg9) (V c main_arg10) := funext fun i => by
  obtain ⟨b, j, rfl⟩ : ∃ (b : Fin 64) (j : Fin 256), i = ix2 b j := ⟨i 0, i 1, eq_ix2 i⟩
  exact out1_8_apply V c b j

end VN

open VN

/-- After region 1 the virtual-node array (output window 8) holds `Spec.VNk` of the region's entry arrays. -/
theorem final_v (c : Dev nD) :
    (dat1 (F := Ideal) V c).arrAt 8 cfg1.N
      = Cert.Spec.VNk (V c main_v6_1) (V c main_v10) (V c main_arg2) (V c main_v4) (V c main_v5) (V c main_arg8) (V c main_arg9) (V c main_arg10) := by
  obtain ⟨e0, e1⟩ := idx_out_last
  refine (dat1 (F := Ideal) V c).arrAt_eq_of_cover 8 _ (fun t hf => ?_) (fun i => ⟨tLast1, (flush1_8 tLast1).mpr rfl, ?_⟩)
  · have h1 : t.val = 49 := by
      have := (flush1_8 t).mp hf
      have := Nat.lt_of_lt_of_eq t.isLt N_1
      omega
    obtain rfl : t = tLast1 := Fin.ext h1
    show (cfg1.win 8).cut (grid1.coords tLast1) ((dat1 (F := Ideal) V c).after 8 tLast1) = _
    rw [after1_8, out1_8_eq]
    funext y
    show Cert.Spec.VNk (V c main_v6_1) (V c main_v10) (V c main_arg2) (V c main_v4) (V c main_v5) (V c main_arg8) (V c main_arg9) (V c main_arg10) ((cfg1.win 8).xinj (grid1.coords tLast1) y) = Cert.Spec.VNk (V c main_v6_1) (V c main_v10) (V c main_arg2) (V c main_v4) (V c main_v5) (V c main_arg8) (V c main_arg9) (V c main_arg10) (((cfg1.win 8).blk tLast1).view.emb y)
    refine congrArg (Cert.Spec.VNk (V c main_v6_1) (V c main_v10) (V c main_arg2) (V c main_v4) (V c main_v5) (V c main_arg8) (V c main_arg9) (V c main_arg10)) (funext fun a => Fin.ext ?_)
    match a with
    | ⟨0, _⟩ => show (y 0).val = win1_8.index tLast1 (0 : Fin 2) * 64 + 1 * (y 0).val; omega
    | ⟨1, _⟩ => show (y 1).val = win1_8.index tLast1 (1 : Fin 2) * 256 + 1 * (y 1).val; omega
  · show i ∈ ((View.whole main_v11).slice (win1_8.rect tLast1)).set
    rw [View.set_slice_whole, Rect.mem_set_unit]
    intro a
    have h0 : (i 0 : Nat) < 64 := (i 0).isLt
    have h1 : (i 1 : Nat) < 256 := (i 1).isLt
    match a with
    | ⟨0, _⟩ => show win1_8.index tLast1 (0 : Fin 2) * 64 ≤ (i 0 : Nat) ∧ (i 0 : Nat) < win1_8.index tLast1 (0 : Fin 2) * 64 + 64; omega
    | ⟨1, _⟩ => show win1_8.index tLast1 (1 : Fin 2) * 256 ≤ (i 1 : Nat) ∧ (i 1 : Nat) < win1_8.index tLast1 (1 : Fin 2) * 256 + 256; omega

end Cert.KernelIdeal.Val

end
-- ==== Proof.Spec2.lean ====
/-
  The same mathematics in the reference's shape — the virtual node's row taken at the node's graph, the first layer's
  weights as one 512 × 256 matrix whose top and bottom halves multiply the two concatenated rows, the segment sums as
  sums over the nodes of a graph — and the two identities that join the kernel's shape to it: the one-hot product is the
  row of the graph when the segment word is the graph's number, and the tile-by-tile one-hot sums are the segment sums.
-/
import proofs.«425103_j12841952215344_2_alg».proof.Proof.Spec

noncomputable section

namespace Cert.Spec

open Idealize.ShloMosaic Idealize.ShloMosaic.ValueIdx

/-- Row k of the top half of a 512-row matrix. -/
def top (k : Fin 256) : Fin 512 := ⟨k.val, by have := k.isLt; omega⟩
/-- Row k of the bottom half. -/
def bot (k : Fin 256) : Fin 512 := ⟨256 + k.val, by have := k.isLt; omega⟩

/-- The node update's result array in the reference's shape. -/
def Href (X : (⟨2, ![200000, 256]⟩ : Shape).Idx → EReal) (seg : Fin 200000 → Fin 64)
    (VX : (⟨2, ![64, 256]⟩ : Shape).Idx → EReal) (W1 : (⟨2, ![512, 256]⟩ : Shape).Idx → EReal)
    (B1 : (⟨1, ![256]⟩ : Shape).Idx → EReal) (W2 : (⟨2, ![256, 256]⟩ : Shape).Idx → EReal)
    (B2 : (⟨1, ![256]⟩ : Shape).Idx → EReal) : (⟨2, ![200000, 256]⟩ : Shape).Idx → EReal :=
  arr2 fun i j => hrow (cur2 X i) (cur2 VX (seg i)) (fun k j => cur2 W1 (top k) j) (fun k j => cur2 W1 (bot k) j) (cur1 B1)
    (cur2 W2) (cur1 B2) j

/-- The virtual-node update's result array in the reference's shape: from the updated rows `H`, the graph of each node,
    the counts column `C`, the virtual-node rows and the second MLP's weights. -/
def VNref (H : (⟨2, ![200000, 256]⟩ : Shape).Idx → EReal) (seg : Fin 200000 → Fin 64)
    (C : (⟨2, ![64, 1]⟩ : Shape).Idx → EReal) (VX : (⟨2, ![64, 256]⟩ : Shape).Idx → EReal)
    (W1 : (⟨2, ![512, 256]⟩ : Shape).Idx → EReal) (B1 : (⟨1, ![256]⟩ : Shape).Idx → EReal)
    (W2 : (⟨2, ![256, 256]⟩ : Shape).Idx → EReal) (B2 : (⟨1, ![256]⟩ : Shape).Idx → EReal) :
    (⟨2, ![64, 256]⟩ : Shape).Idx → EReal :=
  arr2 fun b j => mlp (fun k => pooled (∑ i ∈ Finset.univ.filter (fun i => seg i = b), cur2 H i k) (cur2 C b 0)) (cur2 VX b)
    (fun k j => cur2 W1 (top k) j) (fun k j => cur2 W1 (bot k) j) (cur1 B1) (cur2 W2) (cur1 B2) j

end Cert.Spec

end
-- ==== Proof.KI.ValHost.lean ====
/-
  What the host operations of @main write, read at an index, at the extended reals: the clipped segment column (the
  segment ids themselves when every id is in range), the top and bottom halves of the two first-layer weight matrices,
  the arguments the regions stage untouched, and the counts' scatter as a term of the launch contents.
-/
import proofs.«425103_j12841952215344_2_alg».proof.Proof.KI.Fold
import proofs.«425103_j12841952215344_2_alg».proof.Proof.Spec2
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The launch contents of an argument, as an array. -/
abbrev arg (c : Dev nD) (r : Ref sig .tc) : Buf (Elt Ideal) ((c.tc : Thread nD τ).loc r) := m ((c.tc : Thread nD τ).loc r)

/-! ## A buffer no stretch writes -/

/-- A buffer none of the first three host stretches writes enters region 0 as launched. -/
private theorem W3_launch (c : Dev nD) (r : Ref sig .tc) (h0 : r ∉ hostOps0_W) (h1 : r ∉ hostOps0_1_W) (h2 : r ∉ hostOps0_2_W) :
    W3 (F := Ideal) m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

/-- A buffer no host stretch writes and region 0 does not change enters region 1 as launched. -/
private theorem W5_launch (c : Dev nD) (r : Ref sig .tc) (h0 : r ∉ hostOps0_W) (h1 : r ∉ hostOps0_1_W) (h2 : r ∉ hostOps0_2_W)
    (h4 : r ∉ hostOps1_W)
    (k0 : (∃ w, Pipeline.arrRef spec0 w = r ∧ (cfg0.win w).isOut = false) ∨ ∀ w, Pipeline.arrRef spec0 w ≠ r) :
    W5 (F := Ideal) m c (Proc.devRef .tc r) = m ((c : Thread nD τ).loc r) :=
  (StableHlo.after_of_writes_sub hostOps1 _ hostOps1_writes h4).trans <|
    (W4_keep m c r k0).trans (W3_launch m c r h0 h1 h2)

/-- A buffer the counts' stretch does not write and that is no array of region 0 enters region 1 as it entered region 0. -/
private theorem W5_of_W3 (c : Dev nD) (r : Ref sig .tc) (h4 : r ∉ hostOps1_W) (k0 : ∀ w, Pipeline.arrRef spec0 w ≠ r) :
    W5 (F := Ideal) m c (Proc.devRef .tc r) = W3 (F := Ideal) m c (Proc.devRef .tc r) :=
  (StableHlo.after_of_writes_sub hostOps1 _ hostOps1_writes h4).trans (W4_of_ne m c r k0)

/-! ## The clip of the segment ids -/

/-- The clip of a word to [0, 63] (the maximum with 0, then the minimum with 63, both signed) is the word when it is
    already there. -/
private theorem clip_eval (w : BitVec 32) (h0 : 0 ≤ w.toInt) (h1 : w.toInt < 64) :
    IntOp.minsi 63#32 (IntOp.maxsi 0#32 w) = w := by
  have z0 : (0#32 : BitVec 32).toInt = 0 := by decide
  have z63 : (63#32 : BitVec 32).toInt = 63 := by decide
  have hmax : IntOp.maxsi 0#32 w = w := by
    unfold IntOp.maxsi
    rw [if_neg]
    simp only [BitVec.slt, decide_eq_true_eq, z0]
    omega
  rw [hmax]
  unfold IntOp.minsi
  rw [if_neg]
  simp only [BitVec.slt, decide_eq_true_eq, z63]
  omega

/-- The clipped ids, as the host's operations give them from the launched ids. -/
private theorem W2_main_v0 (c : Dev nD) :
    (W2 (F := Ideal) m c (Proc.devRef .tc main_v0) : S200000.Idx → BitVec 32)
      = minsi (broadcastInDim S200000 ![] bcast_S_S200000 (constantI S_ 32 63#32))
          (maxsi (broadcastInDim S200000 ![] bcast_S_S200000 (constantI S_ 32 0#32)) (arg m c main_arg1)) := by
  show StableHlo.after hostOps0_1 (W1 m c) (Proc.devRef .tc main_v0) = _
  after_results
  rfl

/-- The clip at an index. -/
private theorem clip_apply (X : S200000.Idx → BitVec 32) (i : Fin 200000) :
    minsi (broadcastInDim S200000 ![] bcast_S_S200000 (constantI S_ 32 63#32))
        (maxsi (broadcastInDim S200000 ![] bcast_S_S200000 (constantI S_ 32 0#32)) X) (ix1 i)
      = IntOp.minsi 63#32 (IntOp.maxsi 0#32 (X (ix1 i))) := rfl

/-- When every id is in range the clipped ids are the ids. -/
private theorem clip_ids (c : Dev nD) (hr : ∀ i : Fin 200000, 0 ≤ (arg m c main_arg1 (ix1 i)).toInt ∧ (arg m c main_arg1 (ix1 i)).toInt < 64) :
    (W2 (F := Ideal) m c (Proc.devRef .tc main_v0) : S200000.Idx → BitVec 32) = arg m c main_arg1 := by
  rw [W2_main_v0]
  funext j
  obtain ⟨i, rfl⟩ : ∃ i : Fin 200000, j = ix1 i := ⟨j 0, eq_ix1 j⟩
  exact (clip_apply (arg m c main_arg1) i).trans (clip_eval _ (hr i).1 (hr i).2)

/-- A vector cast to a column reads, at (i, u), the vector at i. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The halves of the first-layer weights -/

/-- The top 256 rows of a 512-row matrix, read at (k, j). -/
private theorem slice_top_apply (X : S512x256.Idx → EReal) (k j : Fin 256) :
    extractStridedSlice S256x256 ![0, 0] X slices_S512x256_S256x256_0_0 (ix2 k j) = X (ix2 (Cert.Spec.top k) j) :=
  extractStridedSlice_apply _ X slices_S512x256_S256x256_0_0 (ix2 k j) (ix2 (Cert.Spec.top k) j) fun a => by
    match a with
    | ⟨0, _⟩ => show k.val = 0 + k.val; omega
    | ⟨1, _⟩ => show j.val = 0 + j.val; omega

/-- The bottom 256 rows, read at (k, j). -/
private theorem slice_bot_apply (X : S512x256.Idx → EReal) (k j : Fin 256) :
    extractStridedSlice S256x256 ![256, 0] X slices_S512x256_S256x256_256_0 (ix2 k j) = X (ix2 (Cert.Spec.bot k) j) :=
  extractStridedSlice_apply _ X slices_S512x256_S256x256_256_0 (ix2 k j) (ix2 (Cert.Spec.bot k) j) fun a => by
    match a with
    | ⟨0, _⟩ => show 256 + k.val = 256 + k.val; rfl
    | ⟨1, _⟩ => show j.val = 0 + j.val; omega

private theorem W3_main_v2 (c : Dev nD) : (W3 (F := Ideal) m c (Proc.devRef .tc main_v2) : S256x256.Idx → EReal)
    = extractStridedSlice S256x256 ![0, 0] (arg m c main_arg3 : S512x256.Idx → EReal) slices_S512x256_S256x256_0_0 := by
  show StableHlo.after hostOps0_2 (W2 m c) (Proc.devRef .tc main_v2) = _
  after_results
private theorem W3_main_v3 (c : Dev nD) : (W3 (F := Ideal) m c (Proc.devRef .tc main_v3) : S256x256.Idx → EReal)
    = extractStridedSlice S256x256 ![256, 0] (arg m c main_arg3 : S512x256.Idx → EReal) slices_S512x256_S256x256_256_0 := by
  show StableHlo.after hostOps0_2 (W2 m c) (Proc.devRef .tc main_v3) = _
  after_results
private theorem W3_main_v4 (c : Dev nD) : (W3 (F := Ideal) m c (Proc.devRef .tc main_v4) : S256x256.Idx → EReal)
    = extractStridedSlice S256x256 ![0, 0] (arg m c main_arg7 : S512x256.Idx → EReal) slices_S512x256_S256x256_0_0 := by
  show StableHlo.after hostOps0_2 (W2 m c) (Proc.devRef .tc main_v4) = _
  after_results
private theorem W3_main_v5 (c : Dev nD) : (W3 (F := Ideal) m c (Proc.devRef .tc main_v5) : S256x256.Idx → EReal)
    = extractStridedSlice S256x256 ![256, 0] (arg m c main_arg7 : S512x256.Idx → EReal) slices_S512x256_S256x256_256_0 := by
  show StableHlo.after hostOps0_2 (W2 m c) (Proc.devRef .tc main_v5) = _
  after_results

/-! ## Region 0's entry arrays -/

theorem V3_main_arg0 (c : Dev nD) : Hand.V3 (F := Ideal) m c main_arg0 = arg m c main_arg0 :=
  W3_launch m c main_arg0 (by decide) (by decide) (by decide)
theorem V3_main_arg2 (c : Dev nD) : Hand.V3 (F := Ideal) m c main_arg2 = arg m c main_arg2 :=
  W3_launch m c main_arg2 (by decide) (by decide) (by decide)
theorem V3_main_arg4 (c : Dev nD) : Hand.V3 (F := Ideal) m c main_arg4 = arg m c main_arg4 :=
  W3_launch m c main_arg4 (by decide) (by decide) (by decide)
theorem V3_main_arg5 (c : Dev nD) : Hand.V3 (F := Ideal) m c main_arg5 = arg m c main_arg5 :=
  W3_launch m c main_arg5 (by decide) (by decide) (by decide)
theorem V3_main_arg6 (c : Dev nD) : Hand.V3 (F := Ideal) m c main_arg6 = arg m c main_arg6 :=
  W3_launch m c main_arg6 (by decide) (by decide) (by decide)

/-- The segment column region 0 stages: the clipped ids, which are the ids themselves when every id is in range. -/
theorem V3_main_v1 (c : Dev nD) (hr : ∀ i : Fin 200000, 0 ≤ (arg m c main_arg1 (ix1 i)).toInt ∧ (arg m c main_arg1 (ix1 i)).toInt < 64) (i : Fin 200000) :
    Hand.V3 (F := Ideal) m c main_v1 (ix2 i 0) = arg m c main_arg1 (ix1 i) := by
  have e : (Hand.V3 (F := Ideal) m c main_v1 : S200000x1.Idx → BitVec 32)
      = shapeCast S200000x1 (minsi (broadcastInDim S200000 ![] bcast_S_S200000 (constantI S_ 32 63#32))
          (maxsi (broadcastInDim S200000 ![] bcast_S_S200000 (constantI S_ 32 0#32)) (arg m c main_arg1))) shapeCasts_S200000_S200000x1 := by
    show StableHlo.after hostOps0_2 (W2 m c) (Proc.devRef .tc main_v1) = _
    after_results
    rfl
  exact (congrFun e (ix2 i 0)).trans <| (shapeCast_a_a1_apply _ shapeCasts_S200000_S200000x1 i 0).trans <|
    (clip_apply (arg m c main_arg1) i).trans (clip_eval _ (hr i).1 (hr i).2)

/-- The first layer's weights, top half and bottom half. -/
theorem V3_main_v2 (c : Dev nD) (k j : Fin 256) :
    Hand.V3 (F := Ideal) m c main_v2 (ix2 k j) = arg m c main_arg3 (ix2 (Cert.Spec.top k) j) :=
  (congrFun (W3_main_v2 m c) (ix2 k j)).trans (slice_top_apply _ k j)
theorem V3_main_v3 (c : Dev nD) (k j : Fin 256) :
    Hand.V3 (F := Ideal) m c main_v3 (ix2 k j) = arg m c main_arg3 (ix2 (Cert.Spec.bot k) j) :=
  (congrFun (W3_main_v3 m c) (ix2 k j)).trans (slice_bot_apply _ k j)

/-! ## Region 1's entry arrays -/

theorem V5_main_arg2 (c : Dev nD) : Hand.V5 (F := Ideal) m c main_arg2 = arg m c main_arg2 :=
  W5_launch m c main_arg2 (by decide) (by decide) (by decide) (by decide) (.inl ⟨2, rfl, rfl⟩)
theorem V5_main_arg8 (c : Dev nD) : Hand.V5 (F := Ideal) m c main_arg8 = arg m c main_arg8 :=
  W5_launch m c main_arg8 (by decide) (by decide) (by decide) (by decide) (.inr (by decide))
theorem V5_main_arg9 (c : Dev nD) : Hand.V5 (F := Ideal) m c main_arg9 = arg m c main_arg9 :=
  W5_launch m c main_arg9 (by decide) (by decide) (by decide) (by decide) (.inr (by decide))
theorem V5_main_arg10 (c : Dev nD) : Hand.V5 (F := Ideal) m c main_arg10 = arg m c main_arg10 :=
  W5_launch m c main_arg10 (by decide) (by decide) (by decide) (by decide) (.inr (by decide))
theorem V5_main_v4 (c : Dev nD) (k j : Fin 256) :
    Hand.V5 (F := Ideal) m c main_v4 (ix2 k j) = arg m c main_arg7 (ix2 (Cert.Spec.top k) j) :=
  (congrFun ((W5_of_W3 m c main_v4 (by decide) (by decide)).trans (W3_main_v4 m c)) (ix2 k j)).trans (slice_top_apply _ k j)
theorem V5_main_v5 (c : Dev nD) (k j : Fin 256) :
    Hand.V5 (F := Ideal) m c main_v5 (ix2 k j) = arg m c main_arg7 (ix2 (Cert.Spec.bot k) j) :=
  (congrFun ((W5_of_W3 m c main_v5 (by decide) (by decide)).trans (W3_main_v5 m c)) (ix2 k j)).trans (slice_bot_apply _ k j)

/-- The clipped ids enter the counts' stretch as the clip wrote them. -/
private theorem W4_main_v0 (c : Dev nD) :
    (W4 (F := Ideal) m c (Proc.devRef .tc main_v0) : S200000.Idx → BitVec 32) = W2 (F := Ideal) m c (Proc.devRef .tc main_v0) :=
  (W4_of_ne m c main_v0 (by decide)).trans (StableHlo.after_of_writes_sub hostOps0_2 _ hostOps0_2_writes (by decide))

/-- The counts column region 1 stages: the host's scatter-add of ones at the (clipped) segment ids into zeros — at the
    ids themselves when every id is in range. -/
theorem V5_main_v10 (c : Dev nD) (hr : ∀ i : Fin 200000, 0 ≤ (arg m c main_arg1 (ix1 i)).toInt ∧ (arg m c main_arg1 (ix1 i)).toInt < 64) :
    Hand.V5 (F := Ideal) m c main_v10
      = Host.scatterAdd (F := Ideal) scatter_S64x1_S200000x1_S200000x1_1_0_0_1
          (broadcastInDim S64x1 ![] bcast_S_S64x1 (constant (F := Ideal) S_ .f32 0x00000000#32))
          (broadcastInDim S200000x1 ![0] bcast_S200000_S200000x1_0 (arg m c main_arg1))
          (broadcastInDim S200000x1 ![] bcast_S_S200000x1 (constant (F := Ideal) S_ .f32 0x3F800000#32)) := by
  have e : (Hand.V5 (F := Ideal) m c main_v10 : S64x1.Idx → EReal)
      = Host.scatterAdd (F := Ideal) scatter_S64x1_S200000x1_S200000x1_1_0_0_1
          (broadcastInDim S64x1 ![] bcast_S_S64x1 (constant (F := Ideal) S_ .f32 0x00000000#32))
          (broadcastInDim S200000x1 ![0] bcast_S200000_S200000x1_0 (W4 (F := Ideal) m c (Proc.devRef .tc main_v0) : S200000.Idx → BitVec 32))
          (broadcastInDim S200000x1 ![] bcast_S_S200000x1 (constant (F := Ideal) S_ .f32 0x3F800000#32)) := by
    show StableHlo.after hostOps1 (W4 m c) (Proc.devRef .tc main_v10) = _
    after_results
  rw [e, W4_main_v0, clip_ids m c hr]

end Cert.KernelIdeal.Val

end
-- ==== Proof.Bridge.lean ====
/-
  The two identities between the kernel's shape of the computation and the reference's, over the extended reals, when
  every segment word is the number of its node's graph: the one-hot gather of a virtual-node row is that graph's row
  (every other graph's term is a product with zero), and the sum over the fifty tiles of the tiles' one-hot weighted
  sums is the sum over the nodes of the graph (each node lies in exactly one tile, and its weight is one at its own
  graph and zero elsewhere).
-/
import proofs.«425103_j12841952215344_2_alg».proof.Proof.Spec2

noncomputable section

namespace Cert.Spec

open Idealize.ShloMosaic Idealize.ShloMosaic.ValueIdx

namespace Bridge

/-! ## The one-hot weight at a graph's own word -/

/-- Two graph numbers give the same 32-bit word only when they are the same graph: both are below 64 < 2^32, so
    neither is changed by the reduction modulo 2^32. -/
theorem ofNat32_inj (a b : Fin 64) (h : BitVec.ofNat 32 a.val = BitVec.ofNat 32 b.val) : a = b := by
  have h' : (BitVec.ofNat 32 a.val).toNat = (BitVec.ofNat 32 b.val).toNat := congrArg BitVec.toNat h
  rw [BitVec.toNat_ofNat, BitVec.toNat_ofNat] at h'
  have ha : a.val < 2 ^ 32 := lt_of_lt_of_le a.isLt (by norm_num)
  have hb : b.val < 2 ^ 32 := lt_of_lt_of_le b.isLt (by norm_num)
  rw [Nat.mod_eq_of_lt ha, Nat.mod_eq_of_lt hb] at h'
  exact Fin.ext h'

/-- The weight of graph `s`'s word at graph `b` is one when `b` is `s` and zero otherwise. -/
theorem oh_ofNat (s b : Fin 64) : oh (BitVec.ofNat 32 s.val) b = if s = b then 1 else 0 := by
  unfold oh
  by_cases h : s = b
  · rw [if_pos h, if_pos (by rw [h])]
  · rw [if_neg h, if_neg (fun h' => h (ofNat32_inj s b h'))]

/-- The one-hot gather at graph `s`'s word is row `s`: every other term of the sum is a product with zero. -/
theorem gsum_ofNat (s : Fin 64) (vx : Fin 64 → Fin 256 → EReal) (k : Fin 256) :
    gsum (BitVec.ofNat 32 s.val) vx k = vx s k := by
  unfold gsum
  rw [Finset.sum_eq_single s]
  · rw [oh_ofNat, if_pos rfl, one_mul]
  · intro b _ hb
    rw [oh_ofNat, if_neg (Ne.symm hb), zero_mul]
  · intro h
    exact absurd (Finset.mem_univ s) h

/-! ## Tiles and rows -/

/-- A node is row `i % 4000` of tile `i / 4000`, and of no other: the pairs (tile, row in the tile) are the nodes. -/
def rowEquiv : Fin 50 × Fin 4000 ≃ Fin 200000 where
  toFun p := row p.1 p.2
  invFun i := (⟨i.val / 4000, by have := i.isLt; omega⟩, ⟨i.val % 4000, by omega⟩)
  left_inv p := by
    rcases p with ⟨t, r⟩
    have ht := t.isLt
    have hr := r.isLt
    apply Prod.ext
    · apply Fin.ext
      show (4000 * t.val + r.val) / 4000 = t.val
      omega
    · apply Fin.ext
      show (4000 * t.val + r.val) % 4000 = r.val
      omega
  right_inv i := by
    apply Fin.ext
    show 4000 * (i.val / 4000) + i.val % 4000 = i.val
    omega

/-- The sum over the tiles of the sums over a tile's rows, each row weighted by one at its own graph and zero
    elsewhere, is the sum over the nodes of the graph. -/
theorem seg_sum (f : Fin 200000 → EReal) (seg : Fin 200000 → Fin 64) (b : Fin 64) :
    (∑ t : Fin 50, ∑ r : Fin 4000, (if seg (row t r) = b then (1 : EReal) else 0) * f (row t r))
      = ∑ i ∈ Finset.univ.filter (fun i => seg i = b), f i := by
  rw [Finset.sum_filter]
  rw [← Fintype.sum_prod_type' (fun t r => (if seg (row t r) = b then (1 : EReal) else 0) * f (row t r))]
  refine Fintype.sum_equiv rowEquiv _ _ (fun p => ?_)
  show (if seg (row p.1 p.2) = b then (1 : EReal) else 0) * f (row p.1 p.2)
      = if seg (row p.1 p.2) = b then f (row p.1 p.2) else 0
  by_cases h : seg (row p.1 p.2) = b
  · rw [if_pos h, if_pos h, one_mul]
  · rw [if_neg h, if_neg h, zero_mul]

end Bridge

open Bridge

/-! ## The two identities -/

/-- The kernel's updated rows are the reference-shaped ones. -/
theorem Hk_eq_Href (X : (⟨2, ![200000, 256]⟩ : Shape).Idx → EReal) (BT : (⟨2, ![200000, 1]⟩ : Shape).Idx → BitVec 32)
    (seg : Fin 200000 → Fin 64) (hseg : ∀ i : Fin 200000, BT (ix2 i 0) = BitVec.ofNat 32 (seg i).val)
    (VX : (⟨2, ![64, 256]⟩ : Shape).Idx → EReal) (W1 : (⟨2, ![512, 256]⟩ : Shape).Idx → EReal)
    (W1T W1B : (⟨2, ![256, 256]⟩ : Shape).Idx → EReal)
    (hT : ∀ k j, W1T (ix2 k j) = W1 (ix2 (top k) j)) (hB : ∀ k j, W1B (ix2 k j) = W1 (ix2 (bot k) j))
    (B1 : (⟨1, ![256]⟩ : Shape).Idx → EReal) (W2 : (⟨2, ![256, 256]⟩ : Shape).Idx → EReal)
    (B2 : (⟨1, ![256]⟩ : Shape).Idx → EReal) :
    Hk X BT VX W1T W1B B1 W2 B2 = Href X seg VX W1 B1 W2 B2 := by
  have hT' : cur2 W1T = fun k j => cur2 W1 (top k) j := funext fun k => funext fun j => hT k j
  have hB' : cur2 W1B = fun k j => cur2 W1 (bot k) j := funext fun k => funext fun j => hB k j
  unfold Hk Href
  refine congrArg arr2 ?_
  funext i j
  have hw : cur2 BT i 0 = BitVec.ofNat 32 (seg i).val := hseg i
  have hg : gsum (BitVec.ofNat 32 (seg i).val) (cur2 VX) = cur2 VX (seg i) :=
    funext fun k => gsum_ofNat (seg i) (cur2 VX) k
  rw [hw, hg, hT', hB']

/-- The kernel's virtual-node update over its tile-wise partial sums is the reference-shaped one over the segment sums. -/
theorem VNk_eq_VNref (H : (⟨2, ![200000, 256]⟩ : Shape).Idx → EReal) (BT : (⟨2, ![200000, 1]⟩ : Shape).Idx → BitVec 32)
    (seg : Fin 200000 → Fin 64) (hseg : ∀ i : Fin 200000, BT (ix2 i 0) = BitVec.ofNat 32 (seg i).val)
    (C : (⟨2, ![64, 1]⟩ : Shape).Idx → EReal) (VX : (⟨2, ![64, 256]⟩ : Shape).Idx → EReal)
    (W1 : (⟨2, ![512, 256]⟩ : Shape).Idx → EReal) (W1T W1B : (⟨2, ![256, 256]⟩ : Shape).Idx → EReal)
    (hT : ∀ k j, W1T (ix2 k j) = W1 (ix2 (top k) j)) (hB : ∀ k j, W1B (ix2 k j) = W1 (ix2 (bot k) j))
    (B1 : (⟨1, ![256]⟩ : Shape).Idx → EReal) (W2 : (⟨2, ![256, 256]⟩ : Shape).Idx → EReal)
    (B2 : (⟨1, ![256]⟩ : Shape).Idx → EReal) :
    VNk (Pk H BT) C VX W1T W1B B1 W2 B2 = VNref H seg C VX W1 B1 W2 B2 := by
  have hT' : cur2 W1T = fun k j => cur2 W1 (top k) j := funext fun k => funext fun j => hT k j
  have hB' : cur2 W1B = fun k j => cur2 W1 (bot k) j := funext fun k => funext fun j => hB k j
  -- a tile's partial sum, with each row's weight read off its graph
  have htile : ∀ (t : Fin 50) (b : Fin 64) (k : Fin 256), cur3 (Pk H BT) t b k
      = ∑ r : Fin 4000, (if seg (row t r) = b then (1 : EReal) else 0) * cur2 H (row t r) k := by
    intro t b k
    show (∑ r : Fin 4000, oh (cur2 BT (row t r) 0) b * cur2 H (row t r) k) = _
    refine Finset.sum_congr rfl (fun r _ => ?_)
    have hw : cur2 BT (row t r) 0 = BitVec.ofNat 32 (seg (row t r)).val := hseg (row t r)
    rw [hw, oh_ofNat]
  -- the fifty tiles' partial sums add up to the segment sum
  have hsum : ∀ (b : Fin 64) (k : Fin 256), (∑ t : Fin 50, cur3 (Pk H BT) t b k)
      = ∑ i ∈ Finset.univ.filter (fun i => seg i = b), cur2 H i k := by
    intro b k
    rw [Finset.sum_congr rfl (fun t _ => htile t b k)]
    exact seg_sum (fun i => cur2 H i k) seg b
  unfold VNk VNref
  refine congrArg arr2 ?_
  funext b j
  have hp : (fun k => pooled (∑ t : Fin 50, cur3 (Pk H BT) t b k) (cur2 C b 0))
      = fun k => pooled (∑ i ∈ Finset.univ.filter (fun i => seg i = b), cur2 H i k) (cur2 C b 0) :=
    funext fun k => by rw [hsum b k]
  rw [hp, hT', hB']

end Cert.Spec

end
-- ==== Proof.Range.lean ====
/-
  A segment word in range: read as a signed 32-bit integer it lies in [0, 64). Such a word is the 32-bit numeral of the
  graph it names, and clipping it to [0, 63] changes nothing.
-/
import proofs.«425103_j12841952215344_2_alg».proof.Proof.Spec2

noncomputable section

namespace Cert.Spec

open Idealize.ShloMosaic

/-- The segment word names one of the 64 graphs. -/
def InRange (w : BitVec 32) : Prop := 0 ≤ w.toInt ∧ w.toInt < 64

/-- The graph a segment word names (total: reduced modulo 64; the word's own value when in range). -/
def segOf (w : BitVec 32) : Fin 64 := ⟨w.toNat % 64, Nat.mod_lt _ (by decide)⟩

theorem toNat_lt_of_inRange {w : BitVec 32} (h : InRange w) : w.toNat < 64 := by
  obtain ⟨h0, h1⟩ := h
  have hw := w.isLt
  rw [BitVec.toInt_eq_toNat_cond] at h0 h1
  split at h0 <;> omega

/-- An in-range segment word is the 32-bit numeral of its graph. -/
theorem eq_ofNat_segOf {w : BitVec 32} (h : InRange w) : w = BitVec.ofNat 32 (segOf w).val := by
  have hlt := toNat_lt_of_inRange h
  apply BitVec.eq_of_toNat_eq
  simp only [segOf, BitVec.toNat_ofNat]
  omega

end Cert.Spec

end
-- ==== Proof.KI.Final.lean ====
/-
  The idealized kernel's two results in the reference's shape, when every segment id is in range: the updated rows are
  the row formula at the node's own graph (the clip changes no id, so the one-hot gather picks that graph's row, and the
  two staged weight halves are the halves of the first layer), and the virtual-node rows are the two-layer shape over
  the segment means (the fifty tiles' one-hot sums add up to the segment sums; the counts are the host's scatter).
-/
import proofs.«425103_j12841952215344_2_alg».proof.Proof.KI.ValH
import proofs.«425103_j12841952215344_2_alg».proof.Proof.KI.ValP
import proofs.«425103_j12841952215344_2_alg».proof.Proof.KI.ValV
import proofs.«425103_j12841952215344_2_alg».proof.Proof.KI.ValHost
import proofs.«425103_j12841952215344_2_alg».proof.Proof.Bridge
import proofs.«425103_j12841952215344_2_alg».proof.Proof.Range

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The graph of each node, read off the launch contents of the segment ids. -/
def segF (c : Dev nD) : Fin 200000 → Fin 64 := fun i => Cert.Spec.segOf (arg m c main_arg1 (ix1 i))

/-- The counts column as the kernel's program computes it. -/
def countsK (c : Dev nD) : Buf (Elt Ideal) ((c.tc : Thread nD τ).loc main_v10) :=
  Host.scatterAdd (F := Ideal) scatter_S64x1_S200000x1_S200000x1_1_0_0_1
    (broadcastInDim S64x1 ![] bcast_S_S64x1 (constant (F := Ideal) S_ .f32 0x00000000#32))
    (broadcastInDim S200000x1 ![0] bcast_S200000_S200000x1_0 (arg m c main_arg1))
    (broadcastInDim S200000x1 ![] bcast_S_S200000x1 (constant (F := Ideal) S_ .f32 0x3F800000#32))

/-- The staged segment column names each node's graph. -/
theorem seg_col (c : Dev nD) (hr : ∀ i : Fin 200000, 0 ≤ (arg m c main_arg1 (ix1 i)).toInt ∧ (arg m c main_arg1 (ix1 i)).toInt < 64) (i : Fin 200000) :
    Hand.V3 (F := Ideal) m c main_v1 (ix2 i 0) = BitVec.ofNat 32 (segF m c i).val :=
  (V3_main_v1 m c hr i).trans (Cert.Spec.eq_ofNat_segOf (hr i))

/-- The first result: the updated rows in the reference's shape. -/
theorem kernel_h (c : Dev nD) (hr : ∀ i : Fin 200000, 0 ≤ (arg m c main_arg1 (ix1 i)).toInt ∧ (arg m c main_arg1 (ix1 i)).toInt < 64) :
    (dat0 (F := Ideal) (Hand.V3 m) c).arrAt 8 cfg0.N = Cert.Spec.Href (arg m c main_arg0) (segF m c) (arg m c main_arg2) (arg m c main_arg3) (arg m c main_arg4) (arg m c main_arg5) (arg m c main_arg6) := by
  rw [final_h (Hand.V3 m) c, V3_main_arg0, V3_main_arg2, V3_main_arg4, V3_main_arg5, V3_main_arg6]
  exact Cert.Spec.Hk_eq_Href _ (Hand.V3 (F := Ideal) m c main_v1) (segF m c) (seg_col m c hr) _ (arg m c main_arg3)
    (Hand.V3 (F := Ideal) m c main_v2) (Hand.V3 (F := Ideal) m c main_v3) (V3_main_v2 m c) (V3_main_v3 m c) _ _ _

/-- The second result: the virtual-node rows in the reference's shape. -/
theorem kernel_v (c : Dev nD) (hr : ∀ i : Fin 200000, 0 ≤ (arg m c main_arg1 (ix1 i)).toInt ∧ (arg m c main_arg1 (ix1 i)).toInt < 64) :
    (dat1 (F := Ideal) (Hand.V5 m) c).arrAt 8 cfg1.N
      = Cert.Spec.VNref (Cert.Spec.Href (arg m c main_arg0) (segF m c) (arg m c main_arg2) (arg m c main_arg3) (arg m c main_arg4) (arg m c main_arg5) (arg m c main_arg6)) (segF m c) (countsK m c) (arg m c main_arg2) (arg m c main_arg7)
          (arg m c main_arg8) (arg m c main_arg9) (arg m c main_arg10) := by
  rw [final_v (Hand.V5 m) c, Hand.V5_main_v6_1 m c, final_p (Hand.V3 m) c, ← final_h (Hand.V3 m) c, kernel_h m c hr,
    V5_main_arg2, V5_main_arg8, V5_main_arg9, V5_main_arg10, V5_main_v10 m c hr]
  exact Cert.Spec.VNk_eq_VNref _ (Hand.V3 (F := Ideal) m c main_v1) (segF m c) (seg_col m c hr) _ _ (arg m c main_arg7)
    (Hand.V5 (F := Ideal) m c main_v4) (Hand.V5 (F := Ideal) m c main_v5) (V5_main_v4 m c) (V5_main_v5 m c) _ _ _

end Cert.KernelIdeal.Val

end
-- ==== Proof.Pre.lean ====
/-
  What the precondition says of the segment ids: every id, read as a signed 32-bit integer, lies in [0, 64) — decoded from
  the printed predicate's last two conjuncts (all ids ≥ 0; all ids < 64).
-/
import proofs.«425103_j12841952215344_2_alg».proof.Defs
import proofs.«425103_j12841952215344_2_alg».proof.Proof.Gen.Pre_finite_inputs
import Idealize.ShloMosaic.Lib.ValueIdx
import Idealize.ShloMosaic.Lib.ReduceAll
import Idealize.ShloMosaic.Lib.StableHlo.Predicate

noncomputable section

namespace Cert.Proof.PreFacts

open Idealize.ShloMosaic Idealize.ShloMosaic.TcCoe Idealize.ShloMosaic.ValueIdx Idealize.SL.Sem

/-! ## Two signed comparisons of a 32-bit word, read as inequalities of integers -/

/-- "w ≥ 0, signed" holds exactly when the word's integer value is non-negative. -/
theorem sge_zero_iff (w : BitVec 32) : IntOp.cmpi .sge w 0#32 = 1#1 ↔ 0 ≤ w.toInt := by
  show BitVec.ofBool ((0#32 : BitVec 32).sle w) = 1#1 ↔ _
  rw [StableHlo.Predicate.ofBool_eq_one_iff]
  simp only [BitVec.sle, decide_eq_true_eq]
  rw [show (0#32 : BitVec 32).toInt = 0 from by decide]

/-- "w < 64, signed" holds exactly when the word's integer value is below 64. -/
theorem slt_64_iff (w : BitVec 32) : IntOp.cmpi .slt w 64#32 = 1#1 ↔ w.toInt < 64 := by
  show BitVec.ofBool (w.slt (64#32 : BitVec 32)) = 1#1 ↔ _
  rw [StableHlo.Predicate.ofBool_eq_one_iff]
  simp only [BitVec.slt, decide_eq_true_eq]
  rw [show (64#32 : BitVec 32).toInt = 64 from by decide]

/-! ## The predicate's last two conjuncts -/

/-- The scalar shape has exactly one index. -/
theorem scalar_idx_subsingleton : Subsingleton Cert.Pre_finite_inputs.S_.Idx := ⟨fun a b => funext fun d => d.elim0⟩

section
open Cert.Pre_finite_inputs Cert.Pre_finite_inputs.Facts
variable {F : FTy → Type} [FloatOps F] [Cert.Pre_finite_inputs.Facts]

/-- The predicate's last part is 1 only if the mask it is handed is all ones and every id is below 64. -/
theorem part3_decode (a1 : IVec S200000 32) (v48 : IVec S_ 1) (v50 : IVec S200000 1)
    (e : fn_part3 (F := F) a1 v48 v50 ix0 = 1#1) (i : S200000.Idx) :
    v50 i = 1#1 ∧ IntOp.cmpi .slt (a1 i) 64#32 = 1#1 := by
  haveI := scalar_idx_subsingleton
  unfold fn_part3 at e
  have e' : IntOp.andi (IntOp.andi (v48 ix0) (Host.reduce IntOp.andi v50 (constantI S_ 1 1#1) reducesTo_S200000_S_d0 h_S_ ix0))
      (Host.reduce IntOp.andi (cmpi .slt a1 (broadcastInDim S200000 ![] bcast_S_S200000 (constantI S_ 32 64#32)))
        (constantI S_ 1 1#1) reducesTo_S200000_S_d0 h_S_ ix0) = 1#1 := e
  obtain ⟨h12, h3⟩ := IntOp.andi_eq_one.1 e'
  obtain ⟨_, h2⟩ := IntOp.andi_eq_one.1 h12
  exact ⟨Host.reduce_andi_all _ _ _ _ ix0 h2 i, Host.reduce_andi_all _ _ _ _ ix0 h3 i⟩

/-- The whole predicate is 1 only if every id is at least 0 and below 64, as signed words. -/
theorem fn_decode (a0 : FVec F S200000x256 .f32) (a1 : IVec S200000 32) (a2 : FVec F S64x256 .f32) (a3 : FVec F S512x256 .f32)
    (a4 : FVec F S256 .f32) (a5 : FVec F S256x256 .f32) (a6 : FVec F S256 .f32) (a7 : FVec F S512x256 .f32) (a8 : FVec F S256 .f32)
    (a9 : FVec F S256x256 .f32) (a10 : FVec F S256 .f32)
    (e : fn (F := F) a0 a1 a2 a3 a4 a5 a6 a7 a8 a9 a10 ix0 = 1#1) (i : S200000.Idx) :
    IntOp.cmpi .sge (a1 i) 0#32 = 1#1 ∧ IntOp.cmpi .slt (a1 i) 64#32 = 1#1 := by
  have e3 : fn_part3 (F := F) a1 _ (cmpi .sge a1 (broadcastInDim S200000 ![] bcast_S_S200000 (constantI S_ 32 0#32))) ix0 = 1#1 := e
  exact part3_decode a1 _ _ e3 i

end

/-- Under the precondition every segment id of the idealized kernel's input is in range. -/
theorem batch_inRange [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Fin 200000) :
    0 ≤ (m ((c.tc : Thread Cert.KernelIdeal.nD Cert.KernelIdeal.τ).loc Cert.KernelIdeal.main_arg1) (ix1 i)).toInt
      ∧ (m ((c.tc : Thread Cert.KernelIdeal.nD Cert.KernelIdeal.τ).loc Cert.KernelIdeal.main_arg1) (ix1 i)).toInt < 64 := by
  have e := congrFun (h c) ix0
  obtain ⟨h0, h64⟩ := fn_decode _ _ _ _ _ _ _ _ _ _ _ e (ix1 i)
  exact ⟨(sge_zero_iff _).1 h0, (slt_64_iff _).1 h64⟩

end Cert.Proof.PreFacts

end
-- ==== Proof.RefH.lean ====
/-
  The reference's node update read at an index, at the extended reals, when every segment id is the number of its node's
  graph: the gathered virtual-node row is the graph's row (the negative-index wrap and the clamp both leave an in-range
  id alone), the concatenated row times the 512 × 256 first layer is the two halves' sum, and jax's expansion of the
  logistic function is the logistic function — so entry (i, j) is the row formula `Spec.hrow` of node row i.
-/
import proofs.«425103_j12841952215344_2_alg».proof.Proof.Gen.ReferenceIdeal.Read
import proofs.«425103_j12841952215344_2_alg».proof.Proof.Spec2
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem Idealize.ShloMosaic.StableHlo

/-- The reference's expansion of the logistic function (one over one plus the exponential of the negation), times the
    argument and the scale word, is the scaled SiLU. -/
theorem silu_expanded (z : EReal) :
    FloatOps.mulf (F := Ideal) (φ := .f32)
        (FloatOps.mulf (F := Ideal) (φ := .f32) z
          (FloatOps.hostDivf (F := Ideal) (φ := .f32) (FloatOps.ofBits (F := Ideal) .f32 0x3F800000#32)
            (FloatOps.addf (F := Ideal) (φ := .f32) (FloatOps.ofBits (F := Ideal) .f32 0x3F800000#32)
              (FloatOps.hostUnary (F := Ideal) (φ := .f32) .exp (FloatOps.hostNegf (F := Ideal) (φ := .f32) z)))))
        (FloatOps.ofBits (F := Ideal) .f32 0x3FD55555#32)
      = Cert.Spec.ssilu z := by
  show (z * Ideal.div (Ideal.ofBits .f32 0x3F800000#32) (Ideal.ofBits .f32 0x3F800000#32 + Ideal.exp (-z))) * Ideal.ofBits .f32 0x3FD55555#32
    = (z * Ideal.div 1 (1 + Ideal.exp (-z))) * Ideal.ofBits .f32 0x3FD55555#32
  rw [Ideal.ofBits_one_f32]

/-- A segment word that is a graph's number is not negative, and read as an integer it is that number. -/
theorem seg_word : ∀ s : Fin 64, IntOp.cmpi .slt (BitVec.ofNat 32 s.val) 0#32 = 0#1 ∧ (BitVec.ofNat 32 s.val).toInt.toNat = s.val := by
  decide

/-- The 512 terms of the first layer's product are the top half's 256 and the bottom half's 256. -/
theorem sum_halves (g : Fin 512 → EReal) :
    ∑ k : Fin 512, g k = (∑ k : Fin 256, g (Cert.Spec.top k)) + ∑ k : Fin 256, g (Cert.Spec.bot k) :=
  Fin.sum_univ_add (a := 256) (b := 256) g

/-- The concatenation along the columns read in its left half is the first operand, -/
theorem concat_left (a b : S200000x256.Idx → EReal) (p : Fin 200000) (k : Fin 256) :
    concatenate S200000x512 1 [⟨S200000x256, a⟩, ⟨S200000x256, b⟩] concatenates_S200000x256_S200000x256_S200000x512_d1 (ix2 p (Cert.Spec.top k))
      = a (ix2 p k) :=
  concatenate_apply_piece (t := S200000x512) (1 : Fin 2) [⟨S200000x256, a⟩, ⟨S200000x256, b⟩] concatenates_S200000x256_S200000x256_S200000x512_d1 (ix2 p (Cert.Spec.top k))
    0 (Nat.zero_lt_succ 1) S200000x256 a rfl rfl 0 rfl (ix2 p k)
    (fun b hb => match b with
      | ⟨0, _⟩ => rfl
      | ⟨1, _⟩ => absurd rfl hb)
    (Nat.zero_add _)

/-- and in its right half the second. -/
theorem concat_right (a b : S200000x256.Idx → EReal) (p : Fin 200000) (k : Fin 256) :
    concatenate S200000x512 1 [⟨S200000x256, a⟩, ⟨S200000x256, b⟩] concatenates_S200000x256_S200000x256_S200000x512_d1 (ix2 p (Cert.Spec.bot k))
      = b (ix2 p k) :=
  concatenate_apply_piece (t := S200000x512) (1 : Fin 2) [⟨S200000x256, a⟩, ⟨S200000x256, b⟩] concatenates_S200000x256_S200000x256_S200000x512_d1 (ix2 p (Cert.Spec.bot k))
    1 (Nat.lt_succ_self 1) S200000x256 b rfl rfl 256 rfl (ix2 p k)
    (fun b hb => match b with
      | ⟨0, _⟩ => rfl
      | ⟨1, _⟩ => absurd rfl hb)
    rfl

/-- The gather's one offset axis is the result's column axis. -/
theorem gather_offset_axis : ∀ h, gather_S64x256_S200000x1_S200000x256_1_0_n_n_0_1_1256.offsetDims[List.idxOf (1 : Fin 2) gather_S64x256_S200000x1_S200000x256_1_0_n_n_0_1_1256.sKept]'h = (1 : Fin 2) := by
  decide

/-- The gather of rows by a column of start indices, read at (i, k): the operand's row at the start index read as a
    signed integer and clamped to the last row. -/
theorem gather_row (x : S64x256.Idx → EReal) (idx : IVec S200000x1 32) (p : Fin 200000) (k : Fin 256) :
    Host.gather gather_S64x256_S200000x1_S200000x256_1_0_n_n_0_1_1256 x idx (ix2 p k)
      = x (ix2 ⟨min (idx (ix2 p 0)).toInt.toNat 63, by omega⟩ k) := by
  unfold Host.gather
  refine congrArg x ?_
  funext a
  refine Fin.ext ?_
  match a with
  | ⟨0, _⟩ =>
    show gather_S64x256_S200000x1_S200000x256_1_0_n_n_0_1_1256.start (ix2 p k) idx 0
      + gather_S64x256_S200000x1_S200000x256_1_0_n_n_0_1_1256.batchCoord (ix2 p k) 0
      + gather_S64x256_S200000x1_S200000x256_1_0_n_n_0_1_1256.offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S64x256_S200000x1_S200000x256_1_0_n_n_0_1_1256.startIndexMap from List.mem_singleton.mpr rfl)]
    have hsi : gather_S64x256_S200000x1_S200000x256_1_0_n_n_0_1_1256.siIdx (ix2 p k) ⟨List.idxOf (0 : Fin 2) gather_S64x256_S200000x1_S200000x256_1_0_n_n_0_1_1256.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show gather_S64x256_S200000x1_S200000x256_1_0_n_n_0_1_1256.start (ix2 p k) idx 1
      + gather_S64x256_S200000x1_S200000x256_1_0_n_n_0_1_1256.batchCoord (ix2 p k) 1
      + gather_S64x256_S200000x1_S200000x256_1_0_n_n_0_1_1256.offCoord (ix2 p k) 1 = k.val
    rw [GatherDims.batchCoord_eq_zero _ _ _ List.not_mem_nil]
    unfold GatherDims.start
    rw [dif_neg (show ¬(1 : Fin 2) ∈ gather_S64x256_S200000x1_S200000x256_1_0_n_n_0_1_1256.startIndexMap by decide)]
    unfold GatherDims.offCoord
    rw [dif_pos (show (1 : Fin 2) ∈ gather_S64x256_S200000x1_S200000x256_1_0_n_n_0_1_1256.sKept by decide)]
    rw [gather_offset_axis]
    exact Nat.zero_add _

/-! ## The composed index functions at an explicit index -/

theorem lidx8_at (p : Fin 200000) (q : Fin 256) (k : Fin 512) : Read.lidx_main_v8 (ix2 p q) k = ix2 p k :=
  funext fun a => Fin.ext (by match a with | ⟨0, _⟩ => rfl | ⟨1, _⟩ => rfl)
theorem ridx8_at (p : Fin 200000) (q : Fin 256) (k : Fin 512) : Read.ridx_main_v8 (ix2 p q) k = ix2 k q :=
  funext fun a => Fin.ext (by match a with | ⟨0, _⟩ => rfl | ⟨1, _⟩ => rfl)
theorem lidx15_at (p : Fin 200000) (q : Fin 256) (k : Fin 256) : Read.lidx_main_v15 (ix2 p q) k = ix2 p k :=
  funext fun a => Fin.ext (by match a with | ⟨0, _⟩ => rfl | ⟨1, _⟩ => rfl)
theorem ridx15_at (p : Fin 200000) (q : Fin 256) (k : Fin 256) : Read.ridx_main_v15 (ix2 p q) k = ix2 k q :=
  funext fun a => Fin.ext (by match a with | ⟨0, _⟩ => rfl | ⟨1, _⟩ => rfl)
theorem bias1_at (p : Fin 200000) (q : Fin 256) : Read.idx_main_v9 (Read.idx_main_v10 (ix2 p q)) = ix1 q :=
  funext fun a => Fin.ext (by match a with | ⟨0, _⟩ => rfl)
theorem bias2_at (p : Fin 200000) (q : Fin 256) : Read.idx_main_v16 (Read.idx_main_v17 (ix2 p q)) = ix1 q :=
  funext fun a => Fin.ext (by match a with | ⟨0, _⟩ => rfl)
theorem col_at (p : Fin 200000) : Read.idx_main_v5 (ix2 p (0 : Fin 1)) = ix1 p :=
  funext fun a => Fin.ext (by match a with | ⟨0, _⟩ => rfl)

/-! ## The gathered row -/

/-- Under `hseg` the start index of node `p` is its graph's number: the wrap of a negative index does not apply. -/
theorem start_word (x1 : (⟨S200000, .i32⟩ : BufTy).Contents (Elt Ideal)) (seg : Fin 200000 → Fin 64) (hseg : ∀ i : Fin 200000, x1 (ix1 i) = BitVec.ofNat 32 (seg i).val) (p : Fin 200000) :
    Read.val_main_v5 (F := Ideal) x1 (ix2 p (0 : Fin 1)) = BitVec.ofNat 32 (seg p).val := by
  rw [Read.val_main_v5_apply, col_at, Read.val_main_v4_apply, Read.val_main_v1_apply, Read.val_main_v0_apply, Read.val_main_c_apply, hseg,
    (seg_word (seg p)).1]
  exact select_zero _ _

/-- So the gathered row of node `p` is its graph's virtual-node row: the clamp leaves an in-range number alone. -/
theorem v6_at (x1 : (⟨S200000, .i32⟩ : BufTy).Contents (Elt Ideal)) (x2 : (⟨S64x256, .f32⟩ : BufTy).Contents (Elt Ideal)) (seg : Fin 200000 → Fin 64) (hseg : ∀ i : Fin 200000, x1 (ix1 i) = BitVec.ofNat 32 (seg i).val)
    (p : Fin 200000) (k : Fin 256) : Read.val_main_v6 (F := Ideal) x1 x2 (ix2 p k) = x2 (ix2 (seg p) k) := by
  unfold Read.val_main_v6
  refine (gather_row x2 (Read.val_main_v5 (F := Ideal) x1) p k).trans (congrArg x2 ?_)
  funext a
  refine Fin.ext ?_
  match a with
  | ⟨0, _⟩ =>
    show min (Read.val_main_v5 (F := Ideal) x1 (ix2 p (0 : Fin 1))).toInt.toNat 63 = (seg p).val
    rw [start_word x1 seg hseg p, (seg_word (seg p)).2]
    have := (seg p).isLt
    omega
  | ⟨1, _⟩ => rfl

/-! ## The two layers -/

/-- The first layer's pre-activation at (p, j): the node's row times the top half plus its graph's row times the bottom half, plus the bias. -/
theorem v11_at (x0 : (⟨S200000x256, .f32⟩ : BufTy).Contents (Elt Ideal)) (x1 : (⟨S200000, .i32⟩ : BufTy).Contents (Elt Ideal)) (x2 : (⟨S64x256, .f32⟩ : BufTy).Contents (Elt Ideal))
    (x3 : (⟨S512x256, .f32⟩ : BufTy).Contents (Elt Ideal)) (x4 : (⟨S256, .f32⟩ : BufTy).Contents (Elt Ideal)) (seg : Fin 200000 → Fin 64) (hseg : ∀ i : Fin 200000, x1 (ix1 i) = BitVec.ofNat 32 (seg i).val) (p : Fin 200000) (j : Fin 256) :
    Read.val_main_v11 (F := Ideal) x0 x1 x2 x3 x4 (ix2 p j)
      = Cert.Spec.lin2 (Cert.Spec.cur2 x0 p) (Cert.Spec.cur2 x2 (seg p)) (fun k j => Cert.Spec.cur2 x3 (Cert.Spec.top k) j)
          (fun k j => Cert.Spec.cur2 x3 (Cert.Spec.bot k) j) (Cert.Spec.cur1 x4) j := by
  rw [Read.val_main_v11_apply, Read.val_main_v8_apply, Read.val_main_v10_apply, Read.val_main_v9_apply, bias1_at, sum_halves]
  have ht : ∀ k : Fin 256, Read.val_main_v7 (F := Ideal) x0 x1 x2 (Read.lidx_main_v8 (ix2 p j) (Cert.Spec.top k)) * x3 (Read.ridx_main_v8 (ix2 p j) (Cert.Spec.top k))
      = x0 (ix2 p k) * x3 (ix2 (Cert.Spec.top k) j) := fun k => by
    rw [lidx8_at, ridx8_at]; unfold Read.val_main_v7; rw [concat_left]
  have hb : ∀ k : Fin 256, Read.val_main_v7 (F := Ideal) x0 x1 x2 (Read.lidx_main_v8 (ix2 p j) (Cert.Spec.bot k)) * x3 (Read.ridx_main_v8 (ix2 p j) (Cert.Spec.bot k))
      = x2 (ix2 (seg p) k) * x3 (ix2 (Cert.Spec.bot k) j) := fun k => by
    rw [lidx8_at, ridx8_at]; unfold Read.val_main_v7; rw [concat_right, v6_at x1 x2 seg hseg]
  simp only [ht, hb]
  rfl

/-- The reference's SiLU of the first layer, scaled. -/
theorem v14_at (x0 : (⟨S200000x256, .f32⟩ : BufTy).Contents (Elt Ideal)) (x1 : (⟨S200000, .i32⟩ : BufTy).Contents (Elt Ideal)) (x2 : (⟨S64x256, .f32⟩ : BufTy).Contents (Elt Ideal))
    (x3 : (⟨S512x256, .f32⟩ : BufTy).Contents (Elt Ideal)) (x4 : (⟨S256, .f32⟩ : BufTy).Contents (Elt Ideal)) (i : S200000x256.Idx) :
    Read.val_main_v14 (F := Ideal) x0 x1 x2 x3 x4 i = Cert.Spec.ssilu (Read.val_main_v11 (F := Ideal) x0 x1 x2 x3 x4 i) := by
  rw [Read.val_main_v14_apply, Read.val_main_v12_apply, Read.val_main_call0_v5_apply, Read.val_main_call0_v4_apply, Read.val_main_call0_cst_0_apply,
    Read.val_main_call0_v3_apply, Read.val_main_call0_v2_apply, Read.val_main_call0_cst_apply, Read.val_main_call0_v1_apply, Read.val_main_call0_v0_apply,
    Read.val_main_v13_apply, Read.val_main_cst_apply]
  exact silu_expanded _

/-- The second layer's pre-activation at (p, q). -/
theorem v18_at (x0 : (⟨S200000x256, .f32⟩ : BufTy).Contents (Elt Ideal)) (x1 : (⟨S200000, .i32⟩ : BufTy).Contents (Elt Ideal)) (x2 : (⟨S64x256, .f32⟩ : BufTy).Contents (Elt Ideal))
    (x3 : (⟨S512x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (p : Fin 200000) (q : Fin 256) :
    Read.val_main_v18 (F := Ideal) x0 x1 x2 x3 x4 x5 x6 (ix2 p q)
      = Cert.Spec.lin1 (fun k => Read.val_main_v14 (F := Ideal) x0 x1 x2 x3 x4 (ix2 p k)) (Cert.Spec.cur2 x5) (Cert.Spec.cur1 x6) q := by
  rw [Read.val_main_v18_apply, Read.val_main_v15_apply, Read.val_main_v17_apply, Read.val_main_v16_apply, bias2_at]
  simp only [lidx15_at, ridx15_at]
  rfl

/-- The reference's SiLU of the second layer, scaled. -/
theorem v21_at (x0 : (⟨S200000x256, .f32⟩ : BufTy).Contents (Elt Ideal)) (x1 : (⟨S200000, .i32⟩ : BufTy).Contents (Elt Ideal)) (x2 : (⟨S64x256, .f32⟩ : BufTy).Contents (Elt Ideal))
    (x3 : (⟨S512x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (i : S200000x256.Idx) :
    Read.val_main_v21 (F := Ideal) x0 x1 x2 x3 x4 x5 x6 i = Cert.Spec.ssilu (Read.val_main_v18 (F := Ideal) x0 x1 x2 x3 x4 x5 x6 i) := by
  rw [Read.val_main_v21_apply, Read.val_main_v19_apply, Read.val_main_call1_v5_apply, Read.val_main_call1_v4_apply, Read.val_main_call1_cst_0_apply,
    Read.val_main_call1_v3_apply, Read.val_main_call1_v2_apply, Read.val_main_call1_cst_apply, Read.val_main_call1_v1_apply, Read.val_main_call1_v0_apply,
    Read.val_main_v20_apply, Read.val_main_cst_1_apply]
  exact silu_expanded _

/-- The reference's updated rows are `Spec.Href` of its arguments. -/
theorem ref_h (x0 : (⟨S200000x256, .f32⟩ : BufTy).Contents (Elt Ideal)) (x1 : (⟨S200000, .i32⟩ : BufTy).Contents (Elt Ideal)) (x2 : (⟨S64x256, .f32⟩ : BufTy).Contents (Elt Ideal))
    (x3 : (⟨S512x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))
    (seg : Fin 200000 → Fin 64) (hseg : ∀ i : Fin 200000, x1 (ix1 i) = BitVec.ofNat 32 (seg i).val) :
    Cert.ReferenceIdeal.Read.val_main_v22 (F := Ideal) x0 x1 x2 x3 x4 x5 x6 = Cert.Spec.Href x0 seg x2 x3 x4 x5 x6 := by
  funext i
  obtain ⟨p, q, rfl⟩ : ∃ (p : Fin 200000) (q : Fin 256), i = ix2 p q := ⟨i 0, i 1, eq_ix2 i⟩
  rw [Read.val_main_v22_apply, v21_at, v18_at]
  simp only [v14_at, v11_at x0 x1 x2 x3 x4 seg hseg]
  rfl

end Cert.ReferenceIdeal.RefValue

end
-- ==== Proof.RefVA.lean ====
/-
  The mathematics under the reference's virtual-node update, free of any program: an accumulating scatter whose index
  words are the graphs' numbers is, at (b, k), the sum of entry k over the nodes of graph b (an update at (n, f) lands at
  (graph of n, f): its start is the index word read signed on the scattered axis and zero on the other, its window
  coordinate zero on the inserted axis and f on the other); a row joined from two 256-wide pieces, against a 512-row
  matrix, is the first piece against the top half plus the second against the bottom half; and the program's spelling of
  the logistic function, of the scaled SiLU and of the pooled mean is the specification's.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«425103_j12841952215344_2_alg».proof.Proof.Spec2

set_option maxRecDepth 16384

noncomputable section

namespace Cert.ReferenceIdeal.RefValue.V

open Idealize.ShloMosaic Idealize.ShloMosaic.ValueIdx

/-! ## The scatter's start and window, axis by axis

Stated for any record with these dimension numbers (update window axes [1], inserted window axes [0], scattered operand
axes [0], the index vector on axis 1), whatever its proof of well-formedness. -/

/-- On the scattered axis the start is the index word of the update's row, read signed. -/
theorem scatter_start0 (d : ScatterDims (⟨2, ![64, 256]⟩ : Shape) (⟨2, ![200000, 1]⟩ : Shape) (⟨2, ![200000, 256]⟩ : Shape))
    (h1 : d.updateWindowDims = [1]) (h2 : d.insertedWindowDims = [0]) (h3 : d.scatterDimsToOperandDims = [0])
    (h4 : d.indexVectorDim = 1) (idx : IVec (⟨2, ![200000, 1]⟩ : Shape) 32) (n : Fin 200000) (f : Fin 256) :
    d.start (ix2 n f) idx 0 = (idx (ix2 n 0)).toInt := by
  obtain ⟨uw, iw, sd, iv, wf⟩ := d
  dsimp only at h1 h2 h3 h4
  subst h1 h2 h3 h4
  unfold ScatterDims.start
  rw [dif_pos (show (0 : Fin 2) ∈ ([0] : List (Fin 2)) by decide)]
  refine congrArg (fun i => (idx i).toInt) ?_
  funext b
  match b with
  | ⟨0, _⟩ => rfl
  | ⟨1, _⟩ => rfl

theorem scatter_start1 (d : ScatterDims (⟨2, ![64, 256]⟩ : Shape) (⟨2, ![200000, 1]⟩ : Shape) (⟨2, ![200000, 256]⟩ : Shape))
    (h1 : d.updateWindowDims = [1]) (h2 : d.insertedWindowDims = [0]) (h3 : d.scatterDimsToOperandDims = [0])
    (h4 : d.indexVectorDim = 1) (idx : IVec (⟨2, ![200000, 1]⟩ : Shape) 32) (j : (⟨2, ![200000, 256]⟩ : Shape).Idx) :
    d.start j idx 1 = 0 := by
  obtain ⟨uw, iw, sd, iv, wf⟩ := d
  dsimp only at h1 h2 h3 h4
  subst h1 h2 h3 h4
  unfold ScatterDims.start
  rw [dif_neg (show ¬ (1 : Fin 2) ∈ ([0] : List (Fin 2)) by decide)]

theorem scatter_window0 (d : ScatterDims (⟨2, ![64, 256]⟩ : Shape) (⟨2, ![200000, 1]⟩ : Shape) (⟨2, ![200000, 256]⟩ : Shape))
    (h1 : d.updateWindowDims = [1]) (h2 : d.insertedWindowDims = [0]) (h3 : d.scatterDimsToOperandDims = [0])
    (h4 : d.indexVectorDim = 1) (j : (⟨2, ![200000, 256]⟩ : Shape).Idx) :
    d.window j 0 = 0 := by
  obtain ⟨uw, iw, sd, iv, wf⟩ := d
  dsimp only at h1 h2 h3 h4
  subst h1 h2 h3 h4
  unfold ScatterDims.window
  rw [dif_neg (show ¬ (0 : Fin 2) ∈ (⟨2, ![64, 256]⟩ : Shape).kept [0] by decide)]

theorem scatter_window1 (d : ScatterDims (⟨2, ![64, 256]⟩ : Shape) (⟨2, ![200000, 1]⟩ : Shape) (⟨2, ![200000, 256]⟩ : Shape))
    (h1 : d.updateWindowDims = [1]) (h2 : d.insertedWindowDims = [0]) (h3 : d.scatterDimsToOperandDims = [0])
    (h4 : d.indexVectorDim = 1) (n : Fin 200000) (f : Fin 256) :
    d.window (ix2 n f) 1 = f.val := by
  obtain ⟨uw, iw, sd, iv, wf⟩ := d
  dsimp only at h1 h2 h3 h4
  subst h1 h2 h3 h4
  unfold ScatterDims.window
  rw [dif_pos (show (1 : Fin 2) ∈ (⟨2, ![64, 256]⟩ : Shape).kept [0] by decide)]
  rfl

/-! ## Where an update lands, and the scatter at an index -/

theorem toInt_ofNat_fin64 (s : Fin 64) : (BitVec.ofNat 32 s.val).toInt = (s.val : Int) := by
  have hs := s.isLt
  have hn : (BitVec.ofNat 32 s.val).toNat = s.val := by
    rw [BitVec.toNat_ofNat]; exact Nat.mod_eq_of_lt (by omega)
  rw [BitVec.toInt_eq_toNat_of_lt (by rw [hn]; omega), hn]

/-- An update at (n, f) whose index word reads `s` lands at (s, f). -/
theorem scatter_resultIdx (d : ScatterDims (⟨2, ![64, 256]⟩ : Shape) (⟨2, ![200000, 1]⟩ : Shape) (⟨2, ![200000, 256]⟩ : Shape))
    (h1 : d.updateWindowDims = [1]) (h2 : d.insertedWindowDims = [0]) (h3 : d.scatterDimsToOperandDims = [0])
    (h4 : d.indexVectorDim = 1) (idx : IVec (⟨2, ![200000, 1]⟩ : Shape) 32) (n : Fin 200000) (f : Fin 256) (s : Fin 64)
    (hs : (idx (ix2 n 0)).toInt = (s.val : Int)) :
    d.resultIdx? (ix2 n f) idx = some (ix2 s f) := by
  have e0 := scatter_start0 d h1 h2 h3 h4 idx n f
  have e1 := scatter_start1 d h1 h2 h3 h4 idx (ix2 n f)
  have w0 := scatter_window0 d h1 h2 h3 h4 (ix2 n f)
  have w1 := scatter_window1 d h1 h2 h3 h4 n f
  have hs' := s.isLt
  have hf := f.isLt
  have H0 : 0 ≤ d.start (ix2 n f) idx 0 + d.window (ix2 n f) 0
      ∧ d.start (ix2 n f) idx 0 + d.window (ix2 n f) 0 < (⟨2, ![64, 256]⟩ : Shape).size 0 := by
    rw [e0, w0, hs]
    show _ ∧ _ < ((64 : Nat) : Int)
    omega
  have H1 : 0 ≤ d.start (ix2 n f) idx 1 + d.window (ix2 n f) 1
      ∧ d.start (ix2 n f) idx 1 + d.window (ix2 n f) 1 < (⟨2, ![64, 256]⟩ : Shape).size 1 := by
    rw [e1, w1]
    show _ ∧ _ < ((256 : Nat) : Int)
    omega
  have H : ∀ a, 0 ≤ d.start (ix2 n f) idx a + d.window (ix2 n f) a
      ∧ d.start (ix2 n f) idx a + d.window (ix2 n f) a < (⟨2, ![64, 256]⟩ : Shape).size a := by
    intro a
    match a with
    | ⟨0, _⟩ => exact H0
    | ⟨1, _⟩ => exact H1
  unfold ScatterDims.resultIdx?
  rw [dif_pos H]
  refine congrArg some ?_
  funext a
  match a with
  | ⟨0, _⟩ =>
    refine Fin.ext ?_
    show (d.start (ix2 n f) idx 0 + d.window (ix2 n f) 0).toNat = s.val
    rw [e0, w0, hs]; omega
  | ⟨1, _⟩ =>
    refine Fin.ext ?_
    show (d.start (ix2 n f) idx 1 + d.window (ix2 n f) 1).toNat = f.val
    rw [e1, w1]; omega

/-- The accumulating scatter of the rows `H` into `z` along the graphs' numbers: at (b, k) it is `z` there plus the sum
    of entry k over the nodes of graph b. -/
theorem scatter_read (d : ScatterDims (⟨2, ![64, 256]⟩ : Shape) (⟨2, ![200000, 1]⟩ : Shape) (⟨2, ![200000, 256]⟩ : Shape))
    (h1 : d.updateWindowDims = [1]) (h2 : d.insertedWindowDims = [0]) (h3 : d.scatterDimsToOperandDims = [0])
    (h4 : d.indexVectorDim = 1) (idx : IVec (⟨2, ![200000, 1]⟩ : Shape) 32) (seg : Fin 200000 → Fin 64)
    (hidx : ∀ n, idx (ix2 n 0) = BitVec.ofNat 32 (seg n).val)
    (z : (⟨2, ![64, 256]⟩ : Shape).Idx → EReal) (H : (⟨2, ![200000, 256]⟩ : Shape).Idx → EReal) (b : Fin 64) (k : Fin 256) :
    Ideal.hostScatterAdd d z idx H (ix2 b k)
      = z (ix2 b k) + ∑ n ∈ Finset.univ.filter (fun n => seg n = b), H (ix2 n k) := by
  unfold Ideal.hostScatterAdd
  refine congrArg (fun t => z (ix2 b k) + t) ?_
  rw [Finset.sum_filter, Finset.sum_filter, sum_idx2]
  refine Finset.sum_congr rfl (fun n _ => ?_)
  have hr : ∀ f : Fin 256, d.resultIdx? (ix2 n f) idx = some (ix2 (seg n) f) := fun f =>
    scatter_resultIdx d h1 h2 h3 h4 idx n f (seg n) (by rw [hidx n]; exact toInt_ofNat_fin64 (seg n))
  by_cases hb : seg n = b
  · rw [if_pos hb, Finset.sum_eq_single k]
    · rw [if_pos (by rw [hr k, hb])]
    · intro f _ hf
      rw [if_neg]
      rw [hr f]
      intro h
      exact hf (congrFun (Option.some.inj h) 1)
    · intro h
      exact absurd (Finset.mem_univ k) h
  · rw [if_neg hb]
    refine Finset.sum_eq_zero (fun f _ => ?_)
    rw [if_neg]
    rw [hr f]
    intro h
    exact hb (congrFun (Option.some.inj h) 0)

/-! ## The joined row against the 512-row matrix -/

/-- A sum over the 512 rows of the joined matrix is the sum over its top half plus the sum over its bottom half. -/
theorem sum_fin512 (g : Fin 512 → EReal) :
    ∑ k : Fin 512, g k = (∑ k : Fin 256, g (Cert.Spec.top k)) + ∑ k : Fin 256, g (Cert.Spec.bot k) :=
  Fin.sum_univ_add (a := 256) (b := 256) g

/-- The joined row at a column of its first half is the first piece's row there. -/
theorem concat_top (A B : (⟨2, ![64, 256]⟩ : Shape).Idx → EReal)
    (h : Shape.Concatenates [(⟨2, ![64, 256]⟩ : Shape), (⟨2, ![64, 256]⟩ : Shape)] (⟨2, ![64, 512]⟩ : Shape) 1)
    (b : Fin 64) (k : Fin 256) :
    concatenate (⟨2, ![64, 512]⟩ : Shape) 1 [⟨(⟨2, ![64, 256]⟩ : Shape), A⟩, ⟨(⟨2, ![64, 256]⟩ : Shape), B⟩] h (ix2 b (Cert.Spec.top k))
      = A (ix2 b k) :=
  concatenate_pair_apply_left 1 A B h (ix2 b (Cert.Spec.top k)) rfl (ix2 b k) (fun a => by
    match a with
    | ⟨0, _⟩ => rfl
    | ⟨1, _⟩ => rfl)

/-- The joined row at a column of its second half is the second piece's row at the column less 256. -/
theorem concat_bot (A B : (⟨2, ![64, 256]⟩ : Shape).Idx → EReal)
    (h : Shape.Concatenates [(⟨2, ![64, 256]⟩ : Shape), (⟨2, ![64, 256]⟩ : Shape)] (⟨2, ![64, 512]⟩ : Shape) 1)
    (b : Fin 64) (k : Fin 256) :
    concatenate (⟨2, ![64, 512]⟩ : Shape) 1 [⟨(⟨2, ![64, 256]⟩ : Shape), A⟩, ⟨(⟨2, ![64, 256]⟩ : Shape), B⟩] h (ix2 b (Cert.Spec.bot k))
      = B (ix2 b k) :=
  concatenate_pair_apply_right 1 A B h (ix2 b (Cert.Spec.bot k)) rfl rfl (ix2 b k) (fun a ha => by
    match a with
    | ⟨0, _⟩ => rfl
    | ⟨1, _⟩ => exact absurd rfl ha) (by
    show k.val + 256 = 256 + k.val
    omega)

/-- The joined rows against the 512-row matrix: the first piece against its top half plus the second against its bottom half. -/
theorem concat_dot (A B : (⟨2, ![64, 256]⟩ : Shape).Idx → EReal)
    (h : Shape.Concatenates [(⟨2, ![64, 256]⟩ : Shape), (⟨2, ![64, 256]⟩ : Shape)] (⟨2, ![64, 512]⟩ : Shape) 1)
    (W : (⟨2, ![512, 256]⟩ : Shape).Idx → EReal) (b : Fin 64) (j : Fin 256) :
    (∑ k' : Fin 512, concatenate (⟨2, ![64, 512]⟩ : Shape) 1 [⟨(⟨2, ![64, 256]⟩ : Shape), A⟩, ⟨(⟨2, ![64, 256]⟩ : Shape), B⟩] h (ix2 b k') * W (ix2 k' j))
      = (∑ k : Fin 256, A (ix2 b k) * W (ix2 (Cert.Spec.top k) j)) + ∑ k : Fin 256, B (ix2 b k) * W (ix2 (Cert.Spec.bot k) j) := by
  rw [sum_fin512]
  congr 1
  · exact Finset.sum_congr rfl (fun k _ => by rw [concat_top])
  · exact Finset.sum_congr rfl (fun k _ => by rw [concat_bot])

/-! ## The program's spellings -/

/-- The logistic function as the program spells it out: 1 / (1 + exp (-z)), the two ones the word 1.0. -/
theorem logistic_spelt (z : EReal) :
    Ideal.div (Ideal.ofBits .f32 0x3F800000#32) (Ideal.ofBits .f32 0x3F800000#32 + Ideal.exp (-z)) = Ideal.logistic z := by
  rw [Ideal.ofBits_one_f32]
  rfl

/-- The scaled SiLU as the program spells it out. -/
theorem ssilu_spelt (z : EReal) :
    (z * Ideal.div (Ideal.ofBits .f32 0x3F800000#32) (Ideal.ofBits .f32 0x3F800000#32 + Ideal.exp (-z)))
      * Ideal.ofBits .f32 0x3FD55555#32 = Cert.Spec.ssilu z := by
  rw [logistic_spelt]
  rfl

/-- The pooled mean as the program spells it out. -/
theorem pooled_spelt (s c : EReal) :
    Ideal.div s (max c (Ideal.ofBits .f32 0x3F800000#32)) = Cert.Spec.pooled s c := rfl

end Cert.ReferenceIdeal.RefValue.V

end
-- ==== Proof.RefV.lean ====
/-
  The reference's virtual-node update read at an index, at the extended reals, when every segment id is the number of
  its node's graph: the accumulating scatter of the updated rows into zeros is, at (b, k), the sum of entry k over the
  nodes of graph b; the rest is the pooled mean and the two-layer shape of `Spec.mlp` over the concatenated row.
-/
import proofs.«425103_j12841952215344_2_alg».proof.Proof.Gen.ReferenceIdeal.Read
import proofs.«425103_j12841952215344_2_alg».proof.Proof.Spec2
import proofs.«425103_j12841952215344_2_alg».proof.Proof.RefVA

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem Idealize.ShloMosaic.StableHlo

namespace V

/-! ## Read's index functions at explicit coordinates -/

theorem col24_at (n : Fin 200000) : Read.idx_main_v24 (ix2 n (0 : Fin 1)) = ix1 n :=
  funext fun a => Fin.ext (by match a with | ⟨0, _⟩ => rfl)
theorem col32_at (b : Fin 64) (k : Fin 256) : Read.idx_main_v32 (ix2 b k) = ix2 b (0 : Fin 1) :=
  funext fun a => Fin.ext (by match a with | ⟨0, _⟩ => rfl | ⟨1, _⟩ => rfl)
theorem lidx35_at (b : Fin 64) (q : Fin 256) (k : Fin 512) : Read.lidx_main_v35 (ix2 b q) k = ix2 b k :=
  funext fun a => Fin.ext (by match a with | ⟨0, _⟩ => rfl | ⟨1, _⟩ => rfl)
theorem ridx35_at (b : Fin 64) (q : Fin 256) (k : Fin 512) : Read.ridx_main_v35 (ix2 b q) k = ix2 k q :=
  funext fun a => Fin.ext (by match a with | ⟨0, _⟩ => rfl | ⟨1, _⟩ => rfl)
theorem lidx42_at (b : Fin 64) (q : Fin 256) (k : Fin 256) : Read.lidx_main_v42 (ix2 b q) k = ix2 b k :=
  funext fun a => Fin.ext (by match a with | ⟨0, _⟩ => rfl | ⟨1, _⟩ => rfl)
theorem ridx42_at (b : Fin 64) (q : Fin 256) (k : Fin 256) : Read.ridx_main_v42 (ix2 b q) k = ix2 k q :=
  funext fun a => Fin.ext (by match a with | ⟨0, _⟩ => rfl | ⟨1, _⟩ => rfl)
theorem bias8_at (b : Fin 64) (q : Fin 256) : Read.idx_main_v36 (Read.idx_main_v37 (ix2 b q)) = ix1 q :=
  funext fun a => Fin.ext (by match a with | ⟨0, _⟩ => rfl)
theorem bias10_at (b : Fin 64) (q : Fin 256) : Read.idx_main_v43 (Read.idx_main_v44 (ix2 b q)) = ix1 q :=
  funext fun a => Fin.ext (by match a with | ⟨0, _⟩ => rfl)

/-! ## The stages at an index -/

/-- The scatter's index column holds the graphs' numbers. -/
theorem v24_at (x1 : (⟨S200000, .i32⟩ : BufTy).Contents (Elt Ideal)) (seg : Fin 200000 → Fin 64) (hseg : ∀ i : Fin 200000, x1 (ix1 i) = BitVec.ofNat 32 (seg i).val) (n : Fin 200000) :
    Read.val_main_v24 (F := Ideal) x1 (ix2 n (0 : Fin 1)) = BitVec.ofNat 32 (seg n).val := by
  rw [Read.val_main_v24_apply, col24_at]
  exact hseg n

/-- The accumulating scatter of the updated rows into zeros, at (b, k): the sum of entry k over the nodes of graph b. -/
theorem v25_at (x0 : (⟨S200000x256, .f32⟩ : BufTy).Contents (Elt Ideal)) (x1 : (⟨S200000, .i32⟩ : BufTy).Contents (Elt Ideal)) (x2 : (⟨S64x256, .f32⟩ : BufTy).Contents (Elt Ideal)) (x3 : (⟨S512x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (seg : Fin 200000 → Fin 64) (hseg : ∀ i : Fin 200000, x1 (ix1 i) = BitVec.ofNat 32 (seg i).val) (b : Fin 64) (k : Fin 256) :
    Read.val_main_v25 (F := Ideal) x0 x1 x2 x3 x4 x5 x6 (ix2 b k) = ∑ n ∈ Finset.univ.filter (fun n => seg n = b), Read.val_main_v22 (F := Ideal) x0 x1 x2 x3 x4 x5 x6 (ix2 n k) := by
  unfold Read.val_main_v25
  generalize Read.val_main_v22 (F := Ideal) x0 x1 x2 x3 x4 x5 x6 = H
  refine (scatter_read scatter_S64x256_S200000x1_S200000x256_1_0_0_1 rfl rfl rfl rfl (Read.val_main_v24 (F := Ideal) x1) seg
    (fun n => v24_at x1 seg hseg n) (Read.val_main_v23 (F := Ideal)) H b k).trans ?_
  rw [Read.val_main_v23_apply, Read.val_main_cst_2_apply, Ideal.ofBits_def, Ideal.ofBits_zero_f32, zero_add]

/-- The pooled mean at (b, k). -/
theorem v33_at (x0 : (⟨S200000x256, .f32⟩ : BufTy).Contents (Elt Ideal)) (x1 : (⟨S200000, .i32⟩ : BufTy).Contents (Elt Ideal)) (x2 : (⟨S64x256, .f32⟩ : BufTy).Contents (Elt Ideal)) (x3 : (⟨S512x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (seg : Fin 200000 → Fin 64) (hseg : ∀ i : Fin 200000, x1 (ix1 i) = BitVec.ofNat 32 (seg i).val) (b : Fin 64) (k : Fin 256) :
    Read.val_main_v33 (F := Ideal) x0 x1 x2 x3 x4 x5 x6 (ix2 b k)
      = Cert.Spec.pooled (∑ n ∈ Finset.univ.filter (fun n => seg n = b), Read.val_main_v22 (F := Ideal) x0 x1 x2 x3 x4 x5 x6 (ix2 n k)) (Read.val_main_v29 (F := Ideal) x1 (ix2 b (0 : Fin 1))) := by
  rw [Read.val_main_v33_apply, Read.val_main_v32_apply, col32_at, Read.val_main_v31_apply, Read.val_main_v30_apply,
    Read.val_main_cst_5_apply, v25_at x0 x1 x2 x3 x4 x5 x6 seg hseg b k]
  rfl

/-- The first layer before its activation, at (b, k): the pooled row against the top half of the weights, the virtual
    node's row against the bottom half, plus the bias. -/
theorem v38_at (x0 : (⟨S200000x256, .f32⟩ : BufTy).Contents (Elt Ideal)) (x1 : (⟨S200000, .i32⟩ : BufTy).Contents (Elt Ideal)) (x2 : (⟨S64x256, .f32⟩ : BufTy).Contents (Elt Ideal)) (x3 : (⟨S512x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S512x256, .f32⟩ : BufTy).Contents (Elt Ideal)) (x8 : (⟨S256, .f32⟩ : BufTy).Contents (Elt Ideal)) (b : Fin 64) (k : Fin 256) :
    Read.val_main_v38 (F := Ideal) x0 x1 x2 x3 x4 x5 x6 x7 x8 (ix2 b k)
      = Cert.Spec.lin2 (fun k' => Read.val_main_v33 (F := Ideal) x0 x1 x2 x3 x4 x5 x6 (ix2 b k')) (Cert.Spec.cur2 x2 b)
          (fun k j => Cert.Spec.cur2 x7 (Cert.Spec.top k) j) (fun k j => Cert.Spec.cur2 x7 (Cert.Spec.bot k) j) (Cert.Spec.cur1 x8) k := by
  have hsum : (∑ k' : Fin 512, Read.val_main_v34 (F := Ideal) x0 x1 x2 x3 x4 x5 x6 (Read.lidx_main_v35 (ix2 b k) k') * x7 (Read.ridx_main_v35 (ix2 b k) k'))
      = ∑ k' : Fin 512, Read.val_main_v34 (F := Ideal) x0 x1 x2 x3 x4 x5 x6 (ix2 b k') * x7 (ix2 k' k) :=
    Finset.sum_congr rfl (fun k' _ => by rw [lidx35_at, ridx35_at])
  rw [Read.val_main_v38_apply, Read.val_main_v35_apply, hsum, Read.val_main_v37_apply, Read.val_main_v36_apply, bias8_at]
  unfold Read.val_main_v34
  rw [concat_dot]
  rfl

/-- The first layer's activation, at (b, k). -/
theorem v41_at (x0 : (⟨S200000x256, .f32⟩ : BufTy).Contents (Elt Ideal)) (x1 : (⟨S200000, .i32⟩ : BufTy).Contents (Elt Ideal)) (x2 : (⟨S64x256, .f32⟩ : BufTy).Contents (Elt Ideal)) (x3 : (⟨S512x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S512x256, .f32⟩ : BufTy).Contents (Elt Ideal)) (x8 : (⟨S256, .f32⟩ : BufTy).Contents (Elt Ideal)) (b : Fin 64) (k : Fin 256) :
    Read.val_main_v41 (F := Ideal) x0 x1 x2 x3 x4 x5 x6 x7 x8 (ix2 b k) = Cert.Spec.ssilu (Read.val_main_v38 (F := Ideal) x0 x1 x2 x3 x4 x5 x6 x7 x8 (ix2 b k)) := by
  rw [Read.val_main_v41_apply, Read.val_main_v39_apply, Read.val_main_call2_v5_apply, Read.val_main_call2_v4_apply,
    Read.val_main_call2_cst_0_apply, Read.val_main_call2_v3_apply, Read.val_main_call2_v2_apply, Read.val_main_call2_cst_apply,
    Read.val_main_call2_v1_apply, Read.val_main_call2_v0_apply, Read.val_main_v40_apply, Read.val_main_cst_6_apply]
  generalize Read.val_main_v38 (F := Ideal) x0 x1 x2 x3 x4 x5 x6 x7 x8 (ix2 b k) = z
  show (z * Ideal.div (Ideal.ofBits .f32 0x3F800000#32) (Ideal.ofBits .f32 0x3F800000#32 + Ideal.exp (-z)))
      * Ideal.ofBits .f32 0x3FD55555#32 = Cert.Spec.ssilu z
  exact ssilu_spelt z

/-- The second layer before its activation, at (b, j). -/
theorem v45_at (x0 : (⟨S200000x256, .f32⟩ : BufTy).Contents (Elt Ideal)) (x1 : (⟨S200000, .i32⟩ : BufTy).Contents (Elt Ideal)) (x2 : (⟨S64x256, .f32⟩ : BufTy).Contents (Elt Ideal)) (x3 : (⟨S512x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S512x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (b : Fin 64) (j : Fin 256) :
    Read.val_main_v45 (F := Ideal) x0 x1 x2 x3 x4 x5 x6 x7 x8 x9 x10 (ix2 b j)
      = Cert.Spec.lin1 (fun k => Read.val_main_v41 (F := Ideal) x0 x1 x2 x3 x4 x5 x6 x7 x8 (ix2 b k)) (Cert.Spec.cur2 x9) (Cert.Spec.cur1 x10) j := by
  have hsum : (∑ k : Fin 256, Read.val_main_v41 (F := Ideal) x0 x1 x2 x3 x4 x5 x6 x7 x8 (Read.lidx_main_v42 (ix2 b j) k) * x9 (Read.ridx_main_v42 (ix2 b j) k))
      = ∑ k : Fin 256, Read.val_main_v41 (F := Ideal) x0 x1 x2 x3 x4 x5 x6 x7 x8 (ix2 b k) * x9 (ix2 k j) :=
    Finset.sum_congr rfl (fun k _ => by rw [lidx42_at, ridx42_at])
  rw [Read.val_main_v45_apply, Read.val_main_v42_apply, hsum, Read.val_main_v44_apply, Read.val_main_v43_apply, bias10_at]
  rfl

/-- The second layer's activation, at (b, j). -/
theorem v48_at (x0 : (⟨S200000x256, .f32⟩ : BufTy).Contents (Elt Ideal)) (x1 : (⟨S200000, .i32⟩ : BufTy).Contents (Elt Ideal)) (x2 : (⟨S64x256, .f32⟩ : BufTy).Contents (Elt Ideal)) (x3 : (⟨S512x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S512x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (b : Fin 64) (j : Fin 256) :
    Read.val_main_v48 (F := Ideal) x0 x1 x2 x3 x4 x5 x6 x7 x8 x9 x10 (ix2 b j) = Cert.Spec.ssilu (Read.val_main_v45 (F := Ideal) x0 x1 x2 x3 x4 x5 x6 x7 x8 x9 x10 (ix2 b j)) := by
  rw [Read.val_main_v48_apply, Read.val_main_v46_apply, Read.val_main_call3_v5_apply, Read.val_main_call3_v4_apply,
    Read.val_main_call3_cst_0_apply, Read.val_main_call3_v3_apply, Read.val_main_call3_v2_apply, Read.val_main_call3_cst_apply,
    Read.val_main_call3_v1_apply, Read.val_main_call3_v0_apply, Read.val_main_v47_apply, Read.val_main_cst_7_apply]
  generalize Read.val_main_v45 (F := Ideal) x0 x1 x2 x3 x4 x5 x6 x7 x8 x9 x10 (ix2 b j) = z
  show (z * Ideal.div (Ideal.ofBits .f32 0x3F800000#32) (Ideal.ofBits .f32 0x3F800000#32 + Ideal.exp (-z)))
      * Ideal.ofBits .f32 0x3FD55555#32 = Cert.Spec.ssilu z
  exact ssilu_spelt z

end V

open V in
/-- The reference's virtual-node rows are `Spec.VNref` of its updated rows, its counts column and its arguments. -/
theorem ref_v (x0 : (⟨S200000x256, .f32⟩ : BufTy).Contents (Elt Ideal)) (x1 : (⟨S200000, .i32⟩ : BufTy).Contents (Elt Ideal)) (x2 : (⟨S64x256, .f32⟩ : BufTy).Contents (Elt Ideal))
    (x3 : (⟨S512x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))
    (x7 : (⟨S512x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal))
    (seg : Fin 200000 → Fin 64) (hseg : ∀ i : Fin 200000, x1 (ix1 i) = BitVec.ofNat 32 (seg i).val) :
    Cert.ReferenceIdeal.Read.val_main_v48 (F := Ideal) x0 x1 x2 x3 x4 x5 x6 x7 x8 x9 x10
      = Cert.Spec.VNref (Cert.ReferenceIdeal.Read.val_main_v22 (F := Ideal) x0 x1 x2 x3 x4 x5 x6) seg
          (Cert.ReferenceIdeal.Read.val_main_v29 (F := Ideal) x1) x2 x7 x8 x9 x10 := by
  funext i
  obtain ⟨b, j, rfl⟩ : ∃ (b : Fin 64) (j : Fin 256), i = ix2 b j := ⟨i 0, i 1, eq_ix2 i⟩
  -- the first layer's activated row of graph b, in the specification's words
  have h41 : (fun k => Read.val_main_v41 (F := Ideal) x0 x1 x2 x3 x4 x5 x6 x7 x8 (ix2 b k))
      = fun k => Cert.Spec.ssilu (Cert.Spec.lin2
          (fun k' => Cert.Spec.pooled (∑ n ∈ Finset.univ.filter (fun n => seg n = b), Read.val_main_v22 (F := Ideal) x0 x1 x2 x3 x4 x5 x6 (ix2 n k')) (Read.val_main_v29 (F := Ideal) x1 (ix2 b (0 : Fin 1))))
          (Cert.Spec.cur2 x2 b) (fun k j => Cert.Spec.cur2 x7 (Cert.Spec.top k) j) (fun k j => Cert.Spec.cur2 x7 (Cert.Spec.bot k) j)
          (Cert.Spec.cur1 x8) k) := by
    funext k
    have h33 : (fun k' => Read.val_main_v33 (F := Ideal) x0 x1 x2 x3 x4 x5 x6 (ix2 b k'))
        = fun k' => Cert.Spec.pooled (∑ n ∈ Finset.univ.filter (fun n => seg n = b), Read.val_main_v22 (F := Ideal) x0 x1 x2 x3 x4 x5 x6 (ix2 n k')) (Read.val_main_v29 (F := Ideal) x1 (ix2 b (0 : Fin 1))) :=
      funext fun k' => v33_at x0 x1 x2 x3 x4 x5 x6 seg hseg b k'
    rw [v41_at, v38_at, h33]
  rw [v48_at, v45_at, h41]
  -- both sides are now the same expression over the updated rows and the counts: name the two and compare
  generalize Read.val_main_v22 (F := Ideal) x0 x1 x2 x3 x4 x5 x6 = H
  generalize Read.val_main_v29 (F := Ideal) x1 = C
  rfl

end Cert.ReferenceIdeal.RefValue

end
-- ==== Proof.Counts.lean ====
/-
  The two programs count the nodes of each graph by the same host operation on the same operands: the kernel's
  program scatters ones at the (clipped, here unchanged) segment ids into zeros, and so does the reference.
-/
import proofs.«425103_j12841952215344_2_alg».proof.Proof.Gen.ReferenceIdeal.Read
import proofs.«425103_j12841952215344_2_alg».proof.Proof.Spec2
import proofs.«425103_j12841952215344_2_alg».proof.Proof.Gen.KernelIdeal
set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem Idealize.ShloMosaic.StableHlo

/-- The kernel program's counts term is the reference's counts stage, at the same segment ids. -/
theorem counts_eq (b : (⟨S200000, .i32⟩ : BufTy).Contents (Elt Ideal)) :
    Host.scatterAdd (F := Ideal) Cert.KernelIdeal.scatter_S64x1_S200000x1_S200000x1_1_0_0_1
        (broadcastInDim Cert.KernelIdeal.S64x1 ![] Cert.KernelIdeal.Gen.bcast_S_S64x1 (constant (F := Ideal) Cert.KernelIdeal.S_ .f32 0x00000000#32))
        (broadcastInDim Cert.KernelIdeal.S200000x1 ![0] Cert.KernelIdeal.Gen.bcast_S200000_S200000x1_0 b)
        (broadcastInDim Cert.KernelIdeal.S200000x1 ![] Cert.KernelIdeal.Gen.bcast_S_S200000x1 (constant (F := Ideal) Cert.KernelIdeal.S_ .f32 0x3F800000#32))
      = Cert.ReferenceIdeal.Read.val_main_v29 (F := Ideal) b := by
  -- both sides are the same scatter of the same three operands: the two programs' shapes are the same literals, their
  -- scatter records have the same four fields, and the remaining differences are proofs of one proposition
  unfold Read.val_main_v29 Read.val_main_v27 Read.val_main_v28 Read.val_main_v26 Read.val_main_cst_3 Read.val_main_cst_4
  rfl

end Cert.ReferenceIdeal.RefValue

end
-- ==== Proof.Alg.lean ====
/-
  The five conjuncts. Both kernels' frames are the run of @main as six segments (three host stretches, the node kernel's
  region, the counts' stretch, the virtual-node kernel's region) read at the argument arrays; the reference's frame is its
  run with the results dropped; the idealization rewrote nothing. The value claim, under finite inputs and segment ids in
  [0, 64): the kernel's updated rows are h = ssilu (ssilu (x·W₁ᵗ + vx[seg]·W₁ᵇ + b₁)·W₂ + b₂) + x row by row — its one-hot
  product with vx IS the row of the node's graph, the clip changing no id — and so are the reference's (its gather at an
  in-range id, the concatenated row times W₁ split in two halves, jax's expansion of the logistic function); the kernel's
  virtual-node rows run the second MLP on the tile-wise one-hot sums added over the fifty tiles, which are the segment
  sums the reference's accumulating scatter forms, over the same counts.
-/
import proofs.«425103_j12841952215344_2_alg».proof.Defs
import proofs.«425103_j12841952215344_2_alg».proof.Proof.K.Args
import proofs.«425103_j12841952215344_2_alg».proof.Proof.KI.Args
import proofs.«425103_j12841952215344_2_alg».proof.Proof.KI.Final
import proofs.«425103_j12841952215344_2_alg».proof.Proof.Pre
import proofs.«425103_j12841952215344_2_alg».proof.Proof.RefH
import proofs.«425103_j12841952215344_2_alg».proof.Proof.RefV
import proofs.«425103_j12841952215344_2_alg».proof.Proof.Counts
import proofs.«425103_j12841952215344_2_alg».proof.Proof.Gen.Kernel
import proofs.«425103_j12841952215344_2_alg».proof.Proof.Gen.KernelIdeal
import proofs.«425103_j12841952215344_2_alg».proof.Proof.Gen.ReferenceIdeal
import proofs.«425103_j12841952215344_2_alg».proof.Proof.Gen.Pre_finite_inputs
import proofs.«425103_j12841952215344_2_alg».proof.Proof.Gen.ReferenceIdeal.Run
import proofs.«425103_j12841952215344_2_alg».proof.Proof.Gen.ReferenceIdeal.Read

noncomputable section

namespace Cert.Proof.Conjuncts

open Idealize.ShloMosaic Idealize.ShloMosaic.TcCoe Idealize.ShloMosaic.ValueIdx Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hr : ∀ (c : Dev Cert.KernelIdeal.nD) (i : Fin 200000),
      0 ≤ ((m ((c.tc : Thread Cert.KernelIdeal.nD Cert.KernelIdeal.τ).loc Cert.KernelIdeal.main_arg1)) (ix1 i)).toInt ∧ ((m ((c.tc : Thread Cert.KernelIdeal.nD Cert.KernelIdeal.τ).loc Cert.KernelIdeal.main_arg1)) (ix1 i)).toInt < 64 :=
    fun c i => Cert.Proof.PreFacts.batch_inRange m hpre c i
  have hseg : ∀ (c : Dev Cert.KernelIdeal.nD) (i : Fin 200000),
      (m ((c.tc : Thread Cert.KernelIdeal.nD Cert.KernelIdeal.τ).loc Cert.KernelIdeal.main_arg1)) (ix1 i) = BitVec.ofNat 32 (Cert.KernelIdeal.Val.segF m c i).val :=
    fun c i => Cert.Spec.eq_ofNat_segOf (hr c i)
  refine ⟨fun c => Cert.Spec.Href (m ((c.tc : Thread Cert.KernelIdeal.nD Cert.KernelIdeal.τ).loc Cert.KernelIdeal.main_arg0)) (Cert.KernelIdeal.Val.segF m c) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.VNref (Cert.Spec.Href (m ((c.tc : Thread Cert.KernelIdeal.nD Cert.KernelIdeal.τ).loc Cert.KernelIdeal.main_arg0)) (Cert.KernelIdeal.Val.segF m c) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Cert.KernelIdeal.Val.segF m c) (Cert.KernelIdeal.Val.countsK m c)
      (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Val.kernel_h m c (hr c)),
      (h c).2.1.trans (Cert.KernelIdeal.Val.kernel_v m c (hr c)), (h c).2.2⟩) (Cert.KernelIdeal.Hand.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v22_eq m' c, (hagree c).1, (hagree c).2.1, (hagree c).2.2.1, (hagree c).2.2.2.1, (hagree c).2.2.2.2.1, (hagree c).2.2.2.2.2.1, (hagree c).2.2.2.2.2.2.1]
      exact Cert.ReferenceIdeal.RefValue.ref_h _ _ _ _ _ _ _ (Cert.KernelIdeal.Val.segF m c) (hseg c)
    · rw [Cert.ReferenceIdeal.Read.val_main_v48_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2,
        Cert.ReferenceIdeal.RefValue.ref_v _ _ _ _ _ _ _ _ _ _ _ (Cert.KernelIdeal.Val.segF m c) (hseg c),
        Cert.ReferenceIdeal.RefValue.ref_h _ _ _ _ _ _ _ (Cert.KernelIdeal.Val.segF m c) (hseg c),
        ← Cert.ReferenceIdeal.RefValue.counts_eq]
      rfl

end Cert.Proof.Conjuncts

end
-- ==== Proof.lean ====
/-
  The certificate of the node-update kernel against its jnp reference: `Cert.Claim` from its five conjuncts
  (Proof/Alg.lean) — the word-level kernel's frame, the idealized kernel's frame, the reference's frame, the (empty)
  idealization ledger, and the equality over the extended reals of the two results (the updated node rows and the
  updated virtual-node rows) under finite inputs and segment ids in [0, 64).
-/
import proofs.«425103_j12841952215344_2_alg».proof.Defs
import proofs.«425103_j12841952215344_2_alg».proof.Proof.Alg
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Conjuncts.frame_k, Conjuncts.frame_ki, Conjuncts.frame_ri, Conjuncts.preserves, Conjuncts.algebraic⟩

end Cert.Proof

end
